-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v0)) (v2 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x64 : Shape := ⟨2, ![2000000, 64]⟩
abbrev S1000000 : Shape := ⟨1, ![1000000]⟩
abbrev S_ : Shape := ⟨0, ![]⟩

class Facts : Prop where
  bcast_S_S2000000x64 : S_.BroadcastsInDim S2000000x64 (![] : Fin 0 → Fin S2000000x64.rank)
  reducesTo_S2000000x64_S_d0_1 : S2000000x64.ReducesTo [0, 1] S_
  h_S_ : 0 < S_.numel

variable [Facts]

def fn {F : FTy → Type} [FloatOps F] (main_arg0 : FVec F S2000000x64 .f32) (main_arg1 : FVec F S2000000x64 .f32) (main_arg2 : IVec S1000000 32) (main_arg3 : IVec S1000000 32) : IVec S_ 1 :=
  let main_v0 : FVec F S2000000x64 .f32 := Host.absf main_arg0
  let main_cst : FVec F S_ .f32 := constant S_ .f32 0x7F800000#32
  let main_v1 : FVec F S2000000x64 .f32 := broadcastInDim S2000000x64 ![] bcast_S_S2000000x64 main_cst
  let main_v2 : IVec S2000000x64 1 := cmpf .olt main_v0 main_v1
  let main_c : IVec S_ 1 := constantI S_ 1 1#1
  let main_v3 : IVec S_ 1 := (fun x v => Host.reduce IntOp.andi x v reducesTo_S2000000x64_S_d0_1 h_S_) main_v2 main_c
  let main_v4 : FVec F S2000000x64 .f32 := Host.absf main_arg1
  let main_cst_0 : FVec F S_ .f32 := constant S_ .f32 0x7F800000#32
  let main_v5 : FVec F S2000000x64 .f32 := broadcastInDim S2000000x64 ![] bcast_S_S2000000x64 main_cst_0
  let main_v6 : IVec S2000000x64 1 := cmpf .olt main_v4 main_v5
  let main_c_1 : IVec S_ 1 := constantI S_ 1 1#1
  let main_v7 : IVec S_ 1 := (fun x v => Host.reduce IntOp.andi x v reducesTo_S2000000x64_S_d0_1 h_S_) main_v6 main_c_1
  let main_v8 : IVec S_ 1 := andi main_v3 main_v7
  main_v8
-- ==== Kernel.lean ====
abbrev S2000000x64 : Shape := ⟨2, ![2000000, 64]⟩
abbrev S1000000 : Shape := ⟨1, ![1000000]⟩
abbrev S_ : Shape := ⟨0, ![]⟩
abbrev S2000000 : Shape := ⟨1, ![2000000]⟩
abbrev S1000000x1 : Shape := ⟨2, ![1000000, 1]⟩
abbrev S2000000x1 : Shape := ⟨2, ![2000000, 1]⟩
abbrev S1x1 : Shape := ⟨2, ![1, 1]⟩
abbrev S10000x64 : Shape := ⟨2, ![10000, 64]⟩
abbrev S10000x1 : Shape := ⟨2, ![10000, 1]⟩
abbrev S10000 : Shape := ⟨1, ![10000]⟩
abbrev S1 : Shape := ⟨1, ![1]⟩

abbrev nBuf : Space → Nat
  | .hbm => 69
  | .vmem => 12
  | .smem => 0
  | _ => 0

abbrev bufTy : (tb : Table) → Fin (tcTables nBuf tb) → BufTy
  | .hbm, ⟨0, _⟩ => ⟨S2000000x64, .f32⟩
  | .hbm, ⟨1, _⟩ => ⟨S2000000x64, .f32⟩
  | .hbm, ⟨2, _⟩ => ⟨S1000000, .i32⟩
  | .hbm, ⟨3, _⟩ => ⟨S1000000, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S_, .i1⟩
  | .hbm, ⟨20, _⟩ => ⟨S1000000, .i1⟩
  | .hbm, ⟨21, _⟩ => ⟨S1000000, .i1⟩
  | .hbm, ⟨22, _⟩ => ⟨S1000000, .i1⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S_, .i1⟩
  | .hbm, ⟨42, _⟩ => ⟨S1000000, .i1⟩
  | .hbm, ⟨43, _⟩ => ⟨S1000000, .i1⟩
  | .hbm, ⟨44, _⟩ => ⟨S1000000, .i1⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S_, .f32⟩
  | .hbm, ⟨49, _⟩ => ⟨S1000000, .f32⟩
  | .hbm, ⟨50, _⟩ => ⟨S_, .f32⟩
  | .hbm, ⟨51, _⟩ => ⟨S2000000, .f32⟩
  | .hbm, ⟨52, _⟩ => ⟨S1000000x1, .i32⟩
  | .hbm, ⟨53, _⟩ => ⟨S2000000, .f32⟩
  | .hbm, ⟨54, _⟩ => ⟨S_, .f32⟩
  | .hbm, ⟨55, _⟩ => ⟨S1000000, .f32⟩
  | .hbm, ⟨56, _⟩ => ⟨S_, .f32⟩
  | .hbm, ⟨57, _⟩ => ⟨S2000000, .f32⟩
  | .hbm, ⟨58, _⟩ => ⟨S1000000x1, .i32⟩
  | .hbm, ⟨59, _⟩ => ⟨S2000000, .f32⟩
  | .hbm, ⟨60, _⟩ => ⟨S2000000x1, .f32⟩
  | .hbm, ⟨61, _⟩ => ⟨S1x1, .f32⟩
  | .hbm, ⟨62, _⟩ => ⟨S2000000x1, .f32⟩
  | .hbm, ⟨63, _⟩ => ⟨S1x1, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S1x1, .f32⟩
  | .local _ .vmem, ⟨5, _⟩ => ⟨S1x1, .f32⟩
  | .local _ .vmem, ⟨6, _⟩ => ⟨S10000x64, .f32⟩
  | .local _ .vmem, ⟨7, _⟩ => ⟨S10000x64, .f32⟩
  | .local _ .vmem, ⟨8, _⟩ => ⟨S10000x1, .f32⟩
  | .local _ .vmem, ⟨9, _⟩ => ⟨S10000x1, .f32⟩
  | .local _ .vmem, ⟨10, _⟩ => ⟨S1x1, .f32⟩
  | .local _ .vmem, ⟨11, _⟩ => ⟨S1x1, .f32⟩
  | _, _ => ⟨S2000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v0 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v1 : Ref sig .tc := ⟨.hbm, 47, rfl⟩
abbrev main_cst : Ref sig .tc := ⟨.hbm, 48, rfl⟩
abbrev main_v2 : Ref sig .tc := ⟨.hbm, 49, rfl⟩
abbrev main_cst_1 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_cst_2 : Ref sig .tc := ⟨.hbm, 54, rfl⟩
abbrev main_v6 : Ref sig .tc := ⟨.hbm, 55, rfl⟩
abbrev main_cst_3 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_cst_4 : Ref sig .tc := ⟨.hbm, 67, rfl⟩
abbrev main_v17 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9

abbrev nD : Nat := 1
abbrev τ : Topo := Topo.v7x

variable {F : FTy → Type} [FloatOps F]

abbrev grid0 : Pipeline.Grid := ⟨1, ![200], ![false]⟩

def k0_cond2 (i : grid0.Coords) : BitVec 1 :=
  let arg0 : BitVec 32 := BitVec.ofNat 32 (i 0).val
  let c199_i32 : BitVec 32 := 199#32
  let v17 : BitVec 1 := Scalar.cmpi .eq arg0 c199_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![200], ![false]⟩

def k1_cond2 (i : grid1.Coords) : BitVec 1 :=
  let arg0 : BitVec 32 := BitVec.ofNat 32 (i 0).val
  let c199_i32 : BitVec 32 := 199#32
  let v17 : BitVec 1 := Scalar.cmpi .eq arg0 c199_i32
  let v18 : BitVec 32 := Scalar.extui v17
  let c0_i32_9 : BitVec 32 := 0#32
  let v19 : BitVec 1 := Scalar.cmpi .ne v18 c0_i32_9
  v19

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  bcast_S_S1000000 : S_.BroadcastsInDim S1000000 (![] : Fin 0 → Fin S1000000.rank)
  bcast_S_S2000000 : S_.BroadcastsInDim S2000000 (![] : Fin 0 → Fin S2000000.rank)
  bcast_S1000000_S1000000x1_0 : S1000000.BroadcastsInDim S1000000x1 (![0] : Fin 1 → Fin S1000000x1.rank)
  shapeCasts_S2000000_S2000000x1 : S2000000.ShapeCasts S2000000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S10000x64_S10000x64_0_0 : ∀ a, (![0, 0] : Fin 2 → Nat) a + S10000x64.size a ≤ S10000x64.size a
  h_S10000x64 : 0 < S10000x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  reduces_S10000x64_S10000 : S10000x64.Reduces [1] S10000
  shapeCasts_S10000_S10000x1 : S10000.ShapeCasts S10000x1
  reduces_S10000x1_S1 : S10000x1.Reduces [0] S1
  shapeCasts_S1_S1x1 : S1.ShapeCasts S1x1
  shapeCasts_S1x1_S_ : S1x1.ShapeCasts S_
  scatter_S2000000_S1000000x1_S1000000_n_0_0_1_wf : ScatterDims.WF S2000000 S1000000x1 S1000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S2000000x64.size a
  hwx0_0 : ∀ i : grid0.Coords, EltTy.bits .f32 = 32 ∨ (Rect.block (s := S2000000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S2000000x1.size a
  hwx0_1 : ∀ i : grid0.Coords, EltTy.bits .f32 = 32 ∨ (Rect.block (s := S2000000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S2000000x64.size a
  hwx1_0 : ∀ i : grid1.Coords, EltTy.bits .f32 = 32 ∨ (Rect.block (s := S2000000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S2000000x1.size a
  hwx1_1 : ∀ i : grid1.Coords, EltTy.bits .f32 = 32 ∨ (Rect.block (s := S2000000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def scatter_S2000000_S1000000x1_S1000000_n_0_0_1 : ScatterDims S2000000 S1000000x1 S1000000 where
  updateWindowDims := []
  insertedWindowDims := [0]
  scatterDimsToOperandDims := [0]
  indexVectorDim := 1
  wf := scatter_S2000000_S1000000x1_S1000000_n_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2000000x64 : Shape := ⟨2, ![2000000, 64]⟩
abbrev S1000000 : Shape := ⟨1, ![1000000]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x64 : Shape := ⟨2, ![1000000, 64]⟩

abbrev nBuf : Space → Nat
  | .hbm => 99
  | .vmem => 0
  | .smem => 0
  | _ => 0

abbrev bufTy : (tb : Table) → Fin (tcTables nBuf tb) → BufTy
  | .hbm, ⟨0, _⟩ => ⟨S2000000x64, .f32⟩
  | .hbm, ⟨1, _⟩ => ⟨S2000000x64, .f32⟩
  | .hbm, ⟨2, _⟩ => ⟨S1000000, .i32⟩
  | .hbm, ⟨3, _⟩ => ⟨S1000000, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S_, .i1⟩
  | .hbm, ⟨20, _⟩ => ⟨S1000000, .i1⟩
  | .hbm, ⟨21, _⟩ => ⟨S1000000, .i1⟩
  | .hbm, ⟨22, _⟩ => ⟨S1000000, .i1⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S_, .i1⟩
  | .hbm, ⟨42, _⟩ => ⟨S1000000, .i1⟩
  | .hbm, ⟨43, _⟩ => ⟨S1000000, .i1⟩
  | .hbm, ⟨44, _⟩ => ⟨S1000000, .i1⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1, .i32⟩
  | .hbm, ⟨57, _⟩ => ⟨S_, .i32⟩
  | .hbm, ⟨58, _⟩ => ⟨S1000000x1, .i32⟩
  | .hbm, ⟨59, _⟩ => ⟨S1000000x1, .i1⟩
  | .hbm, ⟨60, _⟩ => ⟨S1x1, .i32⟩
  | .hbm, ⟨61, _⟩ => ⟨S1000000x1, .i32⟩
  | .hbm, ⟨62, _⟩ => ⟨S1000000x1, .i1⟩
  | .hbm, ⟨63, _⟩ => ⟨S1000000x1, .i1⟩
  | .hbm, ⟨64, _⟩ => ⟨S_, .i1⟩
  | .hbm, ⟨65, _⟩ => ⟨S1000000, .i1⟩
  | .hbm, ⟨66, _⟩ => ⟨S1000000x64, .f32⟩
  | .hbm, ⟨67, _⟩ => ⟨S1000000x64, .i1⟩
  | .hbm, ⟨68, _⟩ => ⟨S_, .f32⟩
  | .hbm, ⟨69, _⟩ => ⟨S1000000x64, .f32⟩
  | .hbm, ⟨70, _⟩ => ⟨S1000000x64, .f32⟩
  | .hbm, ⟨71, _⟩ => ⟨S_, .i32⟩
  | .hbm, ⟨72, _⟩ => ⟨S1000000, .i32⟩
  | .hbm, ⟨73, _⟩ => ⟨S1000000, .i1⟩
  | .hbm, ⟨74, _⟩ => ⟨S_, .i32⟩
  | .hbm, ⟨75, _⟩ => ⟨S1000000, .i32⟩
  | .hbm, ⟨76, _⟩ => ⟨S1000000, .i32⟩
  | .hbm, ⟨77, _⟩ => ⟨S1000000, .i32⟩
  | .hbm, ⟨78, _⟩ => ⟨S1000000x1, .i32⟩
  | .hbm, ⟨79, _⟩ => ⟨S1, .i32⟩
  | .hbm, ⟨80, _⟩ => ⟨S_, .i32⟩
  | .hbm, ⟨81, _⟩ => ⟨S1000000x1, .i32⟩
  | .hbm, ⟨82, _⟩ => ⟨S1000000x1, .i1⟩
  | .hbm, ⟨83, _⟩ => ⟨S1x1, .i32⟩
  | .hbm, ⟨84, _⟩ => ⟨S1000000x1, .i32⟩
  | .hbm, ⟨85, _⟩ => ⟨S1000000x1, .i1⟩
  | .hbm, ⟨86, _⟩ => ⟨S1000000x1, .i1⟩
  | .hbm, ⟨87, _⟩ => ⟨S_, .i1⟩
  | .hbm, ⟨88, _⟩ => ⟨S1000000, .i1⟩
  | .hbm, ⟨89, _⟩ => ⟨S1000000x64, .f32⟩
  | .hbm, ⟨90, _⟩ => ⟨S1000000x64, .i1⟩
  | .hbm, ⟨91, _⟩ => ⟨S_, .f32⟩
  | .hbm, ⟨92, _⟩ => ⟨S1000000x64, .f32⟩
  | .hbm, ⟨93, _⟩ => ⟨S1000000x64, .f32⟩
  | .hbm, ⟨94, _⟩ => ⟨S2000000x64, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S2000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_v5 : Ref sig .tc := ⟨.hbm, 13, rfl⟩
abbrev main_call0_v6 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_c_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v0 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v1 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_call2_cst : Ref sig .tc := ⟨.hbm, 68, rfl⟩
abbrev main_call2_v15 : Ref sig .tc := ⟨.hbm, 69, rfl⟩
abbrev main_v2 : Ref sig .tc := ⟨.hbm, 70, rfl⟩
abbrev main_call3_c : Ref sig .tc := ⟨.hbm, 71, rfl⟩
abbrev main_call3_v0 : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_c_1 : Ref sig .tc := ⟨.hbm, 79, rfl⟩
abbrev main_call3_c_2 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_3 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_call3_cst : Ref sig .tc := ⟨.hbm, 91, rfl⟩
abbrev main_call3_v15 : Ref sig .tc := ⟨.hbm, 92, rfl⟩
abbrev main_v3 : Ref sig .tc := ⟨.hbm, 93, rfl⟩
abbrev main_v4 : Ref sig .tc := ⟨.hbm, 94, rfl⟩
abbrev main_cst : Ref sig .tc := ⟨.hbm, 95, rfl⟩
abbrev main_v5 : Ref sig .tc := ⟨.hbm, 96, rfl⟩
abbrev main_cst_1 : Ref sig .tc := ⟨.hbm, 97, rfl⟩
abbrev main_v6 : Ref sig .tc := ⟨.hbm, 98, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  concatenates_S1000000x64_S1000000x64_S2000000x64_d0 : Shape.Concatenates [S1000000x64, S1000000x64] S2000000x64 0
  reducesTo_S2000000x64_S_d0_1 : S2000000x64.ReducesTo [0, 1] S_
  gather_S2000000x64_S1000000x1_S1000000x64_1_0_n_n_0_1_164_wf : GatherDims.WF S2000000x64 S1000000x1 S1000000x64 [1] [0] [] [0] [] 1 ![1, 64]

variable [Facts₀]

def gather_S2000000x64_S1000000x1_S1000000x64_1_0_n_n_0_1_164 : GatherDims S2000000x64 S1000000x1 S1000000x64 where
  offsetDims := [1]
  collapsedSliceDims := [0]
  operandBatchingDims := []
  startIndicesBatchingDims := []
  startIndexMap := [0]
  indexVectorDim := 1
  sliceSizes := ![1, 64]
  wf := gather_S2000000x64_S1000000x1_S1000000x64_1_0_n_n_0_1_164_wf

class Facts : Prop extends Facts₀ where

variable [Facts]
-- ==== Proof.KI.Rest.lean ====
/-
  Each launch's scoped rest, sorted: the launch's own accumulator cell (a 1×1 scratch buffer) apart from the six scoped
  buffers that belong to the other launch (its staging buffers and its accumulator), which this launch never touches
  and hands back at whatever they held.
-/
import proofs.«410300_j15324443312170_3_alg».proof.Proof.Gen.KernelIdeal.Launch
import Idealize.ShloMosaic.Lib.Pipeline.Frame

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scoped buffers the first launch never touches, each whole at some contents. -/
def otherR0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f))

/-- The scoped buffers the second launch never touches, each whole at some contents. -/
def otherR1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f))

/-- The first launch's scoped rest is its accumulator cell at some contents beside the other launch's buffers. -/
theorem scoped_split_R0 (c : Dev nD) :
    (Pipeline.scopedRest (Ix := Unit) (Name := ℕ) (U := UR sig nD τ) (Lvl := ℕ) (Val := Elt F) spec0 c : sProp 𝕄)
      ⊢ iprop((∃ d, owns (c : Thread nD τ) (Memref.whole cc0_scratch0 : Memref sig .tc .vmem S1x1 .f32) fullShare d) ∗ otherR0 c) := by
  rw [scopedRest0_eq]; unfold otherR0; simp only [owns_whole]
  exact .rfl

theorem scoped_join_R0 (c : Dev nD) :
    iprop((∃ d, owns (c : Thread nD τ) (Memref.whole cc0_scratch0 : Memref sig .tc .vmem S1x1 .f32) fullShare d) ∗ otherR0 c)
      ⊢ (Pipeline.scopedRest (Ix := Unit) (Name := ℕ) (U := UR sig nD τ) (Lvl := ℕ) (Val := Elt F) spec0 c : sProp 𝕄) := by
  rw [scopedRest0_eq]; unfold otherR0; simp only [owns_whole]
  exact .rfl

/-- The second launch's scoped rest is its accumulator cell at some contents beside the other launch's buffers. -/
theorem scoped_split_R1 (c : Dev nD) :
    (Pipeline.scopedRest (Ix := Unit) (Name := ℕ) (U := UR sig nD τ) (Lvl := ℕ) (Val := Elt F) spec1 c : sProp 𝕄)
      ⊢ iprop((∃ d, owns (c : Thread nD τ) (Memref.whole cc1_scratch0 : Memref sig .tc .vmem S1x1 .f32) fullShare d) ∗ otherR1 c) := by
  rw [scopedRest1_eq]; unfold otherR1; simp only [owns_whole]
  iintro ⟨Ha, Hb, Hc, Hd, He, Hf, Hs⟩
  isplitl [Hs]; · iexact Hs
  isplitl [Ha]; · iexact Ha
  isplitl [Hb]; · iexact Hb
  isplitl [Hc]; · iexact Hc
  isplitl [Hd]; · iexact Hd
  isplitl [He]; · iexact He
  iexact Hf

theorem scoped_join_R1 (c : Dev nD) :
    iprop((∃ d, owns (c : Thread nD τ) (Memref.whole cc1_scratch0 : Memref sig .tc .vmem S1x1 .f32) fullShare d) ∗ otherR1 c)
      ⊢ (Pipeline.scopedRest (Ix := Unit) (Name := ℕ) (U := UR sig nD τ) (Lvl := ℕ) (Val := Elt F) spec1 c : sProp 𝕄) := by
  rw [scopedRest1_eq]; unfold otherR1; simp only [owns_whole]
  iintro ⟨Hs, Ha, Hb, Hc, Hd, He, Hf⟩
  isplitl [Ha]; · iexact Ha
  isplitl [Hb]; · iexact Hb
  isplitl [Hc]; · iexact Hc
  isplitl [Hd]; · iexact Hd
  isplitl [He]; · iexact He
  isplitl [Hf]; · iexact Hf
  iexact Hs

end Cert.KernelIdeal.Run

end
-- ==== Proof.KI.R0Runs.lean ====
import proofs.«410300_j15324443312170_3_alg».proof.Proof.Gen.KernelIdeal.Launch
import proofs.«410300_j15324443312170_3_alg».proof.Proof.Gen.KernelIdeal.Skeleton
import proofs.«410300_j15324443312170_3_alg».proof.Proof.Gen.KernelIdeal.Points
import proofs.«410300_j15324443312170_3_alg».proof.Proof.KI.Rest
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first launch's body, run once per control case

The body at a grid point resets the 1×1 accumulator cell at the first point, adds the point's block sum
Σ_rows Σ_cols table · counts into it, and copies the cell to the output block at the last point. Three control
cases meet a grid of 200 points: the first point (reset, then add), a middle point (add), the last point (add, then copy
out). Each case's run is stated on whole memrefs of the operands' shapes; what the stores leave in the cell and in the
output block is kept as the list of pieces the run wrote. -/

/-- The body's first conditional: the grid coordinate is 0. -/
abbrev condR0_first (i : grid0.Coords) : Prop := (Scalar.cmpi .ne (Scalar.extui (Scalar.cmpi .eq (BitVec.ofNat 32 (i 0).val) 0#32)) 0#32) = 1#1
/-- The body's second conditional: the grid coordinate is 199. -/
abbrev condR0_last (i : grid0.Coords) : Prop := k0_cond2 i = 1#1

theorem hcondR0_first : ∀ t : Fin cfg0.N, condR0_first (grid0.coords t) ↔ t.val = 0 :=
  (by decide +kernel : ∀ t : Fin grid0.N, condR0_first (grid0.coords t) ↔ t.val = 0)
theorem hcondR0_last : ∀ t : Fin cfg0.N, condR0_last (grid0.coords t) ↔ t.val = 199 :=
  (by decide +kernel : ∀ t : Fin grid0.N, condR0_last (grid0.coords t) ↔ t.val = 199)

/-- The two input windows are live at every point; the output window is idle, and not written back, away from the last
    point, and live there. -/
theorem liveR0_0 : ∀ t : Fin cfg0.N, cfg0.idle 0 (grid0.coords t) = false := by decide +kernel
theorem liveR0_1 : ∀ t : Fin cfg0.N, cfg0.idle 1 (grid0.coords t) = false := by decide +kernel
theorem idleR0_2 : ∀ t : Fin cfg0.N, ¬condR0_last (grid0.coords t) → cfg0.idle 2 (grid0.coords t) = true := by decide +kernel
theorem noFlushR0_2 : ∀ t : Fin cfg0.N, ¬condR0_last (grid0.coords t) → (cfg0.win 2).flush t = false := by decide +kernel
theorem liveR0_2 : ∀ t : Fin cfg0.N, condR0_last (grid0.coords t) → cfg0.idle 2 (grid0.coords t) = false := by decide +kernel

/-- The output block's staging buffer and the accumulator cell, as views. -/
abbrev VO_R0 : View sig .tc .vmem S1x1 .f32 := (Memref.whole cc0_stg2_0 : Memref sig .tc .vmem S1x1 .f32).view
abbrev msR0_0 (t : Fin cfg0.N) : Memref sig .tc .vmem S10000x64 .f32 := win0_0.stage (cfg0.slots t 0)
abbrev hsR0_0 (t : Fin cfg0.N) : (msR0_0 t).IsWhole := hstage0_0 ((cfg0.slots t 0).cast nbuf0_0)
abbrev msR0_1 (t : Fin cfg0.N) : Memref sig .tc .vmem S10000x1 .f32 := win0_1.stage (cfg0.slots t 1)
abbrev hsR0_1 (t : Fin cfg0.N) : (msR0_1 t).IsWhole := hstage0_1 ((cfg0.slots t 1).cast nbuf0_1)
abbrev msR0_2 (t : Fin cfg0.N) : Memref sig .tc .vmem S1x1 .f32 := win0_2.stage (cfg0.slots t 2)
abbrev hsR0_2 (t : Fin cfg0.N) : (msR0_2 t).IsWhole := hstage0_2 ((cfg0.slots t 2).cast nbuf0_2)
abbrev scM_R0 : Memref sig .tc .vmem S1x1 .f32 := Memref.whole cc0_scratch0
abbrev VS_R0 : View sig .tc .vmem S1x1 .f32 := scM_R0.view

set_option maxHeartbeats 1000000 in
/-- The first point: the cell, at anything, is reset and the block sum added; the output block untouched. -/
noncomputable def kernelRunR0_A (c : Dev nD) (i : grid0.Coords) (arg1 : Memref sig .tc .vmem S10000x64 .f32) (harg1 : arg1.IsWhole) (arg2 : Memref sig .tc .vmem S10000x1 .f32) (harg2 : arg2.IsWhole) (arg3 : Memref sig .tc .vmem S1x1 .f32) (harg3 : arg3.IsWhole) (arg4 : Memref sig .tc .vmem S1x1 .f32) (harg4 : arg4.IsWhole) (hc0 : condR0_first i) (hc1 : ¬condR0_last i)
    (x0 : Vec F S10000x64 .f32) (x1 : Vec F S10000x1 .f32) :
    { LS : List (View.Piece (Elt F) S1x1 .f32) //
      ∀ (xi : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi ∗ (∃ d, owns (c : Thread nD τ) arg4 fullShare d)
            ∗ (iprop(owns (c : Thread nD τ) arg1 fullShare x0 ∗ owns (c : Thread nD τ) arg2 fullShare x1 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__weighted_sum_kernel i arg1 harg1 arg2 harg2 arg3 harg3 arg4 harg4) K } := by
  refine ⟨?_, fun xi E K => ?run⟩
  case run =>
    simp only [cc0__weighted_sum_kernel_eq_skeleton]; unfold cc0__weighted_sum_kernel_skel
    unfold owns
    iintro ⟨⟨%f0, %hf0, H0⟩, ⟨%f1, %hf1, H1⟩, ⟨%f2, %hf2, H2⟩, ⟨%ds, %fs, -, HS⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

set_option maxHeartbeats 1000000 in
/-- A middle point: the block sum is added to what the point before left in the cell; the output block untouched. -/
noncomputable def kernelRunR0_B (c : Dev nD) (i : grid0.Coords) (arg1 : Memref sig .tc .vmem S10000x64 .f32) (harg1 : arg1.IsWhole) (arg2 : Memref sig .tc .vmem S10000x1 .f32) (harg2 : arg2.IsWhole) (arg3 : Memref sig .tc .vmem S1x1 .f32) (harg3 : arg3.IsWhole) (arg4 : Memref sig .tc .vmem S1x1 .f32) (harg4 : arg4.IsWhole) (hc0 : ¬condR0_first i) (hc1 : ¬condR0_last i)
    (x0 : Vec F S10000x64 .f32) (x1 : Vec F S10000x1 .f32) (xs : Vec F S1x1 .f32) :
    { LS : List (View.Piece (Elt F) S1x1 .f32) //
      ∀ (xi : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi ∗ owns (c : Thread nD τ) arg4 fullShare xs
            ∗ (iprop(owns (c : Thread nD τ) arg1 fullShare x0 ∗ owns (c : Thread nD τ) arg2 fullShare x1 ∗ owns (c : Thread nD τ) arg3 fullShare xi ∗ (∃ f, arg4.view.loc (c : Thread nD τ) ↦[arg4.view.set]{fullShare} arg4.view.writes (Elt F) f LS)) -∗ K ⟨⟩))
          ⊢ wp frame (wpE (defs₀ (F := F)) Variants.none c none) E (cc0__weighted_sum_kernel i arg1 harg1 arg2 harg2 arg3 harg3 arg4 harg4) K } := by
  refine ⟨?_, fun xi E K => ?run⟩
  case run =>
    simp only [cc0__weighted_sum_kernel_eq_skeleton]; unfold cc0__weighted_sum_kernel_skel
    unfold owns
    iintro ⟨⟨%f0, %hf0, H0⟩, ⟨%f1, %hf1, H1⟩, ⟨%f2, %hf2, H2⟩, ⟨%fs, %hfs, HS⟩, Hk⟩
    obtain rfl := harg1.eq_unread hf0; obtain rfl := harg2.eq_unread hf1; obtain rfl := harg3.eq_unread hf2; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS

set_option maxHeartbeats 1000000 in
/-- The last point: the block sum is added to what the point before left in the cell, and the cell copied to the output
    block, whatever that held. -/
noncomputable def kernelRunR0_C (c : Dev nD) (i : grid0.Coords) (arg1 : Memref sig .tc .vmem S10000x64 .f32) (harg1 : arg1.IsWhole) (arg2 : Memref sig .tc .vmem S10000x1 .f32) (harg2 : arg2.IsWhole) (arg3 : Memref sig .tc .vmem S1x1 .f32) (harg3 : arg3.IsWhole) (arg4 : Memref sig .tc .vmem S1x1 .f32) (harg4 : arg4.IsWhole) (hc0 : ¬condR0_first i) (hc1 : condR0_last i)
    (x0 : Vec F S10000x64 .f32) (x1 : Vec F S10000x1 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LS)) -∗ K ⟨⟩))
          ⊢ wp frame (wpE (defs₀ (F := F)) Variants.none c none) E (cc0__weighted_sum_kernel i arg1 harg1 arg2 harg2 arg3 harg3 arg4 harg4) K } := by
  refine ⟨?_, ?_, fun E K => ?run⟩
  case run =>
    simp only [cc0__weighted_sum_kernel_eq_skeleton]; unfold cc0__weighted_sum_kernel_skel
    unfold owns
    iintro ⟨⟨%f0, %hf0, H0⟩, ⟨%f1, %hf1, H1⟩, ⟨%d2, %f2, -, H2⟩, ⟨%fs, %hfs, HS⟩, Hk⟩
    obtain rfl := harg1.eq_unread hf0; obtain rfl := harg2.eq_unread hf1; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS

end Cert.KernelIdeal.Run

end
-- ==== Proof.KI.R0Dat.lean ====
import proofs.«410300_j15324443312170_3_alg».proof.Proof.Gen.KernelIdeal.Launch
import proofs.«410300_j15324443312170_3_alg».proof.Proof.Gen.KernelIdeal.Skeleton
import proofs.«410300_j15324443312170_3_alg».proof.Proof.Gen.KernelIdeal.Points
import proofs.«410300_j15324443312170_3_alg».proof.Proof.KI.R0Runs
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first launch's proof data: what the accumulator cell holds point by point

Over the buffer contents `V` the launch is entered from. The two input windows' staging buffers hold their blocks of
the table and of the counts column at every point; the accumulator cell holds, after point n, the case's stores read
back over what point n − 1 left; the output block holds, at the last point, the copy of the cell. -/

variable (V : (c : Dev nD) → (b : Ref sig .tc) → Buf (Elt F) ((c : Thread nD τ).loc b))

/-- Window w's block at point t, read off its array as the launch finds it. -/
def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is V's and
    whose body leaves the block in place. -/
theorem beforeR0_0_of {c : Dev nD} (dat : Dat τ (Elt F) Unit ℕ (UR sig nD τ) ℕ cfg0 c) (hA : dat.A 0 = V c (Pipeline.arrRef spec0 0))
    (hafter : ∀ t, dat.after 0 t = iblkR0 V c 0 t) (t : Fin cfg0.N) (d) : dat.before 0 t d = iblkR0 V c 0 t :=
  (dat.before_in_eq_fetched 0 rfl (fun _ => rfl) (fun _ _ _ => rfl) (fun t => by rw [hafter]; unfold Dat.blockOf iblkR0; rw [hA]; try rfl) t d).trans
    (by unfold Dat.fetched Dat.blockOf iblkR0; rw [hA]; try rfl)
theorem beforeR0_1_of {c : Dev nD} (dat : Dat τ (Elt F) Unit ℕ (UR sig nD τ) ℕ cfg0 c) (hA : dat.A 1 = V c (Pipeline.arrRef spec0 1))
    (hafter : ∀ t, dat.after 1 t = iblkR0 V c 1 t) (t : Fin cfg0.N) (d) : dat.before 1 t d = iblkR0 V c 1 t :=
  (dat.before_in_eq_fetched 1 rfl (fun _ => rfl) (fun _ _ _ => rfl) (fun t => by rw [hafter]; unfold Dat.blockOf iblkR0; rw [hA]; try rfl) t d).trans
    (by unfold Dat.fetched Dat.blockOf iblkR0; rw [hA]; try rfl)

/-! ## What each case leaves in the cell and in the output block -/

theorem scoverR0_A (c : Dev nD) (i : grid0.Coords) (arg1 : Memref sig .tc .vmem S10000x64 .f32) (harg1 : arg1.IsWhole) (arg2 : Memref sig .tc .vmem S10000x1 .f32) (harg2 : arg2.IsWhole) (arg3 : Memref sig .tc .vmem S1x1 .f32) (harg3 : arg3.IsWhole) (arg4 : Memref sig .tc .vmem S1x1 .f32) (harg4 : arg4.IsWhole) (hc0 : condR0_first i) (hc1 : ¬condR0_last i) (x0 : Vec F S10000x64 .f32) (x1 : Vec F S10000x1 .f32) (y : S1x1.Idx) : ∃ pc ∈ (kernelRunR0_A c i arg1 harg1 arg2 harg2 arg3 harg3 arg4 harg4 hc0 hc1 x0 x1).1, y ∈ pc.1.set :=
  View.cover_of_tiledL (kernelRunR0_A c i arg1 harg1 arg2 harg2 arg3 harg3 arg4 harg4 hc0 hc1 x0 x1).1 S1x1.size (by sl_kernel_rfl) y
/-- The cell after the first point: the case's pieces read back. -/
def soutR0_A (c : Dev nD) (i : grid0.Coords) (arg1 : Memref sig .tc .vmem S10000x64 .f32) (harg1 : arg1.IsWhole) (arg2 : Memref sig .tc .vmem S10000x1 .f32) (harg2 : arg2.IsWhole) (arg3 : Memref sig .tc .vmem S1x1 .f32) (harg3 : arg3.IsWhole) (arg4 : Memref sig .tc .vmem S1x1 .f32) (harg4 : arg4.IsWhole) (hc0 : condR0_first i) (hc1 : ¬condR0_last i) (x0 : Vec F S10000x64 .f32) (x1 : Vec F S10000x1 .f32) : Vec F S1x1 .f32 :=
  VS_R0.read (Elt F) (VS_R0.writes (Elt F) VS_R0.junk (kernelRunR0_A c i arg1 harg1 arg2 harg2 arg3 harg3 arg4 harg4 hc0 hc1 x0 x1).1)

theorem scoverR0_B (c : Dev nD) (i : grid0.Coords) (arg1 : Memref sig .tc .vmem S10000x64 .f32) (harg1 : arg1.IsWhole) (arg2 : Memref sig .tc .vmem S10000x1 .f32) (harg2 : arg2.IsWhole) (arg3 : Memref sig .tc .vmem S1x1 .f32) (harg3 : arg3.IsWhole) (arg4 : Memref sig .tc .vmem S1x1 .f32) (harg4 : arg4.IsWhole) (hc0 : ¬condR0_first i) (hc1 : ¬condR0_last i) (x0 : Vec F S10000x64 .f32) (x1 : Vec F S10000x1 .f32) (xs : Vec F S1x1 .f32) (y : S1x1.Idx) : ∃ pc ∈ (kernelRunR0_B c i arg1 harg1 arg2 harg2 arg3 harg3 arg4 harg4 hc0 hc1 x0 x1 xs).1, y ∈ pc.1.set :=
  View.cover_of_tiledL (kernelRunR0_B c i arg1 harg1 arg2 harg2 arg3 harg3 arg4 harg4 hc0 hc1 x0 x1 xs).1 S1x1.size (by sl_kernel_rfl) y
/-- The cell after a middle point. -/
def soutR0_B (c : Dev nD) (i : grid0.Coords) (arg1 : Memref sig .tc .vmem S10000x64 .f32) (harg1 : arg1.IsWhole) (arg2 : Memref sig .tc .vmem S10000x1 .f32) (harg2 : arg2.IsWhole) (arg3 : Memref sig .tc .vmem S1x1 .f32) (harg3 : arg3.IsWhole) (arg4 : Memref sig .tc .vmem S1x1 .f32) (harg4 : arg4.IsWhole) (hc0 : ¬condR0_first i) (hc1 : ¬condR0_last i) (x0 : Vec F S10000x64 .f32) (x1 : Vec F S10000x1 .f32) (xs : Vec F S1x1 .f32) : Vec F S1x1 .f32 :=
  VS_R0.read (Elt F) (VS_R0.writes (Elt F) VS_R0.junk (kernelRunR0_B c i arg1 harg1 arg2 harg2 arg3 harg3 arg4 harg4 hc0 hc1 x0 x1 xs).1)

theorem coverR0_C (c : Dev nD) (i : grid0.Coords) (arg1 : Memref sig .tc .vmem S10000x64 .f32) (harg1 : arg1.IsWhole) (arg2 : Memref sig .tc .vmem S10000x1 .f32) (harg2 : arg2.IsWhole) (arg3 : Memref sig .tc .vmem S1x1 .f32) (harg3 : arg3.IsWhole) (arg4 : Memref sig .tc .vmem S1x1 .f32) (harg4 : arg4.IsWhole) (hc0 : ¬condR0_first i) (hc1 : condR0_last i) (x0 : Vec F S10000x64 .f32) (x1 : Vec F S10000x1 .f32) (xs : Vec F S1x1 .f32) (y : S1x1.Idx) : ∃ pc ∈ (kernelRunR0_C c i arg1 harg1 arg2 harg2 arg3 harg3 arg4 harg4 hc0 hc1 x0 x1 xs).1, y ∈ pc.1.set :=
  View.cover_of_tiledL (kernelRunR0_C c i arg1 harg1 arg2 harg2 arg3 harg3 arg4 harg4 hc0 hc1 x0 x1 xs).1 S1x1.size (by sl_kernel_rfl) y
/-- The output block after the last point. -/
def outR0_C (c : Dev nD) (i : grid0.Coords) (arg1 : Memref sig .tc .vmem S10000x64 .f32) (harg1 : arg1.IsWhole) (arg2 : Memref sig .tc .vmem S10000x1 .f32) (harg2 : arg2.IsWhole) (arg3 : Memref sig .tc .vmem S1x1 .f32) (harg3 : arg3.IsWhole) (arg4 : Memref sig .tc .vmem S1x1 .f32) (harg4 : arg4.IsWhole) (hc0 : ¬condR0_first i) (hc1 : condR0_last i) (x0 : Vec F S10000x64 .f32) (x1 : Vec F S10000x1 .f32) (xs : Vec F S1x1 .f32) : Vec F S1x1 .f32 :=
  VO_R0.read (Elt F) (VO_R0.writes (Elt F) VO_R0.junk (kernelRunR0_C c i arg1 harg1 arg2 harg2 arg3 harg3 arg4 harg4 hc0 hc1 x0 x1 xs).1)
theorem scoverR0_C (c : Dev nD) (i : grid0.Coords) (arg1 : Memref sig .tc .vmem S10000x64 .f32) (harg1 : arg1.IsWhole) (arg2 : Memref sig .tc .vmem S10000x1 .f32) (harg2 : arg2.IsWhole) (arg3 : Memref sig .tc .vmem S1x1 .f32) (harg3 : arg3.IsWhole) (arg4 : Memref sig .tc .vmem S1x1 .f32) (harg4 : arg4.IsWhole) (hc0 : ¬condR0_first i) (hc1 : condR0_last i) (x0 : Vec F S10000x64 .f32) (x1 : Vec F S10000x1 .f32) (xs : Vec F S1x1 .f32) (y : S1x1.Idx) : ∃ pc ∈ (kernelRunR0_C c i arg1 harg1 arg2 harg2 arg3 harg3 arg4 harg4 hc0 hc1 x0 x1 xs).2.1, y ∈ pc.1.set :=
  View.cover_of_tiledL (kernelRunR0_C c i arg1 harg1 arg2 harg2 arg3 harg3 arg4 harg4 hc0 hc1 x0 x1 xs).2.1 S1x1.size (by sl_kernel_rfl) y
/-- The cell after the last point. -/
def soutR0_C (c : Dev nD) (i : grid0.Coords) (arg1 : Memref sig .tc .vmem S10000x64 .f32) (harg1 : arg1.IsWhole) (arg2 : Memref sig .tc .vmem S10000x1 .f32) (harg2 : arg2.IsWhole) (arg3 : Memref sig .tc .vmem S1x1 .f32) (harg3 : arg3.IsWhole) (arg4 : Memref sig .tc .vmem S1x1 .f32) (harg4 : arg4.IsWhole) (hc0 : ¬condR0_first i) (hc1 : condR0_last i) (x0 : Vec F S10000x64 .f32) (x1 : Vec F S10000x1 .f32) (xs : Vec F S1x1 .f32) : Vec F S1x1 .f32 :=
  VS_R0.read (Elt F) (VS_R0.writes (Elt F) VS_R0.junk (kernelRunR0_C c i arg1 harg1 arg2 harg2 arg3 harg3 arg4 harg4 hc0 hc1 x0 x1 xs).2.1)

/-- The output block's placeholder at the points that leave it idle: nothing consults it. -/
def idleOutR0 : Vec F S1x1 .f32 := VO_R0.read (Elt F) VO_R0.junk

/-! ## The accumulation -/

/-- What the output block's staging buffer and the accumulator cell hold after the body at position n: the case the
    position selects, run at the point's memrefs and input blocks, over what position n − 1 left in the cell. -/
def outsAtR0 (c : Dev nD) : (n : ℕ) → n < cfg0.N → Vec F S1x1 .f32 × Vec F S1x1 .f32
  | 0, hn => (idleOutR0, soutR0_A c (grid0.coords ⟨0, hn⟩) (msR0_0 ⟨0, hn⟩) (hsR0_0 ⟨0, hn⟩) (msR0_1 ⟨0, hn⟩) (hsR0_1 ⟨0, hn⟩) (msR0_2 ⟨0, hn⟩) (hsR0_2 ⟨0, hn⟩) scM_R0 (Memref.isWhole_whole _) ((hcondR0_first ⟨0, hn⟩).mpr rfl) (fun h => absurd ((hcondR0_last ⟨0, hn⟩).mp h) (Nat.zero_ne_add_one 198)) (iblkR0 V c 0 ⟨0, hn⟩) (iblkR0 V c 1 ⟨0, hn⟩))
  | n + 1, hn =>
    if hl : n + 1 = 199 then
      (outR0_C c (grid0.coords ⟨n + 1, hn⟩) (msR0_0 ⟨n + 1, hn⟩) (hsR0_0 ⟨n + 1, hn⟩) (msR0_1 ⟨n + 1, hn⟩) (hsR0_1 ⟨n + 1, hn⟩) (msR0_2 ⟨n + 1, hn⟩) (hsR0_2 ⟨n + 1, hn⟩) scM_R0 (Memref.isWhole_whole _) (fun h => absurd ((hcondR0_first ⟨n + 1, hn⟩).mp h) (Nat.succ_ne_zero n)) ((hcondR0_last ⟨n + 1, hn⟩).mpr hl) (iblkR0 V c 0 ⟨n + 1, hn⟩) (iblkR0 V c 1 ⟨n + 1, hn⟩) (outsAtR0 c n (Nat.lt_of_succ_lt hn)).2,
       soutR0_C c (grid0.coords ⟨n + 1, hn⟩) (msR0_0 ⟨n + 1, hn⟩) (hsR0_0 ⟨n + 1, hn⟩) (msR0_1 ⟨n + 1, hn⟩) (hsR0_1 ⟨n + 1, hn⟩) (msR0_2 ⟨n + 1, hn⟩) (hsR0_2 ⟨n + 1, hn⟩) scM_R0 (Memref.isWhole_whole _) (fun h => absurd ((hcondR0_first ⟨n + 1, hn⟩).mp h) (Nat.succ_ne_zero n)) ((hcondR0_last ⟨n + 1, hn⟩).mpr hl) (iblkR0 V c 0 ⟨n + 1, hn⟩) (iblkR0 V c 1 ⟨n + 1, hn⟩) (outsAtR0 c n (Nat.lt_of_succ_lt hn)).2)
    else
      (idleOutR0, soutR0_B c (grid0.coords ⟨n + 1, hn⟩) (msR0_0 ⟨n + 1, hn⟩) (hsR0_0 ⟨n + 1, hn⟩) (msR0_1 ⟨n + 1, hn⟩) (hsR0_1 ⟨n + 1, hn⟩) (msR0_2 ⟨n + 1, hn⟩) (hsR0_2 ⟨n + 1, hn⟩) scM_R0 (Memref.isWhole_whole _) (fun h => absurd ((hcondR0_first ⟨n + 1, hn⟩).mp h) (Nat.succ_ne_zero n)) (fun h => hl ((hcondR0_last ⟨n + 1, hn⟩).mp h)) (iblkR0 V c 0 ⟨n + 1, hn⟩) (iblkR0 V c 1 ⟨n + 1, hn⟩) (outsAtR0 c n (Nat.lt_of_succ_lt hn)).2)

theorem outsAtR0_A (c : Dev nD) (t : Fin cfg0.N) (h0 : t.val = 0) (hl : ¬t.val = 199) :
    outsAtR0 V c t.val t.isLt = (idleOutR0, soutR0_A c (grid0.coords t) (msR0_0 t) (hsR0_0 t) (msR0_1 t) (hsR0_1 t) (msR0_2 t) (hsR0_2 t) scM_R0 (Memref.isWhole_whole _) ((hcondR0_first t).mpr h0) (fun h => hl ((hcondR0_last t).mp h)) (iblkR0 V c 0 t) (iblkR0 V c 1 t)) := by
  obtain ⟨n, hn⟩ := t
  cases n with
  | zero => rfl
  | succ n => exact absurd h0 (Nat.succ_ne_zero n)

theorem outsAtR0_B (c : Dev nD) (t : Fin cfg0.N) (h0 : ¬t.val = 0) (hl : ¬t.val = 199) :
    outsAtR0 V c t.val t.isLt = (idleOutR0, soutR0_B c (grid0.coords t) (msR0_0 t) (hsR0_0 t) (msR0_1 t) (hsR0_1 t) (msR0_2 t) (hsR0_2 t) scM_R0 (Memref.isWhole_whole _) (fun h => h0 ((hcondR0_first t).mp h)) (fun h => hl ((hcondR0_last t).mp h)) (iblkR0 V c 0 t) (iblkR0 V c 1 t) (outsAtR0 V c (t.val - 1) (Nat.lt_of_le_of_lt (Nat.sub_le _ _) t.isLt)).2) := by
  obtain ⟨n, hn⟩ := t
  cases n with
  | zero => exact absurd rfl h0
  | succ n => exact (dif_neg hl).trans rfl

theorem outsAtR0_C (c : Dev nD) (t : Fin cfg0.N) (h0 : ¬t.val = 0) (hl : t.val = 199) :
    outsAtR0 V c t.val t.isLt = (outR0_C c (grid0.coords t) (msR0_0 t) (hsR0_0 t) (msR0_1 t) (hsR0_1 t) (msR0_2 t) (hsR0_2 t) scM_R0 (Memref.isWhole_whole _) (fun h => h0 ((hcondR0_first t).mp h)) ((hcondR0_last t).mpr hl) (iblkR0 V c 0 t) (iblkR0 V c 1 t) (outsAtR0 V c (t.val - 1) (Nat.lt_of_le_of_lt (Nat.sub_le _ _) t.isLt)).2,
      soutR0_C c (grid0.coords t) (msR0_0 t) (hsR0_0 t) (msR0_1 t) (hsR0_1 t) (msR0_2 t) (hsR0_2 t) scM_R0 (Memref.isWhole_whole _) (fun h => h0 ((hcondR0_first t).mp h)) ((hcondR0_last t).mpr hl) (iblkR0 V c 0 t) (iblkR0 V c 1 t) (outsAtR0 V c (t.val - 1) (Nat.lt_of_le_of_lt (Nat.sub_le _ _) t.isLt)).2) := by
  obtain ⟨n, hn⟩ := t
  cases n with
  | zero => exact absurd rfl h0
  | succ n => exact (dif_pos hl).trans rfl

/-- The launch's invariant before position n: before the first point the cell at anything; afterwards the cell at what
    the point before left in it; beside it the other launch's scoped buffers and the generator register, untouched. -/
def PhiSR0 (c : Dev nD) : (n : ℕ) → n ≤ cfg0.N → sProp 𝕄
  | 0, _ => iprop((∃ d, owns (c : Thread nD τ) scM_R0 fullShare d) ∗ otherR0 c ∗ (∃ r, prngReg c r))
  | n + 1, hn => iprop(owns (c : Thread nD τ) scM_R0 fullShare ((outsAtR0 V c n hn).2) ∗ otherR0 c ∗ (∃ r, prngReg c r))

theorem PhiSR0_zero (c : Dev nD) (n : ℕ) (h : n ≤ cfg0.N) (hz : n = 0) :
    PhiSR0 V c n h = iprop((∃ d, owns (c : Thread nD τ) scM_R0 fullShare d) ∗ otherR0 c ∗ (∃ r, prngReg c r)) := by
  subst hz; rfl
theorem PhiSR0_succ (c : Dev nD) (n : ℕ) (hn : n < cfg0.N) :
    PhiSR0 V c (n + 1) hn = iprop(owns (c : Thread nD τ) scM_R0 fullShare ((outsAtR0 V c n hn).2) ∗ otherR0 c ∗ (∃ r, prngReg c r)) := rfl
theorem PhiSR0_pos (c : Dev nD) (n : ℕ) (h : n ≤ cfg0.N) (hz : n ≠ 0) :
    PhiSR0 V c n h = iprop(owns (c : Thread nD τ) scM_R0 fullShare ((outsAtR0 V c (n - 1) (by omega)).2) ∗ otherR0 c ∗ (∃ r, prngReg c r)) := by
  cases n with
  | zero => exact absurd rfl hz
  | succ n => rfl

/-! ## The proof data -/

def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => (outsAtR0 V c t.val t.isLt).1
  Φ t := PhiSR0 V c t.val (Nat.le_of_lt_succ t.isLt)
  q _ := fullShare
  owed _ := 0

theorem A_eqR0 (c : Dev nD) (w : Fin cfg0.W) : (datR0 V c).A w = V c (Pipeline.arrRef spec0 w) := by
  dsimp only [datR0]
theorem PhiSR0_castSucc (c : Dev nD) (t : Fin cfg0.N) :
    (datR0 V c).Φ t.castSucc = PhiSR0 V c t.val (Nat.le_of_lt t.isLt) := by
  dsimp only [datR0]; simp only [Fin.coe_castSucc]
theorem afterR0_0 (c : Dev nD) (t : Fin cfg0.N) : (datR0 V c).after 0 t = iblkR0 V c 0 t := by dsimp only [datR0]
theorem afterR0_1 (c : Dev nD) (t : Fin cfg0.N) : (datR0 V c).after 1 t = iblkR0 V c 1 t := by dsimp only [datR0]
theorem afterR0_2 (c : Dev nD) (t : Fin cfg0.N) : (datR0 V c).after 2 t = (outsAtR0 V c t.val t.isLt).1 := by dsimp only [datR0]
theorem beforeR0_0 (c : Dev nD) (t : Fin cfg0.N) (d) : (datR0 V c).before 0 t d = iblkR0 V c 0 t :=
  beforeR0_0_of V (datR0 V c) (A_eqR0 V c 0) (afterR0_0 V c) t d
theorem beforeR0_1 (c : Dev nD) (t : Fin cfg0.N) (d) : (datR0 V c).before 1 t d = iblkR0 V c 1 t :=
  beforeR0_1_of V (datR0 V c) (A_eqR0 V c 1) (afterR0_1 V c) t d

/-! ## The body obligation -/

def bodyPreR0 (c : Dev nD) (t : Fin cfg0.N) : sProp 𝕄 :=
  iprop((datR0 V c).Φ t.castSucc ∗ (datR0 V c).owesAt () t.castSucc
    ∗ (∃ d, owns (c : Thread nD τ) (msR0_0 t) fullShare ((datR0 V c).before 0 t d))
    ∗ (∃ d, owns (c : Thread nD τ) (msR0_1 t) fullShare ((datR0 V c).before 1 t d))
    ∗ (∃ d, owns (c : Thread nD τ) (msR0_2 t) fullShare ((datR0 V c).before 2 t d)))

def bodyPostR0 (c : Dev nD) (t : Fin cfg0.N) : sProp 𝕄 :=
  iprop((datR0 V c).Φ t.succ ∗ (datR0 V c).owesAt () t.succ
    ∗ (datR0 V c).leavesExact 0 t
    ∗ (datR0 V c).leavesExact 1 t
    ∗ (datR0 V c).leavesExact 2 t)

set_option maxHeartbeats 4800000 in
/-- The body at any point: the inputs' memrefs hold their blocks; the position says which case the point is in; the
    invariant hands the body the cell at what the point before left (at anything at the first point) and takes it back
    at this point's contents; the output block passes through untouched away from the last point. -/
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0 bodyAt0
  simp only [beforeR0_0, beforeR0_1]
  rw [show (datR0 V c).owesAt () t.succ = (datR0 V c).owesAt () t.castSucc from rfl]
  rw [show (datR0 V c).Φ t.succ = PhiSR0 V c (t.val + 1) t.isLt from rfl, PhiSR0_succ]
  rw [show (datR0 V c).leavesExact 0 t = owns (c : Thread nD τ) (msR0_0 t) fullShare ((datR0 V c).after 0 t) from by
    unfold Dat.leavesExact; rw [liveR0_0 t], afterR0_0]
  rw [show (datR0 V c).leavesExact 1 t = owns (c : Thread nD τ) (msR0_1 t) fullShare ((datR0 V c).after 1 t) from by
    unfold Dat.leavesExact; rw [liveR0_1 t], afterR0_1]
  by_cases hl : t.val = 199
  · have h0 : ¬t.val = 0 := by omega
    rw [show (datR0 V c).leavesExact 2 t = owns (c : Thread nD τ) (msR0_2 t) fullShare ((datR0 V c).after 2 t) from by
      unfold Dat.leavesExact; rw [liveR0_2 t ((hcondR0_last t).mpr hl)], afterR0_2]
    rw [outsAtR0_C V c t h0 hl]
    unfold outR0_C soutR0_C; (try dsimp only)
    rw [PhiSR0_castSucc V c t, PhiSR0_pos V c _ _ h0]
    iintro ⟨⟨HS, Hoth, Hg⟩, Ho, ⟨%d0, H0⟩, ⟨%d1, H1⟩, ⟨%d2, H2⟩⟩
    iapply ((kernelRunR0_C c (grid0.coords t) _ _ _ _ _ _ _ _ (fun h => h0 ((hcondR0_first t).mp h)) ((hcondR0_last t).mpr hl) (iblkR0 V c 0 t) (iblkR0 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hoth Hg]
    · isplitl [HS]
      · unfold owns; iexists _; isplitr
        swap; · iexact HS
        ipureintro; exact View.read_writes_of_cover _ _ _ _ _ (scoverR0_C c _ _ _ _ _ _ _ _ _ _ _ _ _ _)
      isplitl [Hoth]; · iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (coverR0_C c _ _ _ _ _ _ _ _ _ _ _ _ _ _)
  · rw [Dat.leavesExact_idle (datR0 V c) 2 t (idleR0_2 t (fun h => hl ((hcondR0_last t).mp h))) (noFlushR0_2 t (fun h => hl ((hcondR0_last t).mp h)))]
    by_cases h0 : t.val = 0
    · rw [outsAtR0_A V c t h0 hl]
      unfold soutR0_A; (try dsimp only)
      rw [PhiSR0_castSucc V c t, PhiSR0_zero V c _ _ h0]
      iintro ⟨⟨HS, Hoth, Hg⟩, Ho, ⟨%d0, H0⟩, ⟨%d1, H1⟩, ⟨%d2, H2⟩⟩
      iapply ((kernelRunR0_A c (grid0.coords t) _ _ _ _ _ _ _ _ ((hcondR0_first t).mpr h0) (fun h => hl ((hcondR0_last t).mp h)) (iblkR0 V c 0 t) (iblkR0 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (scoverR0_A c _ _ _ _ _ _ _ _ _ _ _ _ _)
        isplitl [Hoth]; · iexact Hoth
        iexact Hg
      isplitl [Ho]; · iexact Ho
      isplitl [H0]; · iexact H0
      isplitl [H1]; · iexact H1
      iexists _; iexact H2
    · rw [outsAtR0_B V c t h0 hl]
      unfold soutR0_B; (try dsimp only)
      rw [PhiSR0_castSucc V c t, PhiSR0_pos V c _ _ h0]
      iintro ⟨⟨HS, Hoth, Hg⟩, Ho, ⟨%d0, H0⟩, ⟨%d1, H1⟩, ⟨%d2, H2⟩⟩
      iapply ((kernelRunR0_B c (grid0.coords t) _ _ _ _ _ _ _ _ (fun h => h0 ((hcondR0_first t).mp h)) (fun h => hl ((hcondR0_last t).mp h)) (iblkR0 V c 0 t) (iblkR0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS]
        · unfold owns; iexists _; isplitr
          swap; · iexact HS
          ipureintro; exact View.read_writes_of_cover _ _ _ _ _ (scoverR0_B c _ _ _ _ _ _ _ _ _ _ _ _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligationR0 (c : Dev nD) : BodyObligation (datR0 (F := F) V c) (defs₀ (F := F)) Variants.none () Set.univ := fun t => by
  rw [bigSep_W0, bigSep_W0]
  exact sound_bodyR0 V c t

end Cert.KernelIdeal.Run

end
-- ==== Proof.KI.Main.lean ====
/-
  The kernel program's run: @main is five stretches of host operations (the two remainders, the two histograms), the first
  launch, one reshape, the second launch, and the closing arithmetic. The contents of every unscoped buffer are followed
  from boundary to boundary: a host stretch applies its operations, a launch replaces its three arrays by what the pipeline
  leaves (the two inputs unchanged, the 1×1 result at the last point's copy of the accumulator) and keeps every other
  buffer. Every weakly fair execution terminates and ends with every unscoped buffer at the last boundary's contents.
-/
import proofs.«410300_j15324443312170_3_alg».proof.Proof.Gen.KernelIdeal.Launch
import proofs.«410300_j15324443312170_3_alg».proof.Proof.Gen.KernelIdeal.Regions
import proofs.«410300_j15324443312170_3_alg».proof.Proof.KI.R0Dat
import proofs.«410300_j15324443312170_3_alg».proof.Proof.KI.R1Dat
import Idealize.ShloMosaic.Lib.Pipeline.Frame
import Idealize.ShloMosaic.Lib.Pipeline.FrameSuffix
import Idealize.ShloMosaic.Lib.Pipeline.Regions
import Idealize.ShloMosaic.Lib.Pipeline.RegionsLoop
import Idealize.ShloMosaic.Lib.Pipeline.Kit
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main -/

/-- At launch. -/
abbrev B0 : Dev nD → Valuation τ sig (Elt F) := fun c b => (s₀ m ρ).mem ((c : Dev nD), b)
/-- After the divisor constant, the first remainder, the second divisor constant, the second remainder, the histograms. -/
abbrev B1 : Dev nD → Valuation τ sig (Elt F) := fun c => StableHlo.after hostOps0 (B0 m ρ c)
abbrev B2 : Dev nD → Valuation τ sig (Elt F) := fun c => StableHlo.after hostOps0_1 (B1 m ρ c)
abbrev B3 : Dev nD → Valuation τ sig (Elt F) := fun c => StableHlo.after hostOps0_2 (B2 m ρ c)
abbrev B4 : Dev nD → Valuation τ sig (Elt F) := fun c => StableHlo.after hostOps0_3 (B3 m ρ c)
abbrev B5 : Dev nD → Valuation τ sig (Elt F) := fun c => StableHlo.after hostOps0_4 (B4 m ρ c)
/-- The same read at the TensorCore's references: what the first launch's proof data take. -/
abbrev BV5 : (c : Dev nD) → (b : Ref sig .tc) → Buf (Elt F) ((c : Thread nD τ).loc b) := fun c b => B5 m ρ c b
/-- After the first launch: its arrays at what the pipeline leaves, every other buffer as entered. -/
def B6 (c : Dev nD) : Valuation τ sig (Elt F) :=
  Pipeline.withArrays spec0 c (B5 m ρ c) fun w => (datR0 (BV5 m ρ) c).arrAt w cfg0.N
theorem B6_arr (c : Dev nD) (w : Fin cfg0.W) :
    B6 m ρ c (Proc.devRef .tc (Pipeline.arrRef spec0 w)) = (datR0 (BV5 m ρ) c).arrAt w cfg0.N := by
  unfold B6; exact Pipeline.withArrays_arr spec0 launch0.win.arr_inj c _ _ w
theorem B6_of_ne (c : Dev nD) (b : Ref sig .tc) (hb : ∀ w, Pipeline.arrRef spec0 w ≠ b) :
    B6 m ρ c (Proc.devRef .tc b) = B5 m ρ c (Proc.devRef .tc b) := by
  unfold B6; exact Pipeline.withArrays_of_ne spec0 c _ _ b hb
theorem hF0 (c : Dev nD) (w : Fin cfg0.W) : (datR0 (BV5 m ρ) c).arrAt w cfg0.N = (fun b => B6 m ρ c b) (Pipeline.arrRef spec0 w) :=
  (B6_arr m ρ c w).symm
theorem hrest0 (c : Dev nD) : ∀ b, b ∉ Finset.univ.image (Pipeline.arrRef spec0) → (fun b => B6 m ρ c b) b = BV5 m ρ c b :=
  fun b hb => B6_of_ne m ρ c b fun w e => hb (Finset.mem_image.mpr ⟨w, Finset.mem_univ _, e⟩)
/-- After the reshape of the second histogram. -/
abbrev B7 : Dev nD → Valuation τ sig (Elt F) := fun c => StableHlo.after hostOps1 (B6 m ρ c)
abbrev BV7 : (c : Dev nD) → (b : Ref sig .tc) → Buf (Elt F) ((c : Thread nD τ).loc b) := fun c b => B7 m ρ c b
/-- After the second launch. -/
def B8 (c : Dev nD) : Valuation τ sig (Elt F) :=
  Pipeline.withArrays spec1 c (B7 m ρ c) fun w => (datR1 (BV7 m ρ) c).arrAt w cfg1.N
theorem B8_arr (c : Dev nD) (w : Fin cfg1.W) :
    B8 m ρ c (Proc.devRef .tc (Pipeline.arrRef spec1 w)) = (datR1 (BV7 m ρ) c).arrAt w cfg1.N := by
  unfold B8; exact Pipeline.withArrays_arr spec1 launch1.win.arr_inj c _ _ w
theorem B8_of_ne (c : Dev nD) (b : Ref sig .tc) (hb : ∀ w, Pipeline.arrRef spec1 w ≠ b) :
    B8 m ρ c (Proc.devRef .tc b) = B7 m ρ c (Proc.devRef .tc b) := by
  unfold B8; exact Pipeline.withArrays_of_ne spec1 c _ _ b hb
theorem hF1 (c : Dev nD) (w : Fin cfg1.W) : (datR1 (BV7 m ρ) c).arrAt w cfg1.N = (fun b => B8 m ρ c b) (Pipeline.arrRef spec1 w) :=
  (B8_arr m ρ c w).symm
theorem hrest1 (c : Dev nD) : ∀ b, b ∉ Finset.univ.image (Pipeline.arrRef spec1) → (fun b => B8 m ρ c b) b = BV7 m ρ c b :=
  fun b hb => B8_of_ne m ρ c b fun w e => hb (Finset.mem_image.mpr ⟨w, Finset.mem_univ _, e⟩)
/-- After the closing arithmetic: the end. -/
abbrev B9 : Dev nD → Valuation τ sig (Elt F) := fun c => StableHlo.after hostOps2 (B8 m ρ c)

/-! ## The proof data family and the thread state -/

abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => datR0 (BV5 m ρ) c
  | ⟨1, _⟩ => fun c => datR1 (BV7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B9 m ρ c) ∗ ∃ r, prngReg c r)

/-! ## The launches as segments -/

set_option backward.isDefEq.respectTransparency.types false in
/-- Launch 0 over the thread state: entered from every unscoped buffer at the contents before it, left with its three
    arrays at what the pipeline leaves and every other buffer as entered. Its arrays are split out of the unscoped
    buffers and put back; its accumulator cell and the other launch's scoped buffers go into the invariant and come back;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligationR0 (BV5 m ρ) c).loose
  hwaits := Pipeline.hwaits_of_owed_zero _ _ _ _ L lv 0 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec0 c (BV5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (BV5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = iprop((∃ d, owns (c : Thread nD τ) scM_R0 fullShare d) ∗ otherR0 c ∗ (∃ r, prngReg c r)) from rfl]
    iintro ⟨Hp, -, Hr⟩
    ihave H := (scoped_split_R0 c) $$ Hr
    icases H with ⟨Hs, Hoth⟩
    isplitl [Hs]; · iexact Hs
    isplitl [Hoth]; · iexact Hoth
    iexact Hp
  hout c := by
    rw [Pipeline.ownSems0_none, show (pdats m ρ 0 c).Φ (Fin.last _) = PhiSR0 (BV5 m ρ) c cfg0.N (le_refl _) from rfl,
      PhiSR0_pos (BV5 m ρ) c _ _ (by rw [show cfg0.N = 200 from N_0]; decide)]
    iintro ⟨HS, Hoth, Hg⟩
    isplitl [Hg]; · iexact Hg
    isplitr; · iempintro
    iapply (scoped_join_R0 c)
    isplitl [HS]; · iexists _; iexact HS
    iexact Hoth
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (BV5 m ρ c) (fun b => B6 m ρ c b) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at the contents before it, left with its three
    arrays at what the pipeline leaves and every other buffer as entered. Its arrays are split out of the unscoped
    buffers and put back; its accumulator cell and the other launch's scoped buffers go into the invariant and come back;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligationR1 (BV7 m ρ) c).loose
  hwaits := Pipeline.hwaits_of_owed_zero _ _ _ _ L lv 1 fun _ _ => rfl
  pre c := iprop(StableHlo.held (c : Thread nD τ) (Pipeline.ucRefs τ sig) (B7 m ρ c) ∗ R c)
  post c := iprop(StableHlo.held (c : Thread nD τ) (Pipeline.ucRefs τ sig) (B8 m ρ c) ∗ R c)
  X c := iprop(∃ r, prngReg c r)
  Y c := iprop(∃ r, prngReg c r)
  Z c := Pipeline.unscopedRest (Ix := Unit) (Name := ℕ) (U := UR sig nD τ) (Lvl := ℕ) spec1 c (BV7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (BV7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = iprop((∃ d, owns (c : Thread nD τ) scM_R1 fullShare d) ∗ otherR1 c ∗ (∃ r, prngReg c r)) from rfl]
    iintro ⟨Hp, -, Hr⟩
    ihave H := (scoped_split_R1 c) $$ Hr
    icases H with ⟨Hs, Hoth⟩
    isplitl [Hs]; · iexact Hs
    isplitl [Hoth]; · iexact Hoth
    iexact Hp
  hout c := by
    rw [Pipeline.ownSems0_none, show (pdats m ρ 1 c).Φ (Fin.last _) = PhiSR1 (BV7 m ρ) c cfg1.N (le_refl _) from rfl,
      PhiSR1_pos (BV7 m ρ) c _ _ (by rw [show cfg1.N = 200 from N_1]; decide)]
    iintro ⟨HS, Hoth, Hg⟩
    isplitl [Hg]; · iexact Hg
    isplitr; · iempintro
    iapply (scoped_join_R1 c)
    isplitl [HS]; · iexists _; iexact HS
    iexact Hoth
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (BV7 m ρ c) (fun b => B8 m ρ c b) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (B0 m ρ)),
    .host (hseg hostOps0_1 hostOps0_1_sub hostOps0_1_fresh (B1 m ρ)),
    .host (hseg hostOps0_2 hostOps0_2_sub hostOps0_2_fresh (B2 m ρ)),
    .host (hseg hostOps0_3 hostOps0_3_sub hostOps0_3_fresh (B3 m ρ)),
    .host (hseg hostOps0_4 hostOps0_4_sub hostOps0_4_fresh (B4 m ρ)),
    .region (reg0 m ρ),
    .host (hseg hostOps1 hostOps1_sub hostOps1_fresh (B6 m ρ)),
    .region (reg1 m ρ),
    .host (hseg hostOps2 hostOps2_sub hostOps2_fresh (B8 m ρ)) ]

theorem main_run (c : Dev nD) : main (F := F) c = Pipeline.Seg.run (segs m ρ) := (main_chain c).trans (by chain_rfl)

set_option backward.isDefEq.respectTransparency.types false in
/-- Every weakly fair execution of @main from memory m with zero counters terminates, nothing faulting, and every final
    memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (B9 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m ρ c b)
    (hfin := fun c s' => by
      iintro ⟨⟨Hh, -⟩, HSI⟩
      unfold StableHlo.held
      imodintro
      iapply (pointsTo_read_all (Pipeline.ucRefs τ sig) (fun b => (((c : Thread nD τ)).1, b)) (B9 m ρ c) s')
      isplitl [Hh] <;> iassumption)
    (hQ := fun s h c => h c)

end Cert.KernelIdeal.Run

end
-- ==== Proof.KI.Args.lean ====
/-
  The four argument arrays end as launched: no host operation writes one, the first launch reads the first table through
  an input window and the second launch the second table, and the id vectors bypass both launches; so the last
  boundary's contents at an argument walk back, boundary by boundary, to the launch memory.
-/
import proofs.«410300_j15324443312170_3_alg».proof.Proof.KI.Main

set_option maxRecDepth 16384

noncomputable section

namespace Cert.KernelIdeal.Run

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

theorem B9_main_arg0 (c : Dev nD) : B9 m ρ c (Proc.devRef .tc main_arg0) = m ((c : Thread nD τ).loc main_arg0) :=
  calc B9 m ρ c (Proc.devRef .tc main_arg0)
    _ = B8 m ρ c (Proc.devRef .tc main_arg0) := StableHlo.after_of_writes_sub hostOps2 _ hostOps2_writes (by decide)
    _ = B7 m ρ c (Proc.devRef .tc main_arg0) := B8_of_ne m ρ c main_arg0 (by decide)
    _ = B6 m ρ c (Proc.devRef .tc main_arg0) := StableHlo.after_of_writes_sub hostOps1 _ hostOps1_writes (by decide)
    _ = B5 m ρ c (Proc.devRef .tc main_arg0) := (B6_arr m ρ c 0).trans (((datR0 (BV5 m ρ) c).arrAt_in 0 rfl _).trans (A_eqR0 (BV5 m ρ) c 0))
    _ = B4 m ρ c (Proc.devRef .tc main_arg0) := StableHlo.after_of_writes_sub hostOps0_4 _ hostOps0_4_writes (by decide)
    _ = B3 m ρ c (Proc.devRef .tc main_arg0) := StableHlo.after_of_writes_sub hostOps0_3 _ hostOps0_3_writes (by decide)
    _ = B2 m ρ c (Proc.devRef .tc main_arg0) := StableHlo.after_of_writes_sub hostOps0_2 _ hostOps0_2_writes (by decide)
    _ = B1 m ρ c (Proc.devRef .tc main_arg0) := StableHlo.after_of_writes_sub hostOps0_1 _ hostOps0_1_writes (by decide)
    _ = B0 m ρ c (Proc.devRef .tc main_arg0) := StableHlo.after_of_writes_sub hostOps0 _ hostOps0_writes (by decide)
    _ = m ((c : Thread nD τ).loc main_arg0) := rfl

theorem B9_main_arg1 (c : Dev nD) : B9 m ρ c (Proc.devRef .tc main_arg1) = m ((c : Thread nD τ).loc main_arg1) :=
  calc B9 m ρ c (Proc.devRef .tc main_arg1)
    _ = B8 m ρ c (Proc.devRef .tc main_arg1) := StableHlo.after_of_writes_sub hostOps2 _ hostOps2_writes (by decide)
    _ = B7 m ρ c (Proc.devRef .tc main_arg1) := (B8_arr m ρ c 0).trans (((datR1 (BV7 m ρ) c).arrAt_in 0 rfl _).trans (A_eqR1 (BV7 m ρ) c 0))
    _ = B6 m ρ c (Proc.devRef .tc main_arg1) := StableHlo.after_of_writes_sub hostOps1 _ hostOps1_writes (by decide)
    _ = B5 m ρ c (Proc.devRef .tc main_arg1) := B6_of_ne m ρ c main_arg1 (by decide)
    _ = B4 m ρ c (Proc.devRef .tc main_arg1) := StableHlo.after_of_writes_sub hostOps0_4 _ hostOps0_4_writes (by decide)
    _ = B3 m ρ c (Proc.devRef .tc main_arg1) := StableHlo.after_of_writes_sub hostOps0_3 _ hostOps0_3_writes (by decide)
    _ = B2 m ρ c (Proc.devRef .tc main_arg1) := StableHlo.after_of_writes_sub hostOps0_2 _ hostOps0_2_writes (by decide)
    _ = B1 m ρ c (Proc.devRef .tc main_arg1) := StableHlo.after_of_writes_sub hostOps0_1 _ hostOps0_1_writes (by decide)
    _ = B0 m ρ c (Proc.devRef .tc main_arg1) := StableHlo.after_of_writes_sub hostOps0 _ hostOps0_writes (by decide)
    _ = m ((c : Thread nD τ).loc main_arg1) := rfl

theorem B9_main_arg2 (c : Dev nD) : B9 m ρ c (Proc.devRef .tc main_arg2) = m ((c : Thread nD τ).loc main_arg2) :=
  calc B9 m ρ c (Proc.devRef .tc main_arg2)
    _ = B8 m ρ c (Proc.devRef .tc main_arg2) := StableHlo.after_of_writes_sub hostOps2 _ hostOps2_writes (by decide)
    _ = B7 m ρ c (Proc.devRef .tc main_arg2) := B8_of_ne m ρ c main_arg2 (by decide)
    _ = B6 m ρ c (Proc.devRef .tc main_arg2) := StableHlo.after_of_writes_sub hostOps1 _ hostOps1_writes (by decide)
    _ = B5 m ρ c (Proc.devRef .tc main_arg2) := B6_of_ne m ρ c main_arg2 (by decide)
    _ = B4 m ρ c (Proc.devRef .tc main_arg2) := StableHlo.after_of_writes_sub hostOps0_4 _ hostOps0_4_writes (by decide)
    _ = B3 m ρ c (Proc.devRef .tc main_arg2) := StableHlo.after_of_writes_sub hostOps0_3 _ hostOps0_3_writes (by decide)
    _ = B2 m ρ c (Proc.devRef .tc main_arg2) := StableHlo.after_of_writes_sub hostOps0_2 _ hostOps0_2_writes (by decide)
    _ = B1 m ρ c (Proc.devRef .tc main_arg2) := StableHlo.after_of_writes_sub hostOps0_1 _ hostOps0_1_writes (by decide)
    _ = B0 m ρ c (Proc.devRef .tc main_arg2) := StableHlo.after_of_writes_sub hostOps0 _ hostOps0_writes (by decide)
    _ = m ((c : Thread nD τ).loc main_arg2) := rfl

theorem B9_main_arg3 (c : Dev nD) : B9 m ρ c (Proc.devRef .tc main_arg3) = m ((c : Thread nD τ).loc main_arg3) :=
  calc B9 m ρ c (Proc.devRef .tc main_arg3)
    _ = B8 m ρ c (Proc.devRef .tc main_arg3) := StableHlo.after_of_writes_sub hostOps2 _ hostOps2_writes (by decide)
    _ = B7 m ρ c (Proc.devRef .tc main_arg3) := B8_of_ne m ρ c main_arg3 (by decide)
    _ = B6 m ρ c (Proc.devRef .tc main_arg3) := StableHlo.after_of_writes_sub hostOps1 _ hostOps1_writes (by decide)
    _ = B5 m ρ c (Proc.devRef .tc main_arg3) := B6_of_ne m ρ c main_arg3 (by decide)
    _ = B4 m ρ c (Proc.devRef .tc main_arg3) := StableHlo.after_of_writes_sub hostOps0_4 _ hostOps0_4_writes (by decide)
    _ = B3 m ρ c (Proc.devRef .tc main_arg3) := StableHlo.after_of_writes_sub hostOps0_3 _ hostOps0_3_writes (by decide)
    _ = B2 m ρ c (Proc.devRef .tc main_arg3) := StableHlo.after_of_writes_sub hostOps0_2 _ hostOps0_2_writes (by decide)
    _ = B1 m ρ c (Proc.devRef .tc main_arg3) := StableHlo.after_of_writes_sub hostOps0_1 _ hostOps0_1_writes (by decide)
    _ = B0 m ρ c (Proc.devRef .tc main_arg3) := StableHlo.after_of_writes_sub hostOps0 _ hostOps0_writes (by decide)
    _ = m ((c : Thread nD τ).loc main_arg3) := rfl

/-- The frame: every weakly fair execution terminates with each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (B9_main_arg0 m ρ c),
     (h c _ (mem_uc main_arg1 (by decide))).trans (B9_main_arg1 m ρ c),
     (h c _ (mem_uc main_arg2 (by decide))).trans (B9_main_arg2 m ρ c),
     (h c _ (mem_uc main_arg3 (by decide))).trans (B9_main_arg3 m ρ c)⟩) (run_all m ρ)

end Cert.KernelIdeal.Run

end
-- ==== Proof.Spec.lean ====
/-
  The common value of the two programs, per table: the sum, over every lookup and every column, of the table's entry at the
  row the lookup's remapped id names. The kernel reaches it as a count-weighted sum over the whole table, the reference as
  the sum of the gathered rows; both are stated against `gatherSum`.
-/
import Idealize.ShloMosaic.Lib.ValueIdx

noncomputable section

open scoped BigOperators

namespace Cert.Spec

open Idealize.ShloMosaic Idealize.ShloMosaic.ValueIdx

/-- The table row a remapped id word names: its unsigned value reduced into the table's extent (the word itself when it
    is below 2000000). -/
def rowOf (w : BitVec 32) : Fin 2000000 := ⟨w.toNat % 2000000, Nat.mod_lt _ (by norm_num)⟩

theorem rowOf_val_of_lt (w : BitVec 32) (h : w.toNat < 2000000) : (rowOf w).val = w.toNat := Nat.mod_eq_of_lt h

/-- Σ_i Σ_d T[row(r i), d]: the sum of the gathered rows. -/
def gatherSum (T : (⟨2, ![2000000, 64]⟩ : Shape).Idx → EReal) (r : (⟨1, ![1000000]⟩ : Shape).Idx → BitVec 32) : EReal :=
  ∑ i : Fin 1000000, ∑ d : Fin 64, T (ix2 (rowOf (r (ix1 i))) d)

/-- Every remapped id is a row of the table, read as a signed word. -/
def InRange (r : (⟨1, ![1000000]⟩ : Shape).Idx → BitVec 32) : Prop :=
  ∀ i, 0 ≤ (r i).toInt ∧ (r i).toInt < 2000000

/-- Every entry of the table is a real number. -/
def Finite (T : (⟨2, ![2000000, 64]⟩ : Shape).Idx → EReal) : Prop := ∀ j, ∃ x : ℝ, T j = (x : EReal)

end Cert.Spec

end
-- ==== Proof.LibIndex.lean ====
/-
  Reading a row gather and an accumulating row scatter at an index.
  A row gather takes row `idx[t]` of a two-axis operand for every `t`: the start index is read signed and clamped
  into the operand's rows. An accumulating scatter adds update row `t` into operand row `idx[t]`: the start index
  is read signed and NOT clamped, and an update whose row is outside the operand is dropped; so at the ideal
  instance the result at row `n` is the operand's entry plus the sum of the updates over the `t` with `idx[t] = n`.
-/
import Idealize.ShloMosaic.PureOps.Ideal
import Idealize.ShloMosaic.Lib.ValueIdx

noncomputable section

namespace Cert.LibIndex

open Idealize.ShloMosaic Idealize.ShloMosaic.ValueIdx

/-- The dimension numbers of a row gather: operand `[N, C]`, indices `[T, 1]`, result `[T, C]`; result row `t` is the
    operand's row at the start index `idx[t, 0]`, whole (slice sizes `[1, C]`, the row axis collapsed). -/
abbrev rowGatherDims (N T C : Nat)
    (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

section Gather
variable {N T C w : Nat}
  (wf : GatherDims.WF ⟨2, ![N, C]⟩ ⟨2, ![T, 1]⟩ ⟨2, ![T, C]⟩ [1] [0] [] [0] [] 1 ![1, C])

/-- Result position `(t, j)` reads its start index at `(t, 0)`: the result's one batch axis (axis 0) supplies the
    indices' axis 0, and the index vector (axis 1, of extent 1) has only the component `0`. -/
theorem rowGather_siIdx (t : Fin T) (j : Fin C) (c : Fin (rowGatherDims N T C wf).startIndexMap.length) :
    (rowGatherDims N T C wf).siIdx (ix2 t j) c = ix2 t (0 : Fin 1) := by
  funext b
  refine Fin.ext ?_
  match b with
  | ⟨0, _⟩ => rfl
  | ⟨1, _⟩ =>
    have hc : c.val < 1 := c.isLt
    show c.val = 0
    omega

/-- On the row axis the slice starts at the start index read signed and clamped into `[0, N - 1]`: the axis is the one
    the start index map names, and the slice there has one row. -/
theorem rowGather_row_start (idx : IVec ⟨2, ![T, 1]⟩ w) (t : Fin T) (j : Fin C) :
    (rowGatherDims N T C wf).start (ix2 t j) idx 0 = min (idx (ix2 t (0 : Fin 1))).toInt.toNat (N - 1) := by
  unfold GatherDims.start
  rw [dif_pos (show (0 : Fin 2) ∈ (rowGatherDims N T C wf).startIndexMap from List.mem_singleton.mpr rfl),
    rowGather_siIdx]
  rfl

/-- The row axis is collapsed, so the result gives it no offset. -/
theorem rowGather_row_off (t : Fin T) (j : Fin C) : (rowGatherDims N T C wf).offCoord (ix2 t j) 0 = 0 :=
  GatherDims.offCoord_eq_zero _ _ _ (fun h => ((GatherDims.mem_sKept _ _).mp h).1 (List.mem_singleton.mpr rfl))

/-- The column axis is not named by the start index map: its slice starts at `0`. -/
theorem rowGather_col_start (idx : IVec ⟨2, ![T, 1]⟩ w) (t : Fin T) (j : Fin C) :
    (rowGatherDims N T C wf).start (ix2 t j) idx 1 = 0 := by
  unfold GatherDims.start
  rw [dif_neg]
  intro h
  exact absurd (congrArg Fin.val (List.mem_singleton.mp h)) Nat.one_ne_zero

/-- The column axis is the operand's one kept axis, read by the result's one offset axis (axis 1): the offset is `j`. -/
theorem rowGather_col_off (t : Fin T) (j : Fin C) :
    (rowGatherDims N T C wf).offCoord (ix2 t j) 1 = j.val := rfl

end Gather

/-- THE ROW GATHER READ AT `(t, j)`: the operand at row `idx[t, 0]` (read signed, clamped into `[0, N − 1]`), column `j`. -/
theorem rowGather_apply {α : Type} {N T C w : Nat} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (t : Fin T) (j : Fin C) :
    Host.gather (rowGatherDims N T C wf) x idx (ix2 t j)
      = x (ix2 (⟨min (idx (ix2 t (0 : Fin 1))).toInt.toNat (N - 1), by omega⟩ : Fin N) j) := by
  -- the gather reads the operand at the position whose coordinate on each axis is
  -- slice start + batching coordinate + offset; there is no batching axis, so the middle term is 0 on both axes
  have hb : ∀ a, (rowGatherDims N T C wf).batchCoord (ix2 t j) a = 0 :=
    fun a => GatherDims.batchCoord_eq_zero _ _ a List.not_mem_nil
  unfold Host.gather
  congr 1
  funext a
  refine Fin.ext ?_
  match a with
  | ⟨0, _⟩ =>
    -- row axis: clamped start index + 0 + 0
    show (rowGatherDims N T C wf).start (ix2 t j) idx 0 + (rowGatherDims N T C wf).batchCoord (ix2 t j) 0
        + (rowGatherDims N T C wf).offCoord (ix2 t j) 0 = min (idx (ix2 t (0 : Fin 1))).toInt.toNat (N - 1)
    rw [hb, rowGather_row_off, rowGather_row_start]
    rfl
  | ⟨1, _⟩ =>
    -- column axis: 0 + 0 + j
    show (rowGatherDims N T C wf).start (ix2 t j) idx 1 + (rowGatherDims N T C wf).batchCoord (ix2 t j) 1
        + (rowGatherDims N T C wf).offCoord (ix2 t j) 1 = j.val
    rw [hb, rowGather_col_off, rowGather_col_start]
    omega

/-! ## Accumulating scatters -/

/-- An update at `j` lands on operand position `i` exactly when, on every operand axis, its (unclamped, signed) window
    start plus its window coordinate is `i`'s coordinate: the landing position exists when that sum is inside the
    operand on every axis, and then is that sum; and a coordinate of `i` is inside the operand. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i hin
    rw [Option.some.injEq]
    constructor
    · intro he a
      have h1 := hin a
      have h2 : (d.start j idx a + (d.window j a : Int)).toNat = (i a).val := by rw [← he]
      omega
    · intro hall
      funext a
      refine Fin.ext ?_
      have h1 := hall a
      show (d.start j idx a + (d.window j a : Int)).toNat = (i a).val
      omega
  · rename_i hout
    constructor
    · intro he
      cases he
    · intro hall
      refine absurd (fun a => ?_) hout
      have h1 := hall a
      have h2 := (i a).isLt
      omega

/-- The dimension numbers of an accumulating row scatter: operand `[N, H]`, indices `[T, 1]`, updates `[T, H]`; update
    row `t` goes to operand row `idx[t, 0]`. -/
abbrev rowScatterDims (N T H : Nat)
    (wf : ScatterDims.WF ⟨2, ![N, H]⟩ ⟨2, ![T, 1]⟩ ⟨2, ![T, H]⟩ [1] [0] [0] 1) :
    ScatterDims ⟨2, ![N, H]⟩ ⟨2, ![T, 1]⟩ ⟨2, ![T, H]⟩ where
  updateWindowDims := [1]
  insertedWindowDims := [0]
  scatterDimsToOperandDims := [0]
  indexVectorDim := 1
  wf := wf

section RowScatter
variable {N T H w : Nat} (wf : ScatterDims.WF ⟨2, ![N, H]⟩ ⟨2, ![T, 1]⟩ ⟨2, ![T, H]⟩ [1] [0] [0] 1)

/-- Update position `(t, k)` reads its start index at `(t, 0)`: the updates' one scatter axis (axis 0) supplies the
    indices' axis 0, and the index vector (axis 1, of extent 1) has only the component `0`. -/
theorem rowScatter_siIdx (t : Fin T) (k : Fin H) (c : Fin (rowScatterDims N T H wf).scatterDimsToOperandDims.length) :
    (rowScatterDims N T H wf).siIdx (ix2 t k) c = ix2 t (0 : Fin 1) := by
  funext b
  refine Fin.ext ?_
  match b with
  | ⟨0, _⟩ => rfl
  | ⟨1, _⟩ =>
    have hc : c.val < 1 := c.isLt
    show c.val = 0
    omega

/-- On the row axis the window starts at the start index, read signed and left as it is. -/
theorem rowScatter_row_start (idx : IVec ⟨2, ![T, 1]⟩ w) (t : Fin T) (k : Fin H) :
    (rowScatterDims N T H wf).start (ix2 t k) idx 0 = (idx (ix2 t (0 : Fin 1))).toInt := by
  unfold ScatterDims.start
  rw [dif_pos (show (0 : Fin 2) ∈ (rowScatterDims N T H wf).scatterDimsToOperandDims from List.mem_singleton.mpr rfl),
    rowScatter_siIdx]

/-- The row axis is the inserted one: the update has no window coordinate there. -/
theorem rowScatter_row_window (t : Fin T) (k : Fin H) : (rowScatterDims N T H wf).window (ix2 t k) 0 = 0 := rfl

/-- The column axis is not a scattered axis: the window starts at `0` there. -/
theorem rowScatter_col_start (idx : IVec ⟨2, ![T, 1]⟩ w) (t : Fin T) (k : Fin H) :
    (rowScatterDims N T H wf).start (ix2 t k) idx 1 = 0 := by
  unfold ScatterDims.start
  rw [dif_neg]
  intro h
  exact absurd (congrArg Fin.val (List.mem_singleton.mp h)) Nat.one_ne_zero

/-- The column axis is the operand's one kept axis, filled by the updates' one window axis (axis 1): the window
    coordinate there is the update's column. -/
theorem rowScatter_col_window (t : Fin T) (k : Fin H) : (rowScatterDims N T H wf).window (ix2 t k) 1 = k.val := rfl

/-- Update `(t, k)` lands on operand position `(n, h)` exactly when its start index, read signed, is `n` and its
    column is `h`. -/
theorem rowScatter_lands_iff (idx : IVec ⟨2, ![T, 1]⟩ w) (t : Fin T) (k : Fin H) (n : Fin N) (h : Fin H) :
    (rowScatterDims N T H wf).resultIdx? (ix2 t k) idx = some (ix2 n h)
      ↔ (idx (ix2 t (0 : Fin 1))).toInt = (n.val : Int) ∧ k = h := by
  rw [resultIdx?_eq_some_iff]
  constructor
  · intro hall
    have h0 := hall 0
    have h1 := hall 1
    rw [rowScatter_row_start, rowScatter_row_window] at h0
    rw [rowScatter_col_start, rowScatter_col_window] at h1
    have h0' : (idx (ix2 t (0 : Fin 1))).toInt + ((0 : Nat) : Int) = (n.val : Int) := h0
    have h1' : (0 : Int) + (k.val : Int) = (h.val : Int) := h1
    exact ⟨by omega, Fin.ext (by omega)⟩
  · rintro ⟨h0, rfl⟩ a
    match a with
    | ⟨0, _⟩ =>
      show (rowScatterDims N T H wf).start (ix2 t k) idx 0 + (((rowScatterDims N T H wf).window (ix2 t k) 0 : Nat) : Int)
        = (n.val : Int)
      rw [rowScatter_row_start, rowScatter_row_window]
      omega
    | ⟨1, _⟩ =>
      show (rowScatterDims N T H wf).start (ix2 t k) idx 1 + (((rowScatterDims N T H wf).window (ix2 t k) 1 : Nat) : Int)
        = (k.val : Int)
      rw [rowScatter_col_start, rowScatter_col_window]
      omega

end RowScatter

/-- THE ACCUMULATING ROW SCATTER READ AT `(n, h)`, at the ideal instance: the operand's entry plus the updates' entries
    `(t, h)` over the rows `t` whose start index, read signed, is `n`. -/
theorem rowScatterAdd_apply {N T H w : Nat}
    (wf : ScatterDims.WF ⟨2, ![N, H]⟩ ⟨2, ![T, 1]⟩ ⟨2, ![T, H]⟩ [1] [0] [0] 1)
    (x : (⟨2, ![N, H]⟩ : Shape).Idx → EReal) (idx : IVec ⟨2, ![T, 1]⟩ w) (upd : (⟨2, ![T, H]⟩ : Shape).Idx → EReal)
    (n : Fin N) (h : Fin H) :
    Ideal.hostScatterAdd (rowScatterDims N T H wf) x idx upd (ix2 n h)
      = x (ix2 n h) + ∑ t ∈ Finset.univ.filter (fun t : Fin T => (idx (ix2 t (0 : Fin 1))).toInt = (n.val : Int)), upd (ix2 t h) := by
  unfold Ideal.hostScatterAdd
  congr 1
  -- the updates landing on (n, h) are the (t, h) with idx[t] = n: re-index their sum by the row t
  refine Finset.sum_nbij' (fun y => (y 0 : Fin T)) (fun t => ix2 t h) ?_ ?_ ?_ ?_ ?_
  · intro y hy
    obtain ⟨t, k, rfl⟩ : ∃ t k, y = ix2 t k := ⟨y 0, y 1, eq_ix2 y⟩
    exact Finset.mem_filter.mpr
      ⟨Finset.mem_univ _, ((rowScatter_lands_iff wf idx t k n h).mp (Finset.mem_filter.mp hy).2).1⟩
  · intro t ht
    exact Finset.mem_filter.mpr
      ⟨Finset.mem_univ _, (rowScatter_lands_iff wf idx t h n h).mpr ⟨(Finset.mem_filter.mp ht).2, rfl⟩⟩
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl
  · intro t _
    rfl
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl

/-- The dimension numbers of an accumulating scatter of scalars: operand `[N]`, indices `[T, 1]`, updates `[T]`. -/
abbrev vecScatterDims (N T : Nat)
    (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

section VecScatter
variable {N T w : Nat} (wf : ScatterDims.WF ⟨1, ![N]⟩ ⟨2, ![T, 1]⟩ ⟨1, ![T]⟩ [] [0] [0] 1)

/-- Update position `t` reads its start index at `(t, 0)`: the updates' only axis is a scatter axis and supplies the
    indices' axis 0; the index vector (axis 1, of extent 1) has only the component `0`. -/
theorem vecScatter_siIdx (t : Fin T) (c : Fin (vecScatterDims N T wf).scatterDimsToOperandDims.length) :
    (vecScatterDims N T wf).siIdx (ix1 t) c = ix2 t (0 : Fin 1) := by
  funext b
  refine Fin.ext ?_
  match b with
  | ⟨0, _⟩ => rfl
  | ⟨1, _⟩ =>
    have hc : c.val < 1 := c.isLt
    show c.val = 0
    omega

/-- On the operand's only axis the window starts at the start index, read signed and left as it is. -/
theorem vecScatter_start (idx : IVec ⟨2, ![T, 1]⟩ w) (t : Fin T) :
    (vecScatterDims N T wf).start (ix1 t) idx 0 = (idx (ix2 t (0 : Fin 1))).toInt := by
  unfold ScatterDims.start
  rw [dif_pos (show (0 : Fin 1) ∈ (vecScatterDims N T wf).scatterDimsToOperandDims from List.mem_singleton.mpr rfl),
    vecScatter_siIdx]

/-- That axis is inserted (a scalar update has no window): the window coordinate is `0`. -/
theorem vecScatter_window (t : Fin T) : (vecScatterDims N T wf).window (ix1 t) 0 = 0 := rfl

/-- Update `t` lands on operand position `n` exactly when its start index, read signed, is `n`. -/
theorem vecScatter_lands_iff (idx : IVec ⟨2, ![T, 1]⟩ w) (t : Fin T) (n : Fin N) :
    (vecScatterDims N T wf).resultIdx? (ix1 t) idx = some (ix1 n) ↔ (idx (ix2 t (0 : Fin 1))).toInt = (n.val : Int) := by
  rw [resultIdx?_eq_some_iff]
  constructor
  · intro hall
    have h0 := hall 0
    rw [vecScatter_start, vecScatter_window] at h0
    have h0' : (idx (ix2 t (0 : Fin 1))).toInt + ((0 : Nat) : Int) = (n.val : Int) := h0
    omega
  · intro h0 a
    match a with
    | ⟨0, _⟩ =>
      show (vecScatterDims N T wf).start (ix1 t) idx 0 + (((vecScatterDims N T wf).window (ix1 t) 0 : Nat) : Int)
        = (n.val : Int)
      rw [vecScatter_start, vecScatter_window]
      omega

end VecScatter

/-- THE ACCUMULATING SCATTER OF SCALARS READ AT `n`, at the ideal instance. -/
theorem vecScatterAdd_apply {N T w : Nat}
    (wf : ScatterDims.WF ⟨1, ![N]⟩ ⟨2, ![T, 1]⟩ ⟨1, ![T]⟩ [] [0] [0] 1)
    (x : (⟨1, ![N]⟩ : Shape).Idx → EReal) (idx : IVec ⟨2, ![T, 1]⟩ w) (upd : (⟨1, ![T]⟩ : Shape).Idx → EReal)
    (n : Fin N) :
    Ideal.hostScatterAdd (vecScatterDims N T wf) x idx upd (ix1 n)
      = x (ix1 n) + ∑ t ∈ Finset.univ.filter (fun t : Fin T => (idx (ix2 t (0 : Fin 1))).toInt = (n.val : Int)), upd (ix1 t) := by
  unfold Ideal.hostScatterAdd
  congr 1
  -- an update position is its one coordinate t, and it lands on n exactly when idx[t] = n
  refine Finset.sum_nbij' (fun y => (y 0 : Fin T)) (fun t => ix1 t) ?_ ?_ ?_ ?_ ?_
  · intro y hy
    obtain ⟨t, rfl⟩ : ∃ t, y = ix1 t := ⟨y 0, eq_ix1 y⟩
    exact Finset.mem_filter.mpr ⟨Finset.mem_univ _, (vecScatter_lands_iff wf idx t n).mp (Finset.mem_filter.mp hy).2⟩
  · intro t ht
    exact Finset.mem_filter.mpr ⟨Finset.mem_univ _, (vecScatter_lands_iff wf idx t n).mpr (Finset.mem_filter.mp ht).2⟩
  · intro y _
    exact (eq_ix1 y).symm
  · intro t _
    rfl
  · intro y _
    exact congrArg upd (eq_ix1 y)

end Cert.LibIndex

end
-- ==== Proof.IntFacts.lean ====
import Idealize.ShloMosaic.PureOps
import Idealize.ShloMosaic.Lib.StableHlo.Predicate

/-!
# Facts about 32-bit words: the floored remainder by 2000000 and an in-range table index

The floored remainder of a signed 32-bit word x by the positive constant D = 2000000 is
computed as: q := the truncated remainder of x by D (sign of the dividend, |q| < D), then
q + D when q is negative and q otherwise.  The result lies in [0, D).

For a word y with 0 ≤ y < D: wrapping a negative index (y + D when y < 0) leaves y
unchanged, the range test 0 ≤ y ∧ y ≤ D - 1 holds, and clamping y into [0, D - 1] is y.
-/

namespace Cert.IntFacts

open Idealize.ShloMosaic

/-! ## Signed compares of words, decided by the signed values -/

theorem cmpi_slt_eq_one {a b : BitVec 32} (h : a.toInt < b.toInt) : IntOp.cmpi .slt a b = 1#1 := by
  show BitVec.ofBool (a.slt b) = 1#1
  rw [BitVec.slt_eq_decide, decide_eq_true h]; rfl

theorem cmpi_slt_eq_zero {a b : BitVec 32} (h : ¬ a.toInt < b.toInt) :
    IntOp.cmpi .slt a b = 0#1 := by
  show BitVec.ofBool (a.slt b) = 0#1
  rw [BitVec.slt_eq_decide, decide_eq_false h]; rfl

theorem cmpi_sle_eq_one {a b : BitVec 32} (h : a.toInt ≤ b.toInt) : IntOp.cmpi .sle a b = 1#1 := by
  show BitVec.ofBool (a.sle b) = 1#1
  rw [BitVec.sle_eq_decide, decide_eq_true h]; rfl

theorem cmpi_sge_eq_one {a b : BitVec 32} (h : b.toInt ≤ a.toInt) : IntOp.cmpi .sge a b = 1#1 := by
  show BitVec.ofBool (b.sle a) = 1#1
  rw [BitVec.sle_eq_decide, decide_eq_true h]; rfl

theorem cmpi_ne_eq_one {w : Nat} {a b : BitVec w} (h : a ≠ b) : IntOp.cmpi .ne a b = 1#1 := by
  show BitVec.ofBool (a != b) = 1#1
  rw [bne_iff_ne.mpr h]; rfl

theorem cmpi_ne_self {w : Nat} (a : BitVec w) : IntOp.cmpi .ne a a = 0#1 := by
  show BitVec.ofBool (a != a) = 0#1
  rw [bne_self_eq_false]; rfl

theorem cmpi_eq_eq_zero {w : Nat} {a b : BitVec w} (h : a ≠ b) : IntOp.cmpi .eq a b = 0#1 := by
  show BitVec.ofBool (a == b) = 0#1
  rw [beq_eq_false_iff_ne.mpr h]; rfl

/-! ## One-bit words -/

theorem bit_ne_one_zero : IntOp.cmpi .ne (1#1) (0#1) = 1#1 := by decide

theorem bit_ne_zero_zero : IntOp.cmpi .ne (0#1) (0#1) = 0#1 := by decide

theorem bit_and_one_one : IntOp.andi (1#1) (1#1) = 1#1 := by decide

theorem bit_and_zero_left (b : BitVec 1) : IntOp.andi (0#1) b = 0#1 := by
  show (0#1) &&& b = 0#1
  exact BitVec.zero_and

/-! ## The constant divisor -/

theorem toInt_D : (2000000#32 : BitVec 32).toInt = 2000000 := by decide

theorem toInt_Dm1 : (1999999#32 : BitVec 32).toInt = 1999999 := by decide

theorem toInt_zero32 : (0#32 : BitVec 32).toInt = 0 := by decide

/-- The divisor after the guard against a zero divisor: select (D = 0) 1 D. -/
def divS : BitVec 32 :=
  Scalar.select (IntOp.cmpi .eq (2000000#32) (0#32)) (1#32) (2000000#32)

theorem divS_eq : divS = 2000000#32 := by decide

theorem cmpi_eq_D_zero : IntOp.cmpi .eq (2000000#32) (0#32) = 0#1 := by decide

theorem cmpi_slt_D_zero : IntOp.cmpi .slt (2000000#32) (0#32) = 0#1 := by decide

/-- Division by D meets no corner: D is neither 0 nor -1. -/
theorem not_corner_D (x : BitVec 32) : ¬ IntOp.SDivCorner x (2000000#32) := by
  intro hc
  rcases hc with hc | ⟨_, hc⟩ <;> exact absurd hc (by decide)

/-- The remainder by D on any unit is the truncated signed remainder. -/
theorem remsi_D (u : ArithUnit) (x : BitVec 32) :
    IntOp.remsi u x (2000000#32) = x.srem (2000000#32) := by
  simp only [IntOp.remsi, if_neg (not_corner_D x)]

/-- The truncated remainder by D lies strictly between -D and D. -/
theorem srem_D_bounds (x : BitVec 32) :
    -2000000 < (x.srem (2000000#32)).toInt ∧ (x.srem (2000000#32)).toInt < 2000000 := by
  rw [BitVec.toInt_srem, toInt_D]
  exact ⟨Int.lt_tmod_of_pos x.toInt (by decide), Int.tmod_lt_of_pos x.toInt (by decide)⟩

/-! ## The floored remainder -/

/-- The correction step on a truncated remainder q and divisor d:
    select ((q <ₛ 0) ≠ (d <ₛ 0) ∧ q ≠ 0) (q + d) q. -/
def fixS (q d : BitVec 32) : BitVec 32 :=
  Scalar.select
    (IntOp.andi (IntOp.cmpi .ne (IntOp.cmpi .slt q (0#32)) (IntOp.cmpi .slt d (0#32)))
      (IntOp.cmpi .ne q (0#32)))
    (IntOp.addi q d) q

/-- The floored remainder of x by D as the scalar chain computes it. -/
def remS (x : BitVec 32) : BitVec 32 := fixS (IntOp.remsi .host x divS) divS

theorem remS_def (x : BitVec 32) :
    remS x = fixS (IntOp.remsi .host x (2000000#32)) (2000000#32) := by
  unfold remS; rw [divS_eq]

/-- The correction adds D exactly when q is negative. -/
theorem fixS_D (q : BitVec 32) :
    fixS q (2000000#32) = if q.toInt < 0 then q + 2000000#32 else q := by
  unfold fixS
  rw [cmpi_slt_D_zero]
  by_cases h : q.toInt < 0
  · have hq0 : q ≠ 0#32 := by
      intro h0; rw [h0, toInt_zero32] at h; exact absurd h (by decide)
    rw [if_pos h, cmpi_slt_eq_one (by rw [toInt_zero32]; exact h), cmpi_ne_eq_one hq0,
      bit_ne_one_zero, bit_and_one_one]
    rfl
  · rw [if_neg h, cmpi_slt_eq_zero (by rw [toInt_zero32]; exact h), bit_ne_zero_zero,
      bit_and_zero_left]
    rfl

/-- Adding D to a negative word above -D gives the non-negative sum, no wrap. -/
theorem toInt_add_D {q : BitVec 32} (h1 : -2000000 < q.toInt) (h2 : q.toInt < 0) :
    (q + 2000000#32).toInt = q.toInt + 2000000 := by
  rw [BitVec.toInt_add, toInt_D]
  exact Int.bmod_eq_of_le (by omega) (by omega)

theorem fixS_D_range {q : BitVec 32} (h1 : -2000000 < q.toInt) (h2 : q.toInt < 2000000) :
    0 ≤ (fixS q (2000000#32)).toInt ∧ (fixS q (2000000#32)).toInt < 2000000 := by
  rw [fixS_D]
  by_cases h : q.toInt < 0
  · rw [if_pos h, toInt_add_D h1 h]; omega
  · rw [if_neg h]; omega

/-- The floored remainder lies in [0, D). -/
theorem remS_range (x : BitVec 32) : 0 ≤ (remS x).toInt ∧ (remS x).toInt < 2000000 := by
  rw [remS_def, remsi_D]
  exact fixS_D_range (srem_D_bounds x).1 (srem_D_bounds x).2

/-- The same for the chain written with an arbitrary divisor word equal to D. -/
theorem fix_remsi_range (x d : BitVec 32) (hd : d = 2000000#32) :
    0 ≤ (fixS (IntOp.remsi .host x d) d).toInt ∧ (fixS (IntOp.remsi .host x d) d).toInt < 2000000 := by
  subst hd
  rw [remsi_D]
  exact fixS_D_range (srem_D_bounds x).1 (srem_D_bounds x).2

/-! ## Words with a small non-negative signed value -/

/-- A word whose signed value is in [0, 2^31) reads the same unsigned. -/
theorem toNat_of_toInt_nonneg {y : BitVec 32} (h0 : 0 ≤ y.toInt) : (y.toNat : Int) = y.toInt := by
  have hc := BitVec.toInt_eq_toNat_cond y
  have hlt := y.isLt
  split at hc <;> omega

theorem toInt_toNat_of_nonneg {y : BitVec 32} (h0 : 0 ≤ y.toInt) : y.toInt.toNat = y.toNat := by
  have := toNat_of_toInt_nonneg h0
  omega

theorem toNat_lt_of_toInt {y : BitVec 32} (h0 : 0 ≤ y.toInt) (h1 : y.toInt < 2000000) :
    y.toNat < 2000000 := by
  have := toNat_of_toInt_nonneg h0
  omega

theorem remS_toNat_lt (x : BitVec 32) : (remS x).toNat < 2000000 :=
  toNat_lt_of_toInt (remS_range x).1 (remS_range x).2

theorem remS_toInt_toNat (x : BitVec 32) : (remS x).toInt.toNat = (remS x).toNat :=
  toInt_toNat_of_nonneg (remS_range x).1

/-! ## An in-range index: wrap, range mask, clamp -/

section InRange

variable {y : BitVec 32}

/-- A non-negative index is not wrapped: select (y <ₛ 0) (y + D) y = y. -/
theorem wrap_id (h0 : 0 ≤ y.toInt) :
    Scalar.select (IntOp.cmpi .slt y (0#32)) (IntOp.addi y (2000000#32)) y = y := by
  rw [cmpi_slt_eq_zero (by rw [toInt_zero32]; omega)]
  rfl

/-- 0 ≤ y. -/
theorem sge_zero (h0 : 0 ≤ y.toInt) : IntOp.cmpi .sge y (0#32) = 1#1 :=
  cmpi_sge_eq_one (by rw [toInt_zero32]; exact h0)

/-- y ≤ D - 1. -/
theorem sle_Dm1 (h1 : y.toInt < 2000000) : IntOp.cmpi .sle y (1999999#32) = 1#1 :=
  cmpi_sle_eq_one (by rw [toInt_Dm1]; omega)

/-- The range mask 0 ≤ y ∧ y ≤ D - 1 is true. -/
theorem range_mask (h0 : 0 ≤ y.toInt) (h1 : y.toInt < 2000000) :
    IntOp.andi (IntOp.cmpi .sge y (0#32)) (IntOp.cmpi .sle y (1999999#32)) = 1#1 := by
  rw [sge_zero h0, sle_Dm1 h1, bit_and_one_one]

/-- Clamping the signed value of y into [0, D - 1] is the unsigned value of y. -/
theorem clamp_id (h0 : 0 ≤ y.toInt) (h1 : y.toInt < 2000000) :
    min y.toInt.toNat (2000000 - 1) = y.toNat := by
  have := toNat_of_toInt_nonneg h0
  omega

end InRange

/-- All the index facts at once for the floored remainder. -/
theorem remS_wrap_id (x : BitVec 32) :
    Scalar.select (IntOp.cmpi .slt (remS x) (0#32)) (IntOp.addi (remS x) (2000000#32)) (remS x)
      = remS x :=
  wrap_id (remS_range x).1

theorem remS_range_mask (x : BitVec 32) :
    IntOp.andi (IntOp.cmpi .sge (remS x) (0#32)) (IntOp.cmpi .sle (remS x) (1999999#32)) = 1#1 :=
  range_mask (remS_range x).1 (remS_range x).2

theorem remS_clamp_id (x : BitVec 32) :
    min (remS x).toInt.toNat (2000000 - 1) = (remS x).toNat :=
  clamp_id (remS_range x).1 (remS_range x).2

end Cert.IntFacts
-- ==== Proof.Sums.lean ====
import Mathlib.Data.EReal.Basic
import Mathlib.Data.EReal.Operations
import Mathlib.Algebra.BigOperators.Fin
import Mathlib.Algebra.BigOperators.Group.Finset.Basic
import Mathlib.Algebra.BigOperators.Ring.Finset
import Mathlib.Logic.Equiv.Fin.Basic

/-!
# Finite sums of extended reals

Counting argument: for a map r : I → J and a table T of real numbers,
  ∑ j, ∑ d, T j d * #{i | r i = j} = ∑ i, ∑ d, T (r i) d.
In the extended reals multiplication does not distribute over addition at ±∞, so the
statement is proved for tables whose entries are all (coercions of) real numbers, by
transporting both sides to ℝ.
-/

namespace Cert.Sums

open Finset

/-! ## Coercion ℝ → EReal commutes with finite sums -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Being a real number is closed under the operations used -/

theorem natCast_real (n : ℕ) : ∃ y : ℝ, ((n : ℕ) : EReal) = (y : EReal) := ⟨(n : ℝ), rfl⟩

theorem natCast_eq_coe (n : ℕ) : ((n : ℕ) : EReal) = (((n : ℕ) : ℝ) : EReal) := rfl

theorem zero_real : ∃ y : ℝ, (0 : EReal) = (y : EReal) := ⟨0, rfl⟩

theorem one_real : ∃ y : ℝ, (1 : EReal) = (y : EReal) := ⟨1, rfl⟩

theorem add_real {a b : EReal} (ha : ∃ x : ℝ, a = (x : EReal)) (hb : ∃ x : ℝ, b = (x : EReal)) :
    ∃ y : ℝ, a + b = (y : EReal) := by
  obtain ⟨x, rfl⟩ := ha
  obtain ⟨y, rfl⟩ := hb
  exact ⟨x + y, (EReal.coe_add x y).symm⟩

theorem mul_real {a b : EReal} (ha : ∃ x : ℝ, a = (x : EReal)) (hb : ∃ x : ℝ, b = (x : EReal)) :
    ∃ y : ℝ, a * b = (y : EReal) := by
  obtain ⟨x, rfl⟩ := ha
  obtain ⟨y, rfl⟩ := hb
  exact ⟨x * y, (EReal.coe_mul x y).symm⟩

theorem sum_real {ι : Type*} (s : Finset ι) (f : ι → EReal)
    (hf : ∀ i ∈ s, ∃ x : ℝ, f i = (x : EReal)) : ∃ y : ℝ, ∑ i ∈ s, f i = (y : EReal) := by
  classical
  induction s using Finset.induction_on with
  | empty => exact ⟨0, by simp⟩
  | insert a s ha ih =>
    rw [Finset.sum_insert ha]
    exact add_real (hf a (Finset.mem_insert_self a s))
      (ih fun i hi => hf i (Finset.mem_insert_of_mem hi))

theorem sum_univ_real {ι : Type*} [Fintype ι] (f : ι → EReal)
    (hf : ∀ i, ∃ x : ℝ, f i = (x : EReal)) : ∃ y : ℝ, ∑ i, f i = (y : EReal) :=
  sum_real Finset.univ f fun i _ => hf i

theorem zero_add_ereal (x : EReal) : (0 : EReal) + x = x := zero_add x

theorem add_zero_ereal (x : EReal) : x + (0 : EReal) = x := add_zero x

/-- A sum of ones over a finite set is its cardinality. -/
theorem sum_ones {ι : Type*} (s : Finset ι) : ∑ _i ∈ s, (1 : EReal) = ((s.card : ℕ) : EReal) := by
  rw [natCast_eq_coe, ← EReal.coe_one, ← coe_sum]
  simp

/-! ## The counting identity over ℝ -/

theorem real_fiber_sum {I J : Type*} [Fintype I] [Fintype J] [DecidableEq J]
    (r : I → J) (g : J → ℝ) :
    ∑ j, g j * (((Finset.univ.filter fun i => r i = j).card : ℕ) : ℝ) = ∑ i, g (r i) := by
  rw [← Finset.sum_fiberwise' Finset.univ r g]
  refine Finset.sum_congr rfl fun j _ => ?_
  rw [Finset.sum_const, nsmul_eq_mul, mul_comm]

/-! ## The counting identity in EReal, for real tables -/

section fiber

variable {I J D : Type*} [Fintype I] [Fintype J] [Fintype D] [DecidableEq J]

/-- Count given as a real cast of the fibre cardinality. -/
theorem fiber_sum_real (T : J → D → EReal) (hT : ∀ j d, ∃ x : ℝ, T j d = (x : EReal))
    (r : I → J) (cnt : J → EReal)
    (hcnt : ∀ j, cnt j = ((((Finset.univ.filter fun i => r i = j).card : ℕ) : ℝ) : EReal)) :
    ∑ j, ∑ d, T j d * cnt j = ∑ i, ∑ d, T (r i) d := by
  choose t ht using hT
  have hL : ∀ j, ∑ d, T j d * cnt j
      = (((∑ d, t j d) * (((Finset.univ.filter fun i => r i = j).card : ℕ) : ℝ) : ℝ) : EReal) := by
    intro j
    rw [Finset.sum_mul, coe_sum]
    refine Finset.sum_congr rfl fun d _ => ?_
    rw [ht j d, hcnt j, EReal.coe_mul]
  have hR : ∀ i, ∑ d, T (r i) d = ((∑ d, t (r i) d : ℝ) : EReal) := by
    intro i
    rw [coe_sum]
    exact Finset.sum_congr rfl fun d _ => ht (r i) d
  rw [Finset.sum_congr rfl fun j _ => hL j, Finset.sum_congr rfl fun i _ => hR i,
    ← coe_sum, ← coe_sum, real_fiber_sum r fun j => ∑ d, t j d]

/-- Count given as a natural-number cast of the fibre cardinality. -/
theorem fiber_sum (T : J → D → EReal) (hT : ∀ j d, ∃ x : ℝ, T j d = (x : EReal))
    (r : I → J) (cnt : J → EReal)
    (hcnt : ∀ j, cnt j = (((Finset.univ.filter fun i => r i = j).card : ℕ) : EReal)) :
    ∑ j, ∑ d, T j d * cnt j = ∑ i, ∑ d, T (r i) d :=
  fiber_sum_real T hT r cnt hcnt

/-- Factor on the left, natural-number cast. -/
theorem fiber_sum_left (T : J → D → EReal) (hT : ∀ j d, ∃ x : ℝ, T j d = (x : EReal))
    (r : I → J) (cnt : J → EReal)
    (hcnt : ∀ j, cnt j = (((Finset.univ.filter fun i => r i = j).card : ℕ) : EReal)) :
    ∑ j, ∑ d, cnt j * T j d = ∑ i, ∑ d, T (r i) d := by
  rw [← fiber_sum T hT r cnt hcnt]
  exact Finset.sum_congr rfl fun j _ => Finset.sum_congr rfl fun d _ => EReal.mul_comm _ _

/-- Factor on the left, real cast. -/
theorem fiber_sum_real_left (T : J → D → EReal) (hT : ∀ j d, ∃ x : ℝ, T j d = (x : EReal))
    (r : I → J) (cnt : J → EReal)
    (hcnt : ∀ j, cnt j = ((((Finset.univ.filter fun i => r i = j).card : ℕ) : ℝ) : EReal)) :
    ∑ j, ∑ d, cnt j * T j d = ∑ i, ∑ d, T (r i) d :=
  fiber_sum_left T hT r cnt hcnt

/-- Count given as a sum of ones over the fibre. -/
theorem fiber_sum_ones (T : J → D → EReal) (hT : ∀ j d, ∃ x : ℝ, T j d = (x : EReal))
    (r : I → J) (cnt : J → EReal)
    (hcnt : ∀ j, cnt j = ∑ _i ∈ Finset.univ.filter (fun i => r i = j), (1 : EReal)) :
    ∑ j, ∑ d, T j d * cnt j = ∑ i, ∑ d, T (r i) d :=
  fiber_sum T hT r cnt fun j => (hcnt j).trans (sum_ones _)

theorem fiber_sum_ones_left (T : J → D → EReal) (hT : ∀ j d, ∃ x : ℝ, T j d = (x : EReal))
    (r : I → J) (cnt : J → EReal)
    (hcnt : ∀ j, cnt j = ∑ _i ∈ Finset.univ.filter (fun i => r i = j), (1 : EReal)) :
    ∑ j, ∑ d, cnt j * T j d = ∑ i, ∑ d, T (r i) d :=
  fiber_sum_left T hT r cnt fun j => (hcnt j).trans (sum_ones _)

/-- Count given as zero plus a sum of ones over the fibre. -/
theorem fiber_sum_zero_add_ones (T : J → D → EReal) (hT : ∀ j d, ∃ x : ℝ, T j d = (x : EReal))
    (r : I → J) (cnt : J → EReal)
    (hcnt : ∀ j, cnt j = 0 + ∑ _i ∈ Finset.univ.filter (fun i => r i = j), (1 : EReal)) :
    ∑ j, ∑ d, T j d * cnt j = ∑ i, ∑ d, T (r i) d :=
  fiber_sum_ones T hT r cnt fun j => (hcnt j).trans (zero_add _)

theorem fiber_sum_zero_add_ones_left (T : J → D → EReal)
    (hT : ∀ j d, ∃ x : ℝ, T j d = (x : EReal))
    (r : I → J) (cnt : J → EReal)
    (hcnt : ∀ j, cnt j = 0 + ∑ _i ∈ Finset.univ.filter (fun i => r i = j), (1 : EReal)) :
    ∑ j, ∑ d, cnt j * T j d = ∑ i, ∑ d, T (r i) d :=
  fiber_sum_ones_left T hT r cnt fun j => (hcnt j).trans (zero_add _)

/-- Sum of ones written with an indicator over the whole index type. -/
theorem sum_ite_ones (r : I → J) (j : J) :
    ∑ i, (if r i = j then (1 : EReal) else 0)
      = ∑ _i ∈ Finset.univ.filter (fun i => r i = j), (1 : EReal) :=
  (Finset.sum_filter _ _).symm

theorem fiber_sum_ite (T : J → D → EReal) (hT : ∀ j d, ∃ x : ℝ, T j d = (x : EReal))
    (r : I → J) (cnt : J → EReal)
    (hcnt : ∀ j, cnt j = ∑ i, (if r i = j then (1 : EReal) else 0)) :
    ∑ j, ∑ d, T j d * cnt j = ∑ i, ∑ d, T (r i) d :=
  fiber_sum_ones T hT r cnt fun j => (hcnt j).trans (sum_ite_ones r j)

end fiber

/-! ## Reindexing -/

section reindex

variable {M : Type*} [AddCommMonoid M]

/-- A sum over pairs (x, y) of a function of the flat index x * b + y. -/
theorem sum_prod_flat (a b : ℕ) (g : ℕ → M) :
    ∑ p : Fin a × Fin b, g (p.1.val * b + p.2.val) = ∑ k : Fin (a * b), g k.val := by
  refine Fintype.sum_equiv finProdFinEquiv _ _ fun p => ?_
  simp only [finProdFinEquiv_apply_val]
  rw [Nat.add_comm, Nat.mul_comm]

/-- Nested form. -/
theorem sum_sum_flat (a b : ℕ) (g : ℕ → M) :
    ∑ x : Fin a, ∑ y : Fin b, g (x.val * b + y.val) = ∑ k : Fin (a * b), g k.val := by
  rw [← sum_prod_flat, Fintype.sum_prod_type]

/-- The flat index x * b + y is below a * b. -/
theorem flat_lt {a b : ℕ} (x : Fin a) (y : Fin b) : x.val * b + y.val < a * b := by
  have h := (finProdFinEquiv (x, y)).isLt
  simp only [finProdFinEquiv_apply_val] at h
  rwa [Nat.add_comm, Nat.mul_comm] at h

/-- The same with the total given by an equation a * b = n and g defined on Fin n. -/
theorem sum_sum_flat_fin {a b n : ℕ} (h : a * b = n) (g : Fin n → M) :
    ∑ x : Fin a, ∑ y : Fin b, g ⟨x.val * b + y.val, h ▸ flat_lt x y⟩ = ∑ k : Fin n, g k := by
  subst h
  rw [← Fintype.sum_prod_type (f := fun p : Fin a × Fin b =>
    g ⟨p.1.val * b + p.2.val, flat_lt p.1 p.2⟩)]
  refine Fintype.sum_equiv finProdFinEquiv _ _ fun p => ?_
  congr 1
  apply Fin.ext
  simp only [finProdFinEquiv_apply_val]
  rw [Nat.add_comm, Nat.mul_comm]

/-- A sum over Fin (N + N) splits into the two halves. -/
theorem sum_two_halves (N : ℕ) (g : ℕ → M) :
    ∑ k : Fin (N + N), g k.val = ∑ k : Fin N, g k.val + ∑ k : Fin N, g (N + k.val) := by
  rw [Fin.sum_univ_add]
  rfl

theorem sum_two_mul (N : ℕ) (g : ℕ → M) :
    ∑ k : Fin (2 * N), g k.val = ∑ k : Fin N, g k.val + ∑ k : Fin N, g (N + k.val) := by
  rw [← sum_two_halves]
  exact Fintype.sum_equiv (finCongr (two_mul N)) _ _ fun k => rfl

end reindex

end Cert.Sums
-- ==== Proof.KHost.lean ====
/-
  The host operations of the count-weighted program composed into pure terms, and the contents they leave.
  Before the first weighted sum: each id vector is reduced modulo 2000000 (with the sign of the divisor), and the
  number of lookups landing on each table row is accumulated by adding a vector of ones into a vector of zeros at
  the reduced ids; the count vector is then viewed as a one-column matrix. After the two weighted sums: the two
  one-entry totals are added and divided by 128000000.
  Each definition applies the same operations to the same shape records, in the same order, as the printed
  program, so that the contents after a stretch of host operations read back these terms by unfolding alone.
-/
import proofs.«410300_j15324443312170_3_alg».proof.Proof.Gen.KernelIdeal.Launch
import proofs.«410300_j15324443312170_3_alg».proof.Proof.Gen.KernelIdeal.Regions
import proofs.«410300_j15324443312170_3_alg».proof.Proof.Spec
import proofs.«410300_j15324443312170_3_alg».proof.Proof.LibIndex
import proofs.«410300_j15324443312170_3_alg».proof.Proof.IntFacts
import proofs.«410300_j15324443312170_3_alg».proof.Proof.Sums
import Idealize.ShloMosaic.Lib.IdealHost
import Idealize.ShloMosaic.Lib.Pipeline.Value

noncomputable section

namespace Cert.KernelIdeal.Host

open Cert.KernelIdeal Cert.KernelIdeal.Gen Idealize.ShloMosaic

variable {F : FTy → Type} [FloatOps F] [Facts]

/-! ## The remainder by a scalar modulus -/

/-- The modulus passed through the identity conversion. -/
def remModOf (c : (⟨S_, .i32⟩ : BufTy).Contents (Elt F)) : (⟨S_, .i32⟩ : BufTy).Contents (Elt F) := id c

/-- The divisor actually used: 1 where the modulus is 0, the modulus otherwise. -/
def remDivOf (c : (⟨S_, .i32⟩ : BufTy).Contents (Elt F)) : (⟨S_, .i32⟩ : BufTy).Contents (Elt F) :=
  select (cmpi .eq (remModOf c) (constantI S_ 32 0#32 : (⟨S_, .i32⟩ : BufTy).Contents (Elt F)))
    (constantI S_ 32 1#32 : (⟨S_, .i32⟩ : BufTy).Contents (Elt F)) (remModOf c)

/-- The truncated remainder (sign of the dividend) of each id by the divisor. -/
def remTruncOf (c : (⟨S_, .i32⟩ : BufTy).Contents (Elt F)) (ids : (⟨S1000000, .i32⟩ : BufTy).Contents (Elt F)) :
    (⟨S1000000, .i32⟩ : BufTy).Contents (Elt F) :=
  Host.remsi ids (broadcastInDim S1000000 ![] bcast_S_S1000000 (remDivOf c))

/-- Where the truncated remainder is nonzero. -/
def remNonzeroOf (c : (⟨S_, .i32⟩ : BufTy).Contents (Elt F)) (ids : (⟨S1000000, .i32⟩ : BufTy).Contents (Elt F)) :
    (⟨S1000000, .i1⟩ : BufTy).Contents (Elt F) :=
  cmpi .ne (remTruncOf c ids)
    (broadcastInDim S1000000 ![] bcast_S_S1000000 (constantI S_ 32 0#32 : (⟨S_, .i32⟩ : BufTy).Contents (Elt F)))

/-- Where the truncated remainder is negative. -/
def remNegOf (c : (⟨S_, .i32⟩ : BufTy).Contents (Elt F)) (ids : (⟨S1000000, .i32⟩ : BufTy).Contents (Elt F)) :
    (⟨S1000000, .i1⟩ : BufTy).Contents (Elt F) :=
  cmpi .slt (remTruncOf c ids)
    (broadcastInDim S1000000 ![] bcast_S_S1000000 (constantI S_ 32 0#32 : (⟨S_, .i32⟩ : BufTy).Contents (Elt F)))

/-- Whether the divisor is negative, at every position. -/
def remDivNegOf (c : (⟨S_, .i32⟩ : BufTy).Contents (Elt F)) : (⟨S1000000, .i1⟩ : BufTy).Contents (Elt F) :=
  broadcastInDim S1000000 ![] bcast_S_S1000000
    (cmpi .slt (remDivOf c) (constantI S_ 32 0#32 : (⟨S_, .i32⟩ : BufTy).Contents (Elt F)))

/-- Where the sign correction applies: the remainder's sign differs from the divisor's and the remainder is nonzero. -/
def remFixOf (c : (⟨S_, .i32⟩ : BufTy).Contents (Elt F)) (ids : (⟨S1000000, .i32⟩ : BufTy).Contents (Elt F)) :
    (⟨S1000000, .i1⟩ : BufTy).Contents (Elt F) :=
  andi (cmpi .ne (remNegOf c ids) (remDivNegOf c)) (remNonzeroOf c ids)

/-- The ids modulo the scalar with the sign of the divisor: the truncated remainder, plus the divisor where the
    correction applies. -/
def remOf (c : (⟨S_, .i32⟩ : BufTy).Contents (Elt F)) (ids : (⟨S1000000, .i32⟩ : BufTy).Contents (Elt F)) :
    (⟨S1000000, .i32⟩ : BufTy).Contents (Elt F) :=
  select (remFixOf c ids)
    (addi (remTruncOf c ids) (broadcastInDim S1000000 ![] bcast_S_S1000000 (remDivOf c)))
    (remTruncOf c ids)

/-- The ids modulo 2000000. -/
def remOutK (ids : (⟨S1000000, .i32⟩ : BufTy).Contents (Elt F)) : (⟨S1000000, .i32⟩ : BufTy).Contents (Elt F) :=
  remOf (constantI S_ 32 2000000#32 : (⟨S_, .i32⟩ : BufTy).Contents (Elt F)) ids

/-! ## The counts -/

/-- The number of lookups landing on each row, as a vector: ones added into zeros at the reduced ids. -/
def countsVec (r : (⟨S1000000, .i32⟩ : BufTy).Contents (Elt F)) : (⟨S2000000, .f32⟩ : BufTy).Contents (Elt F) :=
  Host.scatterAdd scatter_S2000000_S1000000x1_S1000000_n_0_0_1
    (broadcastInDim S2000000 ![] bcast_S_S2000000 (constant S_ .f32 0x00000000#32 : (⟨S_, .f32⟩ : BufTy).Contents (Elt F)))
    (broadcastInDim S1000000x1 ![0] bcast_S1000000_S1000000x1_0 r)
    (broadcastInDim S1000000 ![] bcast_S_S1000000 (constant S_ .f32 0x3F800000#32 : (⟨S_, .f32⟩ : BufTy).Contents (Elt F)))

/-- A vector of 2000000 entries viewed as a one-column matrix. -/
def asColumn (v : (⟨S2000000, .f32⟩ : BufTy).Contents (Elt F)) : (⟨S2000000x1, .f32⟩ : BufTy).Contents (Elt F) :=
  fun i => shapeCast S2000000x1 v shapeCasts_S2000000_S2000000x1 i

/-- The counts as a one-column matrix. -/
def countsOut (r : (⟨S1000000, .i32⟩ : BufTy).Contents (Elt F)) : (⟨S2000000x1, .f32⟩ : BufTy).Contents (Elt F) :=
  asColumn (countsVec r)

/-! ## The loss -/

/-- A one-entry matrix viewed as a scalar. -/
def asScalar (x : (⟨S1x1, .f32⟩ : BufTy).Contents (Elt F)) : (⟨S_, .f32⟩ : BufTy).Contents (Elt F) :=
  fun i => shapeCast S_ x shapeCasts_S1x1_S_ i

/-- The sum of the two totals divided by 128000000. -/
def lossK (x y : (⟨S1x1, .f32⟩ : BufTy).Contents (Elt F)) : (⟨S_, .f32⟩ : BufTy).Contents (Elt F) :=
  Host.divf (addf (asScalar x) (asScalar y)) (constant S_ .f32 0x4CF42400#32 : (⟨S_, .f32⟩ : BufTy).Contents (Elt F))

/-! ## What each stretch of host operations leaves, from arbitrary contents -/

section Stretches

variable (W : Valuation τ sig (Elt F))

/-- The first stretch writes the first modulus. -/
theorem after0_c :
    StableHlo.after hostOps0 W (Proc.devRef .tc main_c)
      = (constantI S_ 32 2000000#32 : (⟨S_, .i32⟩ : BufTy).Contents (Elt F)) := by
  after_results

/-- The first stretch leaves every other buffer. -/
theorem after0_of (r : Ref sig .tc) (h : r ∉ hostOps0_W) :
    StableHlo.after hostOps0 W (Proc.devRef .tc r) = W (Proc.devRef .tc r) :=
  StableHlo.after_of_writes_sub hostOps0 W hostOps0_writes h

/-- The second stretch leaves the first ids reduced by the first modulus. -/
theorem after1_v0 :
    StableHlo.after hostOps0_1 W (Proc.devRef .tc main_v0)
      = remOf (W (Proc.devRef .tc main_c)) (W (Proc.devRef .tc main_arg2)) := by
  after_results_simp
  simp only [StableHlo.TRef.ofBuf, StableHlo.TRef.toBuf, cast_eq]
  rfl

theorem after1_of (r : Ref sig .tc) (h : r ∉ hostOps0_1_W) :
    StableHlo.after hostOps0_1 W (Proc.devRef .tc r) = W (Proc.devRef .tc r) :=
  StableHlo.after_of_writes_sub hostOps0_1 W hostOps0_1_writes h

/-- The third stretch writes the second modulus. -/
theorem after2_c :
    StableHlo.after hostOps0_2 W (Proc.devRef .tc main_c_0)
      = (constantI S_ 32 2000000#32 : (⟨S_, .i32⟩ : BufTy).Contents (Elt F)) := by
  after_results

theorem after2_of (r : Ref sig .tc) (h : r ∉ hostOps0_2_W) :
    StableHlo.after hostOps0_2 W (Proc.devRef .tc r) = W (Proc.devRef .tc r) :=
  StableHlo.after_of_writes_sub hostOps0_2 W hostOps0_2_writes h

/-- The fourth stretch leaves the second ids reduced by the second modulus. -/
theorem after3_v1 :
    StableHlo.after hostOps0_3 W (Proc.devRef .tc main_v1)
      = remOf (W (Proc.devRef .tc main_c_0)) (W (Proc.devRef .tc main_arg3)) := by
  after_results_simp
  simp only [StableHlo.TRef.ofBuf, StableHlo.TRef.toBuf, cast_eq]
  rfl

theorem after3_of (r : Ref sig .tc) (h : r ∉ hostOps0_3_W) :
    StableHlo.after hostOps0_3 W (Proc.devRef .tc r) = W (Proc.devRef .tc r) :=
  StableHlo.after_of_writes_sub hostOps0_3 W hostOps0_3_writes h

/-- The fifth stretch leaves the first counts as a one-column matrix. -/
theorem after4_v10 :
    StableHlo.after hostOps0_4 W (Proc.devRef .tc main_v10) = countsOut (W (Proc.devRef .tc main_v0)) := by
  after_results
  rfl

/-- The fifth stretch leaves the second counts as a vector. -/
theorem after4_v9 :
    StableHlo.after hostOps0_4 W (Proc.devRef .tc main_v9) = countsVec (W (Proc.devRef .tc main_v1)) := by
  after_results
  rfl

theorem after4_of (r : Ref sig .tc) (h : r ∉ hostOps0_4_W) :
    StableHlo.after hostOps0_4 W (Proc.devRef .tc r) = W (Proc.devRef .tc r) :=
  StableHlo.after_of_writes_sub hostOps0_4 W hostOps0_4_writes h

/-- Between the two weighted sums the second count vector is viewed as a one-column matrix. -/
theorem after_mid_v12 :
    StableHlo.after hostOps1 W (Proc.devRef .tc main_v12) = asColumn (W (Proc.devRef .tc main_v9)) := by
  after_results
  rfl

/-- Nothing else changes between the two weighted sums. -/
theorem after_mid_of (r : Ref sig .tc) (h : r ≠ main_v12) :
    StableHlo.after hostOps1 W (Proc.devRef .tc r) = W (Proc.devRef .tc r) :=
  StableHlo.after_of_writes_sub hostOps1 W hostOps1_writes (fun hm => h (List.mem_singleton.mp hm))

/-- The same over every buffer of the core, not only the references of this program's table. -/
theorem after_mid_of_dev (b : DevRef τ sig) (h : b ≠ Proc.devRef .tc main_v12) :
    StableHlo.after hostOps1 W b = W b :=
  StableHlo.after_of_forall_not_mem hostOps1 W (fun op hop hb => by
    rw [List.mem_singleton.mp hop, StableHlo.reshape_writes] at hb
    exact h (Finset.mem_singleton.mp hb))

/-- After the two weighted sums the loss is the sum of the two totals divided by 128000000. -/
theorem after_tail_v17 :
    StableHlo.after hostOps2 W (Proc.devRef .tc main_v17)
      = lossK (W (Proc.devRef .tc main_v11)) (W (Proc.devRef .tc main_v13)) := by
  after_results
  rfl

theorem after_tail_of (r : Ref sig .tc) (h : r ∉ hostOps2_W) :
    StableHlo.after hostOps2 W (Proc.devRef .tc r) = W (Proc.devRef .tc r) :=
  StableHlo.after_of_writes_sub hostOps2 W hostOps2_writes h

theorem after_tail_v0 : StableHlo.after hostOps2 W (Proc.devRef .tc main_v0) = W (Proc.devRef .tc main_v0) :=
  after_tail_of W main_v0 (by decide)
theorem after_tail_v1 : StableHlo.after hostOps2 W (Proc.devRef .tc main_v1) = W (Proc.devRef .tc main_v1) :=
  after_tail_of W main_v1 (by decide)
theorem after_tail_arg0 : StableHlo.after hostOps2 W (Proc.devRef .tc main_arg0) = W (Proc.devRef .tc main_arg0) :=
  after_tail_of W main_arg0 (by decide)
theorem after_tail_arg1 : StableHlo.after hostOps2 W (Proc.devRef .tc main_arg1) = W (Proc.devRef .tc main_arg1) :=
  after_tail_of W main_arg1 (by decide)
theorem after_tail_arg2 : StableHlo.after hostOps2 W (Proc.devRef .tc main_arg2) = W (Proc.devRef .tc main_arg2) :=
  after_tail_of W main_arg2 (by decide)
theorem after_tail_arg3 : StableHlo.after hostOps2 W (Proc.devRef .tc main_arg3) = W (Proc.devRef .tc main_arg3) :=
  after_tail_of W main_arg3 (by decide)

end Stretches

/-! ## The contents at the first weighted sum -/

section Entry

variable (W : Valuation τ sig (Elt F))

/-- The contents after the four stretches of host operations that compute the two reduced id vectors. -/
abbrev entry4 : Valuation τ sig (Elt F) :=
  StableHlo.after hostOps0_3 (StableHlo.after hostOps0_2 (StableHlo.after hostOps0_1 (StableHlo.after hostOps0 W)))

/-- The contents after the five stretches of host operations that precede the first weighted sum. -/
abbrev entry5 : Valuation τ sig (Elt F) := StableHlo.after hostOps0_4 (entry4 W)

/-- A buffer none of the first four stretches writes keeps its contents. -/
theorem entry4_of (r : Ref sig .tc) (h0 : r ∉ hostOps0_W) (h1 : r ∉ hostOps0_1_W) (h2 : r ∉ hostOps0_2_W)
    (h3 : r ∉ hostOps0_3_W) : entry4 W (Proc.devRef .tc r) = W (Proc.devRef .tc r) :=
  (after3_of _ r h3).trans <| (after2_of _ r h2).trans <| (after1_of _ r h1).trans (after0_of W r h0)

/-- A buffer none of the five stretches writes keeps its contents. -/
theorem entry5_of (r : Ref sig .tc) (h0 : r ∉ hostOps0_W) (h1 : r ∉ hostOps0_1_W) (h2 : r ∉ hostOps0_2_W)
    (h3 : r ∉ hostOps0_3_W) (h4 : r ∉ hostOps0_4_W) :
    entry5 W (Proc.devRef .tc r) = W (Proc.devRef .tc r) :=
  (after4_of _ r h4).trans (entry4_of W r h0 h1 h2 h3)

theorem entry5_arg0 : entry5 W (Proc.devRef .tc main_arg0) = W (Proc.devRef .tc main_arg0) :=
  entry5_of W main_arg0 (by decide) (by decide) (by decide) (by decide) (by decide)
theorem entry5_arg1 : entry5 W (Proc.devRef .tc main_arg1) = W (Proc.devRef .tc main_arg1) :=
  entry5_of W main_arg1 (by decide) (by decide) (by decide) (by decide) (by decide)
theorem entry5_arg2 : entry5 W (Proc.devRef .tc main_arg2) = W (Proc.devRef .tc main_arg2) :=
  entry5_of W main_arg2 (by decide) (by decide) (by decide) (by decide) (by decide)
theorem entry5_arg3 : entry5 W (Proc.devRef .tc main_arg3) = W (Proc.devRef .tc main_arg3) :=
  entry5_of W main_arg3 (by decide) (by decide) (by decide) (by decide) (by decide)

/-- The first reduced ids, once both are computed. -/
theorem entry4_v0 : entry4 W (Proc.devRef .tc main_v0) = remOutK (W (Proc.devRef .tc main_arg2)) :=
  (after3_of _ main_v0 (by decide)).trans <| (after2_of _ main_v0 (by decide)).trans <| (after1_v0 _).trans <|
    congrArg₂ remOf (after0_c W) (after0_of W main_arg2 (by decide))

/-- The second reduced ids, once both are computed. -/
theorem entry4_v1 : entry4 W (Proc.devRef .tc main_v1) = remOutK (W (Proc.devRef .tc main_arg3)) :=
  (after3_v1 _).trans <| congrArg₂ remOf (after2_c _)
    ((after2_of _ main_arg3 (by decide)).trans <| (after1_of _ main_arg3 (by decide)).trans
      (after0_of W main_arg3 (by decide)))

/-- The first reduced ids. -/
theorem entry5_v0 : entry5 W (Proc.devRef .tc main_v0) = remOutK (W (Proc.devRef .tc main_arg2)) :=
  (after4_of _ main_v0 (by decide)).trans (entry4_v0 W)

/-- The second reduced ids. -/
theorem entry5_v1 : entry5 W (Proc.devRef .tc main_v1) = remOutK (W (Proc.devRef .tc main_arg3)) :=
  (after4_of _ main_v1 (by decide)).trans (entry4_v1 W)

/-- The first counts, as a one-column matrix. -/
theorem entry5_v10 : entry5 W (Proc.devRef .tc main_v10) = countsOut (remOutK (W (Proc.devRef .tc main_arg2))) :=
  (after4_v10 _).trans (congrArg countsOut (entry4_v0 W))

/-- The second counts, as a vector. -/
theorem entry5_v9 : entry5 W (Proc.devRef .tc main_v9) = countsVec (remOutK (W (Proc.devRef .tc main_arg3))) :=
  (after4_v9 _).trans (congrArg countsVec (entry4_v1 W))

end Entry

/-! ## The terms read at an index -/

section Exact

open Idealize.ShloMosaic.ValueIdx

/-- Each reduced id is the floored remainder of the id by 2000000, computed on the one word. -/
theorem remOutK_apply (ids : (⟨S1000000, .i32⟩ : BufTy).Contents (Elt F)) (i : S1000000.Idx) :
    remOutK ids i = Cert.IntFacts.remS (ids i) := rfl

/-- Every reduced id is a row of the table. -/
theorem remOutK_inRange (ids : (⟨S1000000, .i32⟩ : BufTy).Contents (Elt F)) : Cert.Spec.InRange (remOutK ids) :=
  fun i => (remOutK_apply ids i) ▸ Cert.IntFacts.remS_range (ids i)

/-- A vector as a one-column matrix of indices reads, at (t, 0), the vector at t. -/
theorem idxColumn_apply (r : (⟨S1000000, .i32⟩ : BufTy).Contents (Elt F)) (t : Fin 1000000) :
    broadcastInDim S1000000x1 ![0] bcast_S1000000_S1000000x1_0 r (ix2 t (0 : Fin 1)) = r (ix1 t) :=
  broadcastInDim_apply _ _ r _ (ix1 t) (fun a => by
    match a with
    | ⟨0, _⟩ => exact (if_neg (show ¬ ((1000000 : Nat) = 1) by decide)).symm)

/-- A vector viewed as a one-column matrix reads, at (j, 0), the vector at j. -/
theorem asColumn_apply (v : (⟨S2000000, .f32⟩ : BufTy).Contents (Elt F)) (j : Fin 2000000) :
    asColumn v (ix2 j (0 : Fin 1)) = v (ix1 j) :=
  shapeCast_apply v shapeCasts_S2000000_S2000000x1 (ix2 j (0 : Fin 1)) (ix1 j) (by
    rw [Shape.rowMajor_val_two, Shape.rowMajor_val_one]
    show j.val = j.val * 1 + 0
    omega)

/-- A one-entry matrix viewed as a scalar reads its one entry. -/
theorem asScalar_apply (x : (⟨S1x1, .f32⟩ : BufTy).Contents (Elt F)) (i : S_.Idx) :
    asScalar x i = x (ix2 (0 : Fin 1) (0 : Fin 1)) :=
  shapeCast_apply x shapeCasts_S1x1_S_ i (ix2 (0 : Fin 1) (0 : Fin 1)) (by
    have h1 : (S_ : Shape).numel = 1 := by unfold Shape.numel; exact Fin.prod_univ_zero _
    have h2 := (S_.rowMajor i).isLt
    rw [Shape.rowMajor_val_two]
    show 0 * 1 + 0 = (S_.rowMajor i).val
    omega)

/-- The loss at the exact instance: the sum of the two totals' entries, divided by 128000000. -/
theorem lossK_eq (x y : (⟨S1x1, .f32⟩ : BufTy).Contents (Elt Ideal)) :
    lossK (F := Ideal) x y
      = Host.divf (F := Ideal) (fun _ => x (ix2 (0 : Fin 1) (0 : Fin 1)) + y (ix2 (0 : Fin 1) (0 : Fin 1)))
          (constant (F := Ideal) S_ .f32 0x4CF42400#32) := by
  unfold lossK
  refine congrArg (fun a => Host.divf (F := Ideal) a (constant (F := Ideal) S_ .f32 0x4CF42400#32)) ?_
  funext i
  show asScalar x i + asScalar y i = _
  rw [asScalar_apply, asScalar_apply]

/-- The count vector at the exact instance is the exact accumulating scatter of ones into zeros. -/
theorem countsVec_eq (r : (⟨S1000000, .i32⟩ : BufTy).Contents (Elt Ideal)) :
    countsVec (F := Ideal) r
      = Ideal.hostScatterAdd (Cert.LibIndex.vecScatterDims 2000000 1000000 scatter_S2000000_S1000000x1_S1000000_n_0_0_1_wf)
          (broadcastInDim S2000000 ![] bcast_S_S2000000 (constant (F := Ideal) S_ .f32 0x00000000#32))
          (broadcastInDim S1000000x1 ![0] bcast_S1000000_S1000000x1_0 r)
          (broadcastInDim S1000000 ![] bcast_S_S1000000 (constant (F := Ideal) S_ .f32 0x3F800000#32)) := rfl

/-- The vector of zeros reads zero. -/
theorem zeros_apply (j : S2000000.Idx) :
    broadcastInDim S2000000 ![] bcast_S_S2000000 (constant (F := Ideal) S_ .f32 0x00000000#32) j = (0 : EReal) :=
  (broadcastInDim_scalar_apply bcast_S_S2000000 (constant (F := Ideal) S_ .f32 0x00000000#32) j).trans
    Ideal.ofBits_zero_f32

/-- The vector of ones reads one. -/
theorem ones_apply (t : S1000000.Idx) :
    broadcastInDim S1000000 ![] bcast_S_S1000000 (constant (F := Ideal) S_ .f32 0x3F800000#32) t = (1 : EReal) :=
  (broadcastInDim_scalar_apply bcast_S_S1000000 (constant (F := Ideal) S_ .f32 0x3F800000#32) t).trans
    Ideal.ofBits_one_f32

/-- The count vector at row j, at the exact instance: zero plus one for each lookup whose reduced id, read signed,
    is j. -/
theorem countsVec_apply (r : (⟨S1000000, .i32⟩ : BufTy).Contents (Elt Ideal)) (j : Fin 2000000) :
    countsVec (F := Ideal) r (ix1 j)
      = 0 + ∑ _t ∈ Finset.univ.filter (fun t : Fin 1000000 => (r (ix1 t)).toInt = (j.val : Int)), (1 : EReal) := by
  have hf : Finset.univ.filter (fun t : Fin 1000000 =>
        ((broadcastInDim S1000000x1 ![0] bcast_S1000000_S1000000x1_0 r) (ix2 t (0 : Fin 1))).toInt = (j.val : Int))
      = Finset.univ.filter (fun t : Fin 1000000 => (r (ix1 t)).toInt = (j.val : Int)) :=
    Finset.filter_congr (fun t _ => by rw [idxColumn_apply (F := Ideal) r t])
  rw [countsVec_eq, Cert.LibIndex.vecScatterAdd_apply, zeros_apply, hf]
  exact congrArg (fun s => (0 : EReal) + s) (Finset.sum_congr rfl (fun t _ => ones_apply (ix1 t)))

/-- For a reduced id that is a row of the table, being row j read signed is naming row j. -/
theorem toInt_eq_iff_rowOf {w : BitVec 32} (h0 : 0 ≤ w.toInt) (h1 : w.toInt < 2000000) (j : Fin 2000000) :
    w.toInt = (j.val : Int) ↔ Cert.Spec.rowOf w = j := by
  have hn : (w.toNat : Int) = w.toInt := Cert.IntFacts.toNat_of_toInt_nonneg h0
  have hlt : w.toNat < 2000000 := Cert.IntFacts.toNat_lt_of_toInt h0 h1
  have hv : (Cert.Spec.rowOf w).val = w.toNat := Cert.Spec.rowOf_val_of_lt w hlt
  constructor
  · intro h
    refine Fin.ext ?_
    rw [hv]
    omega
  · intro h
    have hj : (Cert.Spec.rowOf w).val = j.val := congrArg Fin.val h
    rw [hv] at hj
    omega

/-- The counts at row j, as zero plus a sum of ones over the lookups landing on j. -/
theorem countsOut_apply_sum (r : (⟨S1000000, .i32⟩ : BufTy).Contents (Elt Ideal)) (hr : Cert.Spec.InRange r)
    (j : Fin 2000000) :
    countsOut (F := Ideal) r (ix2 j (0 : Fin 1))
      = 0 + ∑ _i ∈ Finset.univ.filter (fun i : Fin 1000000 => Cert.Spec.rowOf (r (ix1 i)) = j), (1 : EReal) := by
  have hf : Finset.univ.filter (fun t : Fin 1000000 => (r (ix1 t)).toInt = (j.val : Int))
      = Finset.univ.filter (fun i : Fin 1000000 => Cert.Spec.rowOf (r (ix1 i)) = j) :=
    Finset.filter_congr (fun t _ => toInt_eq_iff_rowOf (hr (ix1 t)).1 (hr (ix1 t)).2 j)
  refine (asColumn_apply (F := Ideal) (countsVec (F := Ideal) r) j).trans ?_
  rw [countsVec_apply, hf]

/-- The counts at row j: the number of lookups landing on j. -/
theorem countsOut_apply (r : (⟨S1000000, .i32⟩ : BufTy).Contents (Elt Ideal)) (hr : Cert.Spec.InRange r)
    (j : Fin 2000000) :
    countsOut (F := Ideal) r (ix2 j (0 : Fin 1))
      = (((Finset.univ.filter fun i : Fin 1000000 => Cert.Spec.rowOf (r (ix1 i)) = j).card : ℕ) : EReal) := by
  rw [countsOut_apply_sum r hr j, zero_add, Cert.Sums.sum_ones]

end Exact

end Cert.KernelIdeal.Host

end
-- ==== Proof.KPayload.lean ====
/-
  What the kernel body computes at each grid point, at the ideal values, and the 200 points folded into one sum.
  The scratch is reset to zero at point 0; each point adds, over the 10000 rows and 64 columns of its table block, the
  entry times the row's count; the table block and the counts block at point `t` are rows `10000 t … 10000 t + 9999` of
  the table and of the counts. So after point 199 the scratch holds Σ_j Σ_d table[j, d] · counts[j] over all 2000000
  rows, and when every entry is a real number and counts[j] is the number of lookups naming row `j` that is the sum
  of the gathered rows. Both launches have the same body, over their own table and counts.
-/
import proofs.«410300_j15324443312170_3_alg».proof.Proof.Gen.KernelIdeal.Skeleton
import proofs.«410300_j15324443312170_3_alg».proof.Proof.Gen.KernelIdeal.Points
import proofs.«410300_j15324443312170_3_alg».proof.Proof.Gen.KernelIdeal.Launch
import proofs.«410300_j15324443312170_3_alg».proof.Proof.Spec
import proofs.«410300_j15324443312170_3_alg».proof.Proof.Sums
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.SL.Sem
open Idealize.ShloMosaic.ValueIdx

namespace Cert.KernelIdeal.Payload

open Cert.KernelIdeal Cert.KernelIdeal.Gen

/-! ## Two layout operations at an index: a column kept as a trailing unit axis -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads at an index -/

/-- The value the scratch is reset to at the first grid point is zero. -/
theorem pay1_apply (j : S1x1.Idx) : k0_pay1 (F := Ideal) j = 0 := by
  unfold k0_pay1
  rw [shapeCast_self]
  exact Ideal.ofBits_zero_f32

/-- The source index over the one index of `[1]` with row `k` inserted is `(k, 0)`. -/
theorem lift_row (k : Fin 10000) :
    reduces_S10000x1_S1.lift (ix1 (0 : Fin 1)) k = ix2 k (0 : Fin 1) := by
  funext c; match c with | ⟨0, _⟩ => rfl | ⟨1, _⟩ => rfl

/-- The source index over row `k` of `[10000]` with column `d` inserted is `(k, d)`. -/
theorem lift_col (k : Fin 10000) (d : Fin 64) :
    reduces_S10000x64_S10000.lift (ix1 k) d = ix2 k d := by
  funext c; match c with | ⟨0, _⟩ => rfl | ⟨1, _⟩ => rfl

/-- What a grid point adds to the scratch: the sum, over the block's rows and columns, of the table entry times the
    row's count. -/
theorem pay2_apply (x0 : Vec Ideal S10000x64 .f32) (x1 : Vec Ideal S10000x1 .f32) (xs : Vec Ideal S1x1 .f32) :
    k0_pay2 (F := Ideal) x0 x1 xs (ix2 (0 : Fin 1) (0 : Fin 1))
      = xs (ix2 (0 : Fin 1) (0 : Fin 1)) + ∑ r : Fin 10000, ∑ d : Fin 64, x0 (ix2 r d) * x1 (ix2 r (0 : Fin 1)) := by
  unfold k0_pay2
  dsimp only
  rw [shapeCast_self, addf_apply]
  congr 1
  refine (shapeCast_a_1a_apply _ _ _ _).trans ?_
  refine (Ideal.multiReduction_add_single _ _ _ _ _ _).trans ?_
  refine Finset.sum_congr rfl fun r _ => ?_
  rw [lift_row r]
  refine (shapeCast_a_a1_apply _ _ _ _).trans ?_
  refine (Ideal.multiReduction_add_single _ _ _ _ _ _).trans ?_
  refine Finset.sum_congr rfl fun d _ => ?_
  rw [lift_col r d, mulf_apply]
  refine congrArg (x0 (ix2 r d) * ·) ?_
  refine (broadcastTo_a1_ab_apply _ _ _ _).trans ?_
  rw [shapeCast_self]

/-- Both payloads of the second launch are the first launch's. -/
theorem pay_k1 {F : FTy → Type} [FloatOps F] :
    k1_pay1 (F := F) = k0_pay1 ∧ k1_pay2 (F := F) = k0_pay2 := ⟨rfl, rfl⟩

/-! ## The blocks the two windows read at a grid point -/

/-- Row `r` of block `t` of a grid of 200 blocks is a row of the array: `10000 t + r < 2000000`. -/
theorem row_lt {N : ℕ} (hN : N = 200) (t : Fin N) (r : Fin 10000) : t.val * 10000 + r.val < 2000000 := by
  have := t.isLt; have := r.isLt; omega

/-- The table's block at grid point `t` of the first launch. -/
abbrev xblk (A0 : Vec Ideal S2000000x64 .f32) (t : Fin cfg0.N) : Vec Ideal S10000x64 .f32 :=
  ((cfg0.win 0).blk t).view.read (Elt Ideal) A0

/-- The counts' block at grid point `t` of the first launch. -/
abbrev cblk (A1 : Vec Ideal S2000000x1 .f32) (t : Fin cfg0.N) : Vec Ideal S10000x1 .f32 :=
  ((cfg0.win 1).blk t).view.read (Elt Ideal) A1

/-- In the first launch both windows' block index at point `t` is `(t, 0)`. -/
theorem index_facts : ∀ t : Fin cfg0.N,
    (win0_0.index t 0 = t.val ∧ win0_0.index t 1 = 0) ∧ (win0_1.index t 0 = t.val ∧ win0_1.index t 1 = 0) :=
  (by decide +kernel : ∀ t : Fin grid0.N,
    (win0_0.index t 0 = t.val ∧ win0_0.index t 1 = 0) ∧ (win0_1.index t 0 = t.val ∧ win0_1.index t 1 = 0))

/-- The table's block at point `t` reads, at `(r, d)`, the table at `(10000 t + r, d)`. -/
theorem xblk_apply (A0 : Vec Ideal S2000000x64 .f32) (t : Fin cfg0.N) (r : Fin 10000) (d : Fin 64) :
    xblk A0 t (ix2 r d) = A0 (ix2 ⟨t.val * 10000 + r.val, row_lt N_0 t r⟩ d) := by
  show ((cfg0.win 0).blk t).view.read (Elt Ideal) A0 (ix2 r d) = _
  rw [View.read_apply]
  show A0 _ = A0 _
  congr 1
  funext a
  apply Fin.ext
  match a with
  | ⟨0, _⟩ => show win0_0.index t 0 * 10000 + 1 * r.val = t.val * 10000 + r.val; rw [(index_facts t).1.1]; omega
  | ⟨1, _⟩ => show win0_0.index t 1 * 64 + 1 * d.val = d.val; rw [(index_facts t).1.2]; omega

/-- The counts' block at point `t` reads, at `(r, 0)`, the counts at `(10000 t + r, 0)`. -/
theorem cblk_apply (A1 : Vec Ideal S2000000x1 .f32) (t : Fin cfg0.N) (r : Fin 10000) :
    cblk A1 t (ix2 r (0 : Fin 1)) = A1 (ix2 ⟨t.val * 10000 + r.val, row_lt N_0 t r⟩ (0 : Fin 1)) := by
  show ((cfg0.win 1).blk t).view.read (Elt Ideal) A1 (ix2 r (0 : Fin 1)) = _
  rw [View.read_apply]
  show A1 _ = A1 _
  congr 1
  funext a
  apply Fin.ext
  match a with
  | ⟨0, _⟩ => show win0_1.index t 0 * 10000 + 1 * r.val = t.val * 10000 + r.val; rw [(index_facts t).2.1]; omega
  | ⟨1, _⟩ => show win0_1.index t 1 * 1 + 1 * 0 = 0; rw [(index_facts t).2.2]

/-- The table's block at grid point `t` of the second launch. -/
abbrev xblk1 (A0 : Vec Ideal S2000000x64 .f32) (t : Fin cfg1.N) : Vec Ideal S10000x64 .f32 :=
  ((cfg1.win 0).blk t).view.read (Elt Ideal) A0

/-- The counts' block at grid point `t` of the second launch. -/
abbrev cblk1 (A1 : Vec Ideal S2000000x1 .f32) (t : Fin cfg1.N) : Vec Ideal S10000x1 .f32 :=
  ((cfg1.win 1).blk t).view.read (Elt Ideal) A1

/-- In the second launch too both windows' block index at point `t` is `(t, 0)`. -/
theorem index_facts1 : ∀ t : Fin cfg1.N,
    (win1_0.index t 0 = t.val ∧ win1_0.index t 1 = 0) ∧ (win1_1.index t 0 = t.val ∧ win1_1.index t 1 = 0) :=
  (by decide +kernel : ∀ t : Fin grid1.N,
    (win1_0.index t 0 = t.val ∧ win1_0.index t 1 = 0) ∧ (win1_1.index t 0 = t.val ∧ win1_1.index t 1 = 0))

/-- The second launch's table block at point `t` reads, at `(r, d)`, its table at `(10000 t + r, d)`. -/
theorem xblk1_apply (A0 : Vec Ideal S2000000x64 .f32) (t : Fin cfg1.N) (r : Fin 10000) (d : Fin 64) :
    xblk1 A0 t (ix2 r d) = A0 (ix2 ⟨t.val * 10000 + r.val, row_lt N_1 t r⟩ d) := by
  show ((cfg1.win 0).blk t).view.read (Elt Ideal) A0 (ix2 r d) = _
  rw [View.read_apply]
  show A0 _ = A0 _
  congr 1
  funext a
  apply Fin.ext
  match a with
  | ⟨0, _⟩ => show win1_0.index t 0 * 10000 + 1 * r.val = t.val * 10000 + r.val; rw [(index_facts1 t).1.1]; omega
  | ⟨1, _⟩ => show win1_0.index t 1 * 64 + 1 * d.val = d.val; rw [(index_facts1 t).1.2]; omega

/-- The second launch's counts block at point `t` reads, at `(r, 0)`, its counts at `(10000 t + r, 0)`. -/
theorem cblk1_apply (A1 : Vec Ideal S2000000x1 .f32) (t : Fin cfg1.N) (r : Fin 10000) :
    cblk1 A1 t (ix2 r (0 : Fin 1)) = A1 (ix2 ⟨t.val * 10000 + r.val, row_lt N_1 t r⟩ (0 : Fin 1)) := by
  show ((cfg1.win 1).blk t).view.read (Elt Ideal) A1 (ix2 r (0 : Fin 1)) = _
  rw [View.read_apply]
  show A1 _ = A1 _
  congr 1
  funext a
  apply Fin.ext
  match a with
  | ⟨0, _⟩ => show win1_1.index t 0 * 10000 + 1 * r.val = t.val * 10000 + r.val; rw [(index_facts1 t).2.1]; omega
  | ⟨1, _⟩ => show win1_1.index t 1 * 1 + 1 * 0 = 0; rw [(index_facts1 t).2.2]

/-! ## The fold over the grid -/

/-- What the rows of block `t` contribute: the table's entries times their row's count, summed. -/
def blockSum (A0 : Vec Ideal S2000000x64 .f32) (A1 : Vec Ideal S2000000x1 .f32) (t : Fin 200) : EReal :=
  ∑ r : Fin 10000, ∑ d : Fin 64,
    A0 (ix2 ⟨t.val * 10000 + r.val, row_lt rfl t r⟩ d) * A1 (ix2 ⟨t.val * 10000 + r.val, row_lt rfl t r⟩ (0 : Fin 1))

/-- A grid point whose two blocks are rows `10000 t …` of the table and of the counts adds block `t`'s contribution to
    what the scratch held. -/
theorem pay2_blocks (A0 : Vec Ideal S2000000x64 .f32) (A1 : Vec Ideal S2000000x1 .f32) (t : Fin 200)
    (x0 : Vec Ideal S10000x64 .f32) (x1 : Vec Ideal S10000x1 .f32)
    (hx : ∀ r d, x0 (ix2 r d) = A0 (ix2 ⟨t.val * 10000 + r.val, row_lt rfl t r⟩ d))
    (hc : ∀ r, x1 (ix2 r (0 : Fin 1)) = A1 (ix2 ⟨t.val * 10000 + r.val, row_lt rfl t r⟩ (0 : Fin 1)))
    (xs : Vec Ideal S1x1 .f32) :
    k0_pay2 (F := Ideal) x0 x1 xs (ix2 (0 : Fin 1) (0 : Fin 1))
      = xs (ix2 (0 : Fin 1) (0 : Fin 1)) + blockSum A0 A1 t := by
  rw [pay2_apply]
  refine congrArg (xs (ix2 (0 : Fin 1) (0 : Fin 1)) + ·) ?_
  refine Finset.sum_congr rfl fun r _ => Finset.sum_congr rfl fun d _ => ?_
  rw [hx, hc]

/-- A scratch reset to zero at point 0 and given each point's payload holds, after point `n`, the contributions of
    blocks `0 … n`. -/
theorem fold_partial (A0 : Vec Ideal S2000000x64 .f32) (A1 : Vec Ideal S2000000x1 .f32)
    (xb : Fin 200 → Vec Ideal S10000x64 .f32) (cb : Fin 200 → Vec Ideal S10000x1 .f32)
    (hx : ∀ (t : Fin 200) r d, xb t (ix2 r d) = A0 (ix2 ⟨t.val * 10000 + r.val, row_lt rfl t r⟩ d))
    (hc : ∀ (t : Fin 200) r, cb t (ix2 r (0 : Fin 1)) = A1 (ix2 ⟨t.val * 10000 + r.val, row_lt rfl t r⟩ (0 : Fin 1)))
    (acc : (n : ℕ) → n < 200 → Vec Ideal S1x1 .f32)
    (h0 : ∀ h, acc 0 h = k0_pay2 (F := Ideal) (xb ⟨0, h⟩) (cb ⟨0, h⟩) (k0_pay1 (F := Ideal)))
    (hs : ∀ n (h : n + 1 < 200), acc (n + 1) h
      = k0_pay2 (F := Ideal) (xb ⟨n + 1, h⟩) (cb ⟨n + 1, h⟩) (acc n (Nat.lt_of_succ_lt h))) :
    ∀ (n : ℕ) (h : n < 200), acc n h (ix2 (0 : Fin 1) (0 : Fin 1))
      = ∑ t : Fin (n + 1), blockSum A0 A1 ⟨t.val, Nat.lt_of_lt_of_le t.isLt h⟩
  | 0, h => by
    rw [h0 h, pay2_blocks A0 A1 ⟨0, h⟩ _ _ (hx _) (hc _), pay1_apply, zero_add, Fin.sum_univ_one]
    rfl
  | n + 1, h => by
    rw [hs n h, pay2_blocks A0 A1 ⟨n + 1, h⟩ _ _ (hx _) (hc _),
      fold_partial A0 A1 xb cb hx hc acc h0 hs n (Nat.lt_of_succ_lt h)]
    exact (Fin.sum_univ_castSucc fun t : Fin (n + 1 + 1) =>
      blockSum A0 A1 ⟨t.val, Nat.lt_of_lt_of_le t.isLt h⟩).symm

/-- So after the last of the 200 points it holds the count-weighted sum over the whole table. -/
theorem fold_core (A0 : Vec Ideal S2000000x64 .f32) (A1 : Vec Ideal S2000000x1 .f32) {N : ℕ} (hN : N = 200)
    (xb : Fin N → Vec Ideal S10000x64 .f32) (cb : Fin N → Vec Ideal S10000x1 .f32)
    (hx : ∀ (t : Fin N) r d, xb t (ix2 r d) = A0 (ix2 ⟨t.val * 10000 + r.val, row_lt hN t r⟩ d))
    (hc : ∀ (t : Fin N) r, cb t (ix2 r (0 : Fin 1)) = A1 (ix2 ⟨t.val * 10000 + r.val, row_lt hN t r⟩ (0 : Fin 1)))
    (acc : (n : ℕ) → n < N → Vec Ideal S1x1 .f32)
    (h0 : ∀ h, acc 0 h = k0_pay2 (F := Ideal) (xb ⟨0, h⟩) (cb ⟨0, h⟩) (k0_pay1 (F := Ideal)))
    (hs : ∀ n (h : n + 1 < N), acc (n + 1) h
      = k0_pay2 (F := Ideal) (xb ⟨n + 1, h⟩) (cb ⟨n + 1, h⟩) (acc n (Nat.lt_of_succ_lt h)))
    (h : 199 < N) : acc 199 h (ix2 (0 : Fin 1) (0 : Fin 1))
      = ∑ j : Fin 2000000, ∑ d : Fin 64, A0 (ix2 j d) * A1 (ix2 j (0 : Fin 1)) := by
  subst hN
  rw [fold_partial A0 A1 xb cb hx hc acc h0 hs 199 h,
    ← Cert.Sums.sum_sum_flat_fin (a := 200) (b := 10000) (n := 2000000) (by norm_num)
      fun j : Fin 2000000 => ∑ d : Fin 64, A0 (ix2 j d) * A1 (ix2 j (0 : Fin 1))]
  rfl

/-- The first launch: after its last point the scratch holds the count-weighted sum over its table. -/
theorem fold_eq (A0 : Vec Ideal S2000000x64 .f32) (A1 : Vec Ideal S2000000x1 .f32)
    (acc : (n : ℕ) → n < cfg0.N → Vec Ideal S1x1 .f32)
    (h0 : ∀ h, acc 0 h = k0_pay2 (F := Ideal) (xblk A0 ⟨0, h⟩) (cblk A1 ⟨0, h⟩) (k0_pay1 (F := Ideal)))
    (hs : ∀ n (h : n + 1 < cfg0.N), acc (n + 1) h
      = k0_pay2 (F := Ideal) (xblk A0 ⟨n + 1, h⟩) (cblk A1 ⟨n + 1, h⟩) (acc n (Nat.lt_of_succ_lt h))) :
    ∀ h : 199 < cfg0.N, acc 199 h (ix2 (0 : Fin 1) (0 : Fin 1))
      = ∑ j : Fin 2000000, ∑ d : Fin 64, A0 (ix2 j d) * A1 (ix2 j (0 : Fin 1)) :=
  fold_core A0 A1 N_0 (xblk A0) (cblk A1) (xblk_apply A0) (cblk_apply A1) acc h0 hs

/-- The second launch likewise, over its own table and counts. -/
theorem fold_eq1 (A0 : Vec Ideal S2000000x64 .f32) (A1 : Vec Ideal S2000000x1 .f32)
    (acc : (n : ℕ) → n < cfg1.N → Vec Ideal S1x1 .f32)
    (h0 : ∀ h, acc 0 h = k1_pay2 (F := Ideal) (xblk1 A0 ⟨0, h⟩) (cblk1 A1 ⟨0, h⟩) (k1_pay1 (F := Ideal)))
    (hs : ∀ n (h : n + 1 < cfg1.N), acc (n + 1) h
      = k1_pay2 (F := Ideal) (xblk1 A0 ⟨n + 1, h⟩) (cblk1 A1 ⟨n + 1, h⟩) (acc n (Nat.lt_of_succ_lt h))) :
    ∀ h : 199 < cfg1.N, acc 199 h (ix2 (0 : Fin 1) (0 : Fin 1))
      = ∑ j : Fin 2000000, ∑ d : Fin 64, A0 (ix2 j d) * A1 (ix2 j (0 : Fin 1)) :=
  fold_core A0 A1 N_1 (xblk1 A0) (cblk1 A1) (xblk1_apply A0) (cblk1_apply A1) acc h0 hs

/-! ## The count-weighted sum is the sum of the gathered rows -/

/-- With every table entry a real number and the count of row `j` the number of lookups that name it, the
    count-weighted sum over the table is the sum over the lookups of the rows they name. -/
theorem weighted_eq_gather (A0 : Vec Ideal S2000000x64 .f32) (hA : Cert.Spec.Finite A0)
    (r : (⟨1, ![1000000]⟩ : Shape).Idx → BitVec 32) (A1 : Vec Ideal S2000000x1 .f32)
    (hA1 : ∀ j : Fin 2000000, A1 (ix2 j (0 : Fin 1))
      = (((Finset.univ.filter fun i : Fin 1000000 => Cert.Spec.rowOf (r (ix1 i)) = j).card : ℕ) : EReal)) :
    ∑ j : Fin 2000000, ∑ d : Fin 64, A0 (ix2 j d) * A1 (ix2 j (0 : Fin 1)) = Cert.Spec.gatherSum A0 r :=
  Cert.Sums.fiber_sum (fun (j : Fin 2000000) (d : Fin 64) => A0 (ix2 j d)) (fun j d => hA (ix2 j d))
    (fun i : Fin 1000000 => Cert.Spec.rowOf (r (ix1 i))) (fun j => A1 (ix2 j (0 : Fin 1))) hA1

end Cert.KernelIdeal.Payload

end
-- ==== Proof.KI.R0Value.lean ====
/-
  The launch's proof data read as values. Each control case's stores, read back, are the body's payloads: the first
  point leaves in the accumulator cell the point's payload over the zero it was reset to, every later point the payload
  over what the cell held, and the last point also copies the cell to the output block. The output window's block is the
  whole 1×1 array, written back once, after the last point, so the output array ends holding that copy, while the
  table and the counts column end as they were found. At the ideal values the cell after the last point is
  Σ_j Σ_d table[j, d] · counts[j] over all 2000000 rows, by the fold over the 200 points.
-/
import proofs.«410300_j15324443312170_3_alg».proof.Proof.KI.R0Dat
import proofs.«410300_j15324443312170_3_alg».proof.Proof.KPayload
import Idealize.ShloMosaic.Lib.Pipeline.Value
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

/-! ## What each control case leaves in the cell and in the output block, as the body's payloads -/

theorem hzR0 : (![0, 0] : Fin 2 → Nat) = fun _ => 0 := funext fun a => by fin_cases a <;> rfl

/-- The first point leaves in the cell the point's payload over the zero the cell was reset to. -/
theorem soutR0_A_eq (c : Dev nD) (i : grid0.Coords) (arg1 : Memref sig .tc .vmem S10000x64 .f32) (harg1 : arg1.IsWhole) (arg2 : Memref sig .tc .vmem S10000x1 .f32) (harg2 : arg2.IsWhole) (arg3 : Memref sig .tc .vmem S1x1 .f32) (harg3 : arg3.IsWhole) (arg4 : Memref sig .tc .vmem S1x1 .f32) (harg4 : arg4.IsWhole) (hc0 : condR0_first i) (hc1 : ¬condR0_last i) (x0 : Vec F S10000x64 .f32) (x1 : Vec F S10000x1 .f32) :
    soutR0_A c i arg1 harg1 arg2 harg2 arg3 harg3 arg4 harg4 hc0 hc1 x0 x1 = k0_pay2 x0 x1 (k0_pay1 (F := F)) := by
  unfold soutR0_A
  rw [View.read_writes_eq_canon _ _ _ (scoverR0_A c i arg1 harg1 arg2 harg2 arg3 harg3 arg4 harg4 hc0 hc1 x0 x1)]
  unfold kernelRunR0_A
  dsimp only
  try sl_unfold_words
  rw [View.canon_cons_unit_zero (S := S1x1) hzR0, View.readCov_unit_zero (S := S1x1) _ hzR0]
  simp only [View.readAt_eq_ld, harg1.read_unread, harg2.read_unread,
    View.ld_unit_zero (S := S10000x64) hzR0, View.ld_unit_zero (S := S10000x1) hzR0]

/-- A middle point leaves in the cell the point's payload over what the cell held. -/
theorem soutR0_B_eq (c : Dev nD) (i : grid0.Coords) (arg1 : Memref sig .tc .vmem S10000x64 .f32) (harg1 : arg1.IsWhole) (arg2 : Memref sig .tc .vmem S10000x1 .f32) (harg2 : arg2.IsWhole) (arg3 : Memref sig .tc .vmem S1x1 .f32) (harg3 : arg3.IsWhole) (arg4 : Memref sig .tc .vmem S1x1 .f32) (harg4 : arg4.IsWhole) (hc0 : ¬condR0_first i) (hc1 : ¬condR0_last i) (x0 : Vec F S10000x64 .f32) (x1 : Vec F S10000x1 .f32) (xs : Vec F S1x1 .f32) :
    soutR0_B c i arg1 harg1 arg2 harg2 arg3 harg3 arg4 harg4 hc0 hc1 x0 x1 xs = k0_pay2 x0 x1 xs := by
  unfold soutR0_B
  rw [View.read_writes_eq_canon _ _ _ (scoverR0_B c i arg1 harg1 arg2 harg2 arg3 harg3 arg4 harg4 hc0 hc1 x0 x1 xs)]
  unfold kernelRunR0_B
  dsimp only
  try sl_unfold_words
  rw [View.canon_unit_zero hzR0]
  simp only [View.readAt_eq_ld, harg1.read_unread, harg2.read_unread, harg4.read_unread,
    View.ld_unit_zero (S := S10000x64) hzR0, View.ld_unit_zero (S := S10000x1) hzR0, View.ld_unit_zero (S := S1x1) hzR0]

/-- The last point leaves in the cell the point's payload over what the cell held … -/
theorem soutR0_C_eq (c : Dev nD) (i : grid0.Coords) (arg1 : Memref sig .tc .vmem S10000x64 .f32) (harg1 : arg1.IsWhole) (arg2 : Memref sig .tc .vmem S10000x1 .f32) (harg2 : arg2.IsWhole) (arg3 : Memref sig .tc .vmem S1x1 .f32) (harg3 : arg3.IsWhole) (arg4 : Memref sig .tc .vmem S1x1 .f32) (harg4 : arg4.IsWhole) (hc0 : ¬condR0_first i) (hc1 : condR0_last i) (x0 : Vec F S10000x64 .f32) (x1 : Vec F S10000x1 .f32) (xs : Vec F S1x1 .f32) :
    soutR0_C c i arg1 harg1 arg2 harg2 arg3 harg3 arg4 harg4 hc0 hc1 x0 x1 xs = k0_pay2 x0 x1 xs := by
  unfold soutR0_C
  rw [View.read_writes_eq_canon _ _ _ (scoverR0_C c i arg1 harg1 arg2 harg2 arg3 harg3 arg4 harg4 hc0 hc1 x0 x1 xs)]
  unfold kernelRunR0_C
  dsimp only
  try sl_unfold_words
  rw [View.canon_unit_zero hzR0]
  simp only [View.readAt_eq_ld, harg1.read_unread, harg2.read_unread, harg4.read_unread,
    View.ld_unit_zero (S := S10000x64) hzR0, View.ld_unit_zero (S := S10000x1) hzR0, View.ld_unit_zero (S := S1x1) hzR0]

/-- … and copies it to the output block. -/
theorem outR0_C_eq (c : Dev nD) (i : grid0.Coords) (arg1 : Memref sig .tc .vmem S10000x64 .f32) (harg1 : arg1.IsWhole) (arg2 : Memref sig .tc .vmem S10000x1 .f32) (harg2 : arg2.IsWhole) (arg3 : Memref sig .tc .vmem S1x1 .f32) (harg3 : arg3.IsWhole) (arg4 : Memref sig .tc .vmem S1x1 .f32) (harg4 : arg4.IsWhole) (hc0 : ¬condR0_first i) (hc1 : condR0_last i) (x0 : Vec F S10000x64 .f32) (x1 : Vec F S10000x1 .f32) (xs : Vec F S1x1 .f32) :
    outR0_C c i arg1 harg1 arg2 harg2 arg3 harg3 arg4 harg4 hc0 hc1 x0 x1 xs = k0_pay2 x0 x1 xs := by
  unfold outR0_C
  rw [View.read_writes_eq_canon _ _ _ (coverR0_C c i arg1 harg1 arg2 harg2 arg3 harg3 arg4 harg4 hc0 hc1 x0 x1 xs)]
  unfold kernelRunR0_C
  dsimp only
  try sl_unfold_words
  rw [View.canon_unit_zero hzR0, View.readCov_unit_zero (S := S1x1) _ hzR0]
  simp only [View.readAt_eq_ld, harg1.read_unread, harg2.read_unread, harg4.read_unread,
    View.ld_unit_zero (S := S10000x64) hzR0, View.ld_unit_zero (S := S10000x1) hzR0, View.ld_unit_zero (S := S1x1) hzR0]

/-! ## The arrays after the launch -/

variable (V : (c : Dev nD) → (b : Ref sig .tc) → Buf (Elt F) ((c : Thread nD τ).loc b))

theorem lastR0_lt : 199 < cfg0.N := by have hN : cfg0.N = 200 := N_0; omega

/-- The output window's block is the whole 1×1 array at every point: block index zero, uncut. -/
theorem index_outR0 : ∀ (t : Fin cfg0.N) (a : Fin 2), win0_2.index t a * S1x1.size a = 0 :=
  (by decide +kernel : ∀ (t : Fin grid0.N) (a : Fin 2), win0_2.index t a * S1x1.size a = 0)
theorem xsize_outR0 : ∀ (t : Fin cfg0.N) (a : Fin 2), win0_2.xsize (grid0.coords t) a = 1 :=
  (by decide +kernel : ∀ (t : Fin grid0.N) (a : Fin 2), win0_2.xsize (grid0.coords t) a = 1)

/-- So contents of the array read through that block are themselves. -/
theorem read_outR0 (c : Dev nD) (t : Fin cfg0.N) (G : Buf (Elt F) ((c : Thread nD τ).loc main_v11)) :
    (cfg0.win 2).cut (grid0.coords t) G = ((cfg0.win 2).blk t).view.read (Elt F) G := by
  have hz' : (fun a => win0_2.index t a * main_v11.ty.shape.size a) = fun _ => 0 := funext fun a => index_outR0 t a
  exact (Memref.read_access_unit_zero (Elt F) main_v11 hz' (fun a => by rw [congrFun hz' a]; simp) G).symm

/-- The accumulation at a point depends on the point's position only. -/
theorem outsAtR0_val (c : Dev nD) (t : Fin cfg0.N) (n : ℕ) (hn : n < cfg0.N) (e : t.val = n) :
    outsAtR0 V c t.val t.isLt = outsAtR0 V c n hn := by subst e; rfl

/-- What the output array ends holding: the output block after the last point. -/
abbrev resultR0 (c : Dev nD) : Buf (Elt F) ((c : Thread nD τ).loc main_v11) := (outsAtR0 V c 199 lastR0_lt).1

theorem afterR0_last (c : Dev nD) : (datR0 V c).after 2 ⟨199, lastR0_lt⟩ = resultR0 V c :=
  (afterR0_2 V c ⟨199, lastR0_lt⟩).trans (congrArg Prod.fst (outsAtR0_val V c ⟨199, lastR0_lt⟩ 199 lastR0_lt rfl))

/-- The one write-back, at the last point, writes it. -/
theorem flushedR0_eq (c : Dev nD) (t : Fin cfg0.N) (hf : (cfg0.win 2).flush t = true) :
    (datR0 V c).flushed 2 t = ((cfg0.win 2).blk t).view.read (Elt F) (resultR0 V c) := by
  have hN : cfg0.N = 200 := N_0
  have h199 : t.val = 199 := by have := (flush0_2 t).mp hf; have := t.isLt; omega
  obtain rfl : t = ⟨199, lastR0_lt⟩ := Fin.ext h199
  show (cfg0.win 2).cut (grid0.coords ⟨199, lastR0_lt⟩) ((datR0 V c).after 2 ⟨199, lastR0_lt⟩) = _
  rw [afterR0_last V c]
  exact read_outR0 c ⟨199, lastR0_lt⟩ (resultR0 V c)

/-- So the output array ends holding the output block after the last point. -/
theorem arrAtR0_out (c : Dev nD) : (datR0 V c).arrAt 2 cfg0.N = resultR0 V c :=
  (datR0 V c).arrAt_eq_of_cover 2 (resultR0 V c) (flushedR0_eq V c) fun i =>
    ⟨⟨199, lastR0_lt⟩, (flush0_2 ⟨199, lastR0_lt⟩).mpr rfl, by
      show i ∈ ((View.whole main_v11).slice (win0_2.rect ⟨199, lastR0_lt⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index ⟨199, lastR0_lt⟩ 0 * win0_2.size 0 ≤ (i 0 : Nat)
          ∧ (i 0 : Nat) < win0_2.index ⟨199, lastR0_lt⟩ 0 * win0_2.size 0 + win0_2.xsize (grid0.coords ⟨199, lastR0_lt⟩) 0
        rw [show win0_2.index ⟨199, lastR0_lt⟩ 0 * win0_2.size 0 = 0 from index_outR0 ⟨199, lastR0_lt⟩ 0,
          show win0_2.xsize (grid0.coords ⟨199, lastR0_lt⟩) 0 = 1 from xsize_outR0 ⟨199, lastR0_lt⟩ 0]
        omega
      | ⟨1, _⟩ =>
        show win0_2.index ⟨199, lastR0_lt⟩ 1 * win0_2.size 1 ≤ (i 1 : Nat)
          ∧ (i 1 : Nat) < win0_2.index ⟨199, lastR0_lt⟩ 1 * win0_2.size 1 + win0_2.xsize (grid0.coords ⟨199, lastR0_lt⟩) 1
        rw [show win0_2.index ⟨199, lastR0_lt⟩ 1 * win0_2.size 1 = 0 from index_outR0 ⟨199, lastR0_lt⟩ 1,
          show win0_2.xsize (grid0.coords ⟨199, lastR0_lt⟩) 1 = 1 from xsize_outR0 ⟨199, lastR0_lt⟩ 1]
        omega⟩

/-- The table and the counts are read, never written: they end as the launch found them. -/
theorem arrAtR0_in0 (c : Dev nD) : (datR0 V c).arrAt 0 cfg0.N = V c main_arg0 :=
  ((datR0 V c).arrAt_in 0 rfl _).trans (A_eqR0 V c 0)
theorem arrAtR0_in1 (c : Dev nD) : (datR0 V c).arrAt 1 cfg0.N = V c main_v10 :=
  ((datR0 V c).arrAt_in 1 rfl _).trans (A_eqR0 V c 1)

/-- The output block after the last point is the cell after the last point: the copy. -/
theorem resultR0_eq_cell (c : Dev nD) : resultR0 V c = (outsAtR0 V c 199 lastR0_lt).2 := by
  have e := outsAtR0_C V c ⟨199, lastR0_lt⟩ (by decide) rfl
  rw [outsAtR0_val V c ⟨199, lastR0_lt⟩ 199 lastR0_lt rfl] at e
  show (outsAtR0 V c 199 lastR0_lt).1 = _
  rw [e]
  dsimp only
  exact (outR0_C_eq (F := F) c (grid0.coords ⟨199, lastR0_lt⟩) (msR0_0 ⟨199, lastR0_lt⟩) (hsR0_0 ⟨199, lastR0_lt⟩) (msR0_1 ⟨199, lastR0_lt⟩) (hsR0_1 ⟨199, lastR0_lt⟩) (msR0_2 ⟨199, lastR0_lt⟩) (hsR0_2 ⟨199, lastR0_lt⟩) scM_R0 (Memref.isWhole_whole _) _ _ (iblkR0 V c 0 ⟨199, lastR0_lt⟩) (iblkR0 V c 1 ⟨199, lastR0_lt⟩) _).trans
    (soutR0_C_eq (F := F) c (grid0.coords ⟨199, lastR0_lt⟩) (msR0_0 ⟨199, lastR0_lt⟩) (hsR0_0 ⟨199, lastR0_lt⟩) (msR0_1 ⟨199, lastR0_lt⟩) (hsR0_1 ⟨199, lastR0_lt⟩) (msR0_2 ⟨199, lastR0_lt⟩) (hsR0_2 ⟨199, lastR0_lt⟩) scM_R0 (Memref.isWhole_whole _) _ _ (iblkR0 V c 0 ⟨199, lastR0_lt⟩) (iblkR0 V c 1 ⟨199, lastR0_lt⟩) _).symm

/-! ## The total, at the ideal values -/

section AtIdeal

variable (W : (c : Dev nD) → (b : Ref sig .tc) → Buf (Elt Ideal) ((c : Thread nD τ).loc b))

/-- The table and the counts column the launch finds. -/
abbrev tableR0 (c : Dev nD) : Vec Ideal S2000000x64 .f32 := W c main_arg0
abbrev countsR0 (c : Dev nD) : Vec Ideal S2000000x1 .f32 := W c main_v10

/-- The cell after the first point: the point's payload on its two blocks, over zero. -/
theorem cellR0_zero (c : Dev nD) (h : 0 < cfg0.N) :
    (outsAtR0 W c 0 h).2
      = k0_pay2 (F := Ideal) (Payload.xblk (tableR0 W c) ⟨0, h⟩) (Payload.cblk (countsR0 W c) ⟨0, h⟩) (k0_pay1 (F := Ideal)) := by
  rw [← outsAtR0_val W c ⟨0, h⟩ 0 h rfl, outsAtR0_A W c ⟨0, h⟩ rfl (show ¬ (0 : ℕ) = 199 by decide)]
  dsimp only
  exact soutR0_A_eq (F := Ideal) c (grid0.coords ⟨0, h⟩) (msR0_0 ⟨0, h⟩) (hsR0_0 ⟨0, h⟩) (msR0_1 ⟨0, h⟩) (hsR0_1 ⟨0, h⟩) (msR0_2 ⟨0, h⟩) (hsR0_2 ⟨0, h⟩) scM_R0 (Memref.isWhole_whole _) _ _ (iblkR0 W c 0 ⟨0, h⟩) (iblkR0 W c 1 ⟨0, h⟩)

/-- The cell after a later point: the point's payload on its two blocks, over the cell after the point before. -/
theorem cellR0_succ (c : Dev nD) (n : ℕ) (h : n + 1 < cfg0.N) :
    (outsAtR0 W c (n + 1) h).2
      = k0_pay2 (F := Ideal) (Payload.xblk (tableR0 W c) ⟨n + 1, h⟩) (Payload.cblk (countsR0 W c) ⟨n + 1, h⟩)
          (outsAtR0 W c n (Nat.lt_of_succ_lt h)).2 := by
  have hp : outsAtR0 W c ((⟨n + 1, h⟩ : Fin cfg0.N).val - 1) (Nat.lt_of_le_of_lt (Nat.sub_le _ _) (⟨n + 1, h⟩ : Fin cfg0.N).isLt)
      = outsAtR0 W c n (Nat.lt_of_succ_lt h) := rfl
  rw [← outsAtR0_val W c ⟨n + 1, h⟩ (n + 1) h rfl]
  by_cases hl : n + 1 = 199
  · rw [outsAtR0_C W c ⟨n + 1, h⟩ (Nat.succ_ne_zero n) hl, hp]
    dsimp only
    exact soutR0_C_eq (F := Ideal) c (grid0.coords ⟨n + 1, h⟩) (msR0_0 ⟨n + 1, h⟩) (hsR0_0 ⟨n + 1, h⟩) (msR0_1 ⟨n + 1, h⟩) (hsR0_1 ⟨n + 1, h⟩) (msR0_2 ⟨n + 1, h⟩) (hsR0_2 ⟨n + 1, h⟩) scM_R0 (Memref.isWhole_whole _) _ _ (iblkR0 W c 0 ⟨n + 1, h⟩) (iblkR0 W c 1 ⟨n + 1, h⟩) (outsAtR0 W c n (Nat.lt_of_succ_lt h)).2
  · rw [outsAtR0_B W c ⟨n + 1, h⟩ (Nat.succ_ne_zero n) hl, hp]
    dsimp only
    exact soutR0_B_eq (F := Ideal) c (grid0.coords ⟨n + 1, h⟩) (msR0_0 ⟨n + 1, h⟩) (hsR0_0 ⟨n + 1, h⟩) (msR0_1 ⟨n + 1, h⟩) (hsR0_1 ⟨n + 1, h⟩) (msR0_2 ⟨n + 1, h⟩) (hsR0_2 ⟨n + 1, h⟩) scM_R0 (Memref.isWhole_whole _) _ _ (iblkR0 W c 0 ⟨n + 1, h⟩) (iblkR0 W c 1 ⟨n + 1, h⟩) (outsAtR0 W c n (Nat.lt_of_succ_lt h)).2

/-- The launch's output: the count-weighted sum over the whole table. -/
theorem totalR0 (c : Dev nD) :
    (datR0 (F := Ideal) W c).arrAt 2 cfg0.N (ix2 (0 : Fin 1) (0 : Fin 1))
      = ∑ j : Fin 2000000, ∑ d : Fin 64, tableR0 W c (ix2 j d) * countsR0 W c (ix2 j (0 : Fin 1)) := by
  rw [arrAtR0_out W c, resultR0_eq_cell W c]
  exact Payload.fold_eq (tableR0 W c) (countsR0 W c) (fun n h => (outsAtR0 W c n h).2) (cellR0_zero W c) (cellR0_succ W c) lastR0_lt

end AtIdeal

end Cert.KernelIdeal.Run

end
-- ==== Proof.KI.Values.lean ====
/-
  What the kernel program's results hold at the end, read off the last boundary. The two remapped-id vectors are written
  by the first stretches and never again. The scalar result is the closing quotient of the sum of the two launches' 1×1
  outputs; each launch's output is its accumulator after the last grid point, the count-weighted sum of its table over all
  2000000 rows, which for a table of real entries is the sum of the rows the remapped ids name.
-/
import proofs.«410300_j15324443312170_3_alg».proof.Proof.KI.Args
import proofs.«410300_j15324443312170_3_alg».proof.Proof.KHost
import proofs.«410300_j15324443312170_3_alg».proof.Proof.KPayload
import proofs.«410300_j15324443312170_3_alg».proof.Proof.KI.R0Value
import proofs.«410300_j15324443312170_3_alg».proof.Proof.KI.R1Value

set_option maxRecDepth 16384

noncomputable section

namespace Cert.KernelIdeal.Run

open Cert.KernelIdeal Cert.KernelIdeal.Gen Cert.KernelIdeal.Host
open Idealize.ShloMosaic Idealize.ShloMosaic.TcCoe
open Idealize.SL Idealize.SL.Sem
open Idealize.ShloMosaic.Pipeline (Dat)

section Generic

variable {F : FTy → Type} [FloatOps F]
variable (m : (ℓ : Loc nD τ sig) → Buf (Elt F) ℓ) (ρ : Dev nD → PrngReg)

theorem B9_main_v0 (c : Dev nD) : B9 m ρ c (Proc.devRef .tc main_v0) = B5 m ρ c (Proc.devRef .tc main_v0) :=
  calc B9 m ρ c (Proc.devRef .tc main_v0)
    _ = B8 m ρ c (Proc.devRef .tc main_v0) := after_tail_of _ main_v0 (by decide)
    _ = B7 m ρ c (Proc.devRef .tc main_v0) := B8_of_ne m ρ c main_v0 (by decide)
    _ = B6 m ρ c (Proc.devRef .tc main_v0) := after_mid_of _ main_v0 (by decide)
    _ = B5 m ρ c (Proc.devRef .tc main_v0) := B6_of_ne m ρ c main_v0 (by decide)

theorem B9_main_v1 (c : Dev nD) : B9 m ρ c (Proc.devRef .tc main_v1) = B5 m ρ c (Proc.devRef .tc main_v1) :=
  calc B9 m ρ c (Proc.devRef .tc main_v1)
    _ = B8 m ρ c (Proc.devRef .tc main_v1) := after_tail_of _ main_v1 (by decide)
    _ = B7 m ρ c (Proc.devRef .tc main_v1) := B8_of_ne m ρ c main_v1 (by decide)
    _ = B6 m ρ c (Proc.devRef .tc main_v1) := after_mid_of _ main_v1 (by decide)
    _ = B5 m ρ c (Proc.devRef .tc main_v1) := B6_of_ne m ρ c main_v1 (by decide)

/-- The remapped ids of the first id vector, at the end. -/
theorem B9_v0_eq (c : Dev nD) : B9 m ρ c (Proc.devRef .tc main_v0) = remOutK (m ((c : Thread nD τ).loc main_arg2)) :=
  (B9_main_v0 m ρ c).trans (entry5_v0 (B0 m ρ c))
/-- The remapped ids of the second id vector, at the end. -/
theorem B9_v1_eq (c : Dev nD) : B9 m ρ c (Proc.devRef .tc main_v1) = remOutK (m ((c : Thread nD τ).loc main_arg3)) :=
  (B9_main_v1 m ρ c).trans (entry5_v1 (B0 m ρ c))

/-- The scalar result is the closing arithmetic of the two launches' outputs. -/
theorem B9_v17_eq (c : Dev nD) :
    B9 m ρ c (Proc.devRef .tc main_v17) = lossK ((datR0 (BV5 m ρ) c).arrAt 2 cfg0.N) ((datR1 (BV7 m ρ) c).arrAt 2 cfg1.N) := by
  have h11 : B8 m ρ c (Proc.devRef .tc main_v11) = (datR0 (BV5 m ρ) c).arrAt 2 cfg0.N :=
    calc B8 m ρ c (Proc.devRef .tc main_v11)
      _ = B7 m ρ c (Proc.devRef .tc main_v11) := B8_of_ne m ρ c main_v11 (by decide)
      _ = B6 m ρ c (Proc.devRef .tc main_v11) := after_mid_of _ main_v11 (by decide)
      _ = (datR0 (BV5 m ρ) c).arrAt 2 cfg0.N := B6_arr m ρ c 2
  have h13 : B8 m ρ c (Proc.devRef .tc main_v13) = (datR1 (BV7 m ρ) c).arrAt 2 cfg1.N := B8_arr m ρ c 2
  exact (after_tail_v17 (B8 m ρ c)).trans (by rw [h11, h13])

/-- What the launches are entered from: the first table and the first histogram column; -/
theorem BV5_arg0 (c : Dev nD) : BV5 m ρ c main_arg0 = m ((c : Thread nD τ).loc main_arg0) := entry5_arg0 (B0 m ρ c)
theorem BV5_v10 (c : Dev nD) : BV5 m ρ c main_v10 = countsOut (remOutK (m ((c : Thread nD τ).loc main_arg2))) := entry5_v10 (B0 m ρ c)
/-- the second table and the second histogram column. -/
theorem BV7_arg1 (c : Dev nD) : BV7 m ρ c main_arg1 = m ((c : Thread nD τ).loc main_arg1) :=
  calc B7 m ρ c (Proc.devRef .tc main_arg1)
    _ = B6 m ρ c (Proc.devRef .tc main_arg1) := after_mid_of _ main_arg1 (by decide)
    _ = B5 m ρ c (Proc.devRef .tc main_arg1) := B6_of_ne m ρ c main_arg1 (by decide)
    _ = m ((c : Thread nD τ).loc main_arg1) := entry5_arg1 (B0 m ρ c)
theorem BV7_v12 (c : Dev nD) : BV7 m ρ c main_v12 = countsOut (remOutK (m ((c : Thread nD τ).loc main_arg3))) :=
  calc B7 m ρ c (Proc.devRef .tc main_v12)
    _ = asColumn (B6 m ρ c (Proc.devRef .tc main_v9)) := after_mid_v12 (B6 m ρ c)
    _ = asColumn (B5 m ρ c (Proc.devRef .tc main_v9)) := by rw [B6_of_ne m ρ c main_v9 (by decide)]
    _ = countsOut (remOutK (m ((c : Thread nD τ).loc main_arg3))) := by rw [show B5 m ρ c (Proc.devRef .tc main_v9) = _ from entry5_v9 (B0 m ρ c)]; rfl

end Generic

section AtIdeal

open Cert.Spec Idealize.ShloMosaic.ValueIdx Cert.KernelIdeal.Payload

variable (m : (ℓ : Loc nD τ sig) → Buf (Elt Ideal) ℓ) (ρ : Dev nD → PrngReg)

/-- The first launch's output: the count-weighted sum of the first table is the sum of its gathered rows. -/
theorem total0_eq (c : Dev nD) (h : Cert.Spec.Finite (m ((c : Thread nD τ).loc main_arg0))) :
    (datR0 (F := Ideal) (BV5 m ρ) c).arrAt 2 cfg0.N (ix2 (0 : Fin 1) (0 : Fin 1))
      = gatherSum (m ((c : Thread nD τ).loc main_arg0)) (remOutK (m ((c : Thread nD τ).loc main_arg2))) := by
  refine (totalR0 (BV5 m ρ) c).trans ?_
  have ht : tableR0 (BV5 m ρ) c = m ((c : Thread nD τ).loc main_arg0) := BV5_arg0 m ρ c
  have hc : countsR0 (BV5 m ρ) c = countsOut (remOutK (m ((c : Thread nD τ).loc main_arg2))) := BV5_v10 m ρ c
  rw [ht, hc]
  exact weighted_eq_gather _ h _ _ (fun j => countsOut_apply _ (remOutK_inRange _) j)

/-- The second launch's output, likewise. -/
theorem total1_eq (c : Dev nD) (h : Cert.Spec.Finite (m ((c : Thread nD τ).loc main_arg1))) :
    (datR1 (F := Ideal) (BV7 m ρ) c).arrAt 2 cfg1.N (ix2 (0 : Fin 1) (0 : Fin 1))
      = gatherSum (m ((c : Thread nD τ).loc main_arg1)) (remOutK (m ((c : Thread nD τ).loc main_arg3))) := by
  refine (totalR1 (BV7 m ρ) c).trans ?_
  have ht : tableR1 (BV7 m ρ) c = m ((c : Thread nD τ).loc main_arg1) := BV7_arg1 m ρ c
  have hc : countsR1 (BV7 m ρ) c = countsOut (remOutK (m ((c : Thread nD τ).loc main_arg3))) := BV7_v12 m ρ c
  rw [ht, hc]
  exact weighted_eq_gather _ h _ _ (fun j => countsOut_apply _ (remOutK_inRange _) j)

/-- The scalar result at the end: the two tables' gathered-row sums, added and divided by the element count. -/
theorem B9_v17_ideal (c : Dev nD) (h0 : Cert.Spec.Finite (m ((c : Thread nD τ).loc main_arg0)))
    (h1 : Cert.Spec.Finite (m ((c : Thread nD τ).loc main_arg1))) :
    B9 m ρ c (Proc.devRef .tc main_v17)
      = Host.divf (F := Ideal) (fun _ => gatherSum (m ((c : Thread nD τ).loc main_arg0)) (remOutK (m ((c : Thread nD τ).loc main_arg2)))
          + gatherSum (m ((c : Thread nD τ).loc main_arg1)) (remOutK (m ((c : Thread nD τ).loc main_arg3))))
        (constant (F := Ideal) S_ .f32 0x4CF42400#32) := by
  rw [B9_v17_eq m ρ c, lossK_eq, total0_eq m ρ c h0, total1_eq m ρ c h1]

end AtIdeal

end Cert.KernelIdeal.Run

end
-- ==== Proof.RefTerms.lean ====
/-
  The reference program's host operations composed into pure terms: the remainder of an index vector by
  2000000 (sign-corrected, as the outlined @remainder computes it), the row gather of a table at an index
  vector (negative indices wrapped, out-of-range rows filled with the NaN constant, as the outlined @_take
  computes it), and the mean of the two gathered blocks stacked (sum of all entries divided by 128000000).
  Each definition applies the same operations to the same shape records as the printed program does,
  in the same order, so that the run of the printed program reads back these terms by unfolding alone.
-/
import proofs.«410300_j15324443312170_3_alg».proof.ReferenceIdeal

noncomputable section

namespace Cert.ReferenceIdeal.Hand

open Cert.ReferenceIdeal Idealize.ShloMosaic
open Facts₀ Facts

variable {F : FTy → Type} [FloatOps F] [Facts]

/-! ## The remainder by 2000000 -/

/-- The modulus as a scalar word: 2000000, passed through the identity conversion. -/
def remMod : (⟨S_, .i32⟩ : BufTy).Contents (Elt F) :=
  id (constantI S_ 32 2000000#32 : (⟨S_, .i32⟩ : BufTy).Contents (Elt F))

/-- The divisor actually used: 1 where the modulus is 0, the modulus otherwise. -/
def remDiv : (⟨S_, .i32⟩ : BufTy).Contents (Elt F) :=
  select (cmpi .eq (remMod (F := F)) (constantI S_ 32 0#32 : (⟨S_, .i32⟩ : BufTy).Contents (Elt F)))
    (constantI S_ 32 1#32 : (⟨S_, .i32⟩ : BufTy).Contents (Elt F)) (remMod (F := F))

/-- The truncated (sign of the dividend) remainder of each index by the divisor. -/
def remTrunc (ids : (⟨S1000000, .i32⟩ : BufTy).Contents (Elt F)) : (⟨S1000000, .i32⟩ : BufTy).Contents (Elt F) :=
  Host.remsi ids (broadcastInDim S1000000 ![] bcast_S_S1000000 (remDiv (F := F)))

/-- Where the truncated remainder is nonzero. -/
def remNonzero (ids : (⟨S1000000, .i32⟩ : BufTy).Contents (Elt F)) : (⟨S1000000, .i1⟩ : BufTy).Contents (Elt F) :=
  cmpi .ne (remTrunc ids)
    (broadcastInDim S1000000 ![] bcast_S_S1000000 (constantI S_ 32 0#32 : (⟨S_, .i32⟩ : BufTy).Contents (Elt F)))

/-- Where the truncated remainder is negative. -/
def remNeg (ids : (⟨S1000000, .i32⟩ : BufTy).Contents (Elt F)) : (⟨S1000000, .i1⟩ : BufTy).Contents (Elt F) :=
  cmpi .slt (remTrunc ids)
    (broadcastInDim S1000000 ![] bcast_S_S1000000 (constantI S_ 32 0#32 : (⟨S_, .i32⟩ : BufTy).Contents (Elt F)))

/-- Whether the divisor is negative, at every position. -/
def remDivNeg : (⟨S1000000, .i1⟩ : BufTy).Contents (Elt F) :=
  broadcastInDim S1000000 ![] bcast_S_S1000000
    (cmpi .slt (remDiv (F := F)) (constantI S_ 32 0#32 : (⟨S_, .i32⟩ : BufTy).Contents (Elt F)))

/-- Where the sign correction applies: the remainder's sign differs from the divisor's and the remainder is nonzero. -/
def remFix (ids : (⟨S1000000, .i32⟩ : BufTy).Contents (Elt F)) : (⟨S1000000, .i1⟩ : BufTy).Contents (Elt F) :=
  andi (cmpi .ne (remNeg ids) (remDivNeg (F := F))) (remNonzero ids)

/-- `ids` modulo 2000000 with the sign of the divisor: the truncated remainder, plus the divisor where the
    correction applies. -/
def remOut (ids : (⟨S1000000, .i32⟩ : BufTy).Contents (Elt F)) : (⟨S1000000, .i32⟩ : BufTy).Contents (Elt F) :=
  select (remFix ids)
    (addi (remTrunc ids) (broadcastInDim S1000000 ![] bcast_S_S1000000 (remDiv (F := F))))
    (remTrunc ids)

/-! ## The row gather -/

/-- The index vector with negative entries wrapped by adding 2000000. -/
def takeWrap (r : (⟨S1000000, .i32⟩ : BufTy).Contents (Elt F)) : (⟨S1000000, .i32⟩ : BufTy).Contents (Elt F) :=
  select
    (cmpi .slt r (broadcastInDim S1000000 ![] bcast_S_S1000000 (constantI S_ 32 0#32 : (⟨S_, .i32⟩ : BufTy).Contents (Elt F))))
    (addi r (broadcastInDim S1000000 ![] bcast_S_S1000000 (constantI S_ 32 2000000#32 : (⟨S_, .i32⟩ : BufTy).Contents (Elt F))))
    r

/-- The wrapped indices as a column of one-entry index vectors. -/
def takeIdx (r : (⟨S1000000, .i32⟩ : BufTy).Contents (Elt F)) : (⟨S1000000x1, .i32⟩ : BufTy).Contents (Elt F) :=
  broadcastInDim S1000000x1 ![0] bcast_S1000000_S1000000x1_0 (takeWrap r)

/-- Per index entry: 0 ≤ index ≤ 1999999. -/
def takeInRange (r : (⟨S1000000, .i32⟩ : BufTy).Contents (Elt F)) : (⟨S1000000x1, .i1⟩ : BufTy).Contents (Elt F) :=
  andi
    (cmpi .sge (takeIdx r)
      (broadcastInDim S1000000x1 ![] bcast_S_S1000000x1 (constantI S_ 32 0#32 : (⟨S_, .i32⟩ : BufTy).Contents (Elt F))))
    (cmpi .sle (takeIdx r)
      (broadcastInDim S1000000x1 ![0, 1] bcast_S1x1_S1000000x1_0_1
        (broadcastInDim S1x1 ![1] bcast_S1_S1x1_1 (constantI S1 32 1999999#32 : (⟨S1, .i32⟩ : BufTy).Contents (Elt F)))))

/-- Per row: every entry of its index vector is in range. -/
def takeOk (r : (⟨S1000000, .i32⟩ : BufTy).Contents (Elt F)) : (⟨S1000000, .i1⟩ : BufTy).Contents (Elt F) :=
  Host.reduce IntOp.andi (takeInRange r) (constantI S_ 1 1#1 : (⟨S_, .i1⟩ : BufTy).Contents (Elt F))
    reducesTo_S1000000x1_S1000000_d1 h_S_

/-- The gathered rows, before the range mask. -/
def takeRows (tbl : (⟨S2000000x64, .f32⟩ : BufTy).Contents (Elt F)) (r : (⟨S1000000, .i32⟩ : BufTy).Contents (Elt F)) :
    (⟨S1000000x64, .f32⟩ : BufTy).Contents (Elt F) :=
  Host.gather gather_S2000000x64_S1000000x1_S1000000x64_1_0_n_n_0_1_164 tbl (takeIdx r)

/-- Row `i` of the result is row `r i` (wrapped) of the table where that index is in range, the NaN constant otherwise. -/
def takeOut (tbl : (⟨S2000000x64, .f32⟩ : BufTy).Contents (Elt F)) (r : (⟨S1000000, .i32⟩ : BufTy).Contents (Elt F)) :
    (⟨S1000000x64, .f32⟩ : BufTy).Contents (Elt F) :=
  select (broadcastInDim S1000000x64 ![0] bcast_S1000000_S1000000x64_0 (takeOk r))
    (takeRows tbl r)
    (broadcastInDim S1000000x64 ![] bcast_S_S1000000x64 (constant S_ .f32 0x7FC00000#32 : (⟨S_, .f32⟩ : BufTy).Contents (Elt F)))

/-! ## The mean -/

/-- The two gathered blocks stacked along the rows. -/
def lossCat (t0 t1 : (⟨S2000000x64, .f32⟩ : BufTy).Contents (Elt F)) (r0 r1 : (⟨S1000000, .i32⟩ : BufTy).Contents (Elt F)) :
    (⟨S2000000x64, .f32⟩ : BufTy).Contents (Elt F) :=
  concatenate S2000000x64 0 [⟨S1000000x64, takeOut t0 r0⟩, ⟨S1000000x64, takeOut t1 r1⟩]
    concatenates_S1000000x64_S1000000x64_S2000000x64_d0

/-- The sum of every entry of the stacked blocks, from zero. -/
def lossSum (t0 t1 : (⟨S2000000x64, .f32⟩ : BufTy).Contents (Elt F)) (r0 r1 : (⟨S1000000, .i32⟩ : BufTy).Contents (Elt F)) :
    (⟨S_, .f32⟩ : BufTy).Contents (Elt F) :=
  Host.reduceAdd (lossCat t0 t1 r0 r1) (constant S_ .f32 0x00000000#32 : (⟨S_, .f32⟩ : BufTy).Contents (Elt F))
    reducesTo_S2000000x64_S_d0_1 h_S_

/-- The mean of the stacked blocks: the sum divided by 128000000. -/
def lossOut (t0 t1 : (⟨S2000000x64, .f32⟩ : BufTy).Contents (Elt F)) (r0 r1 : (⟨S1000000, .i32⟩ : BufTy).Contents (Elt F)) :
    (⟨S_, .f32⟩ : BufTy).Contents (Elt F) :=
  Host.divf (lossSum t0 t1 r0 r1) (constant S_ .f32 0x4CF42400#32 : (⟨S_, .f32⟩ : BufTy).Contents (Elt F))

end Cert.ReferenceIdeal.Hand

end
-- ==== Proof.RefRun.lean ====
/-
  The run of the reference program's @main, read back. @main is a straight line of 95 host operations: the
  constant 2000000 and the outlined remainder (21 operations) for each index vector, the outlined row gather
  (23 operations) for each table, then the stacking, the sum of all entries and the division by 128000000.
  The line is cut into five consecutive stretches; for each stretch, from ANY contents of the buffers, the
  stretch's result buffer ends at the composed term of RefTerms.lean over the buffers it reads, and a buffer the
  stretch does not write keeps its contents. Chaining the five gives the run: every weakly fair execution of
  @main terminates with the loss buffer at `lossOut`, the two remainder buffers at `remOut`, the arguments unchanged.
-/
import proofs.«410300_j15324443312170_3_alg».proof.Proof.RefTerms
import Idealize.ShloMosaic.Lib.StableHlo.Run
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F] [Facts]

/-! ## The operations, function by function -/

/-- The outlined remainder's 21 operations over its arguments' buffers and one call's buffers, in order
    (the scalar select of the inner outlined function in fifth place). -/
abbrev remainderOps (arg0 : TRef sig ⟨S1000000, .i32⟩) (arg1 : TRef sig ⟨S_, .i32⟩) (φ : fn_remainder.Bufs) :
    List (HloOp τ sig (Elt F)) :=
  [ TRef.unary arg1 φ.v0 id,
    TRef.nullary φ.c (constantI S_ 32 0#32),
    TRef.binary φ.v0 φ.c φ.v1 (cmpi .eq),
    TRef.nullary φ.c_0 (constantI S_ 32 1#32),
    TRef.ternary φ.v1 φ.c_0 φ.v0 φ.call0.v0 select,
    TRef.unary φ.call0.v0 φ.v3 (broadcastInDim S1000000 ![] bcast_S_S1000000),
    TRef.binary arg0 φ.v3 φ.v4 Host.remsi,
    TRef.nullary φ.c_1 (constantI S_ 32 0#32),
    TRef.unary φ.c_1 φ.v5 (broadcastInDim S1000000 ![] bcast_S_S1000000),
    TRef.binary φ.v4 φ.v5 φ.v6 (cmpi .ne),
    TRef.nullary φ.c_2 (constantI S_ 32 0#32),
    TRef.unary φ.c_2 φ.v7 (broadcastInDim S1000000 ![] bcast_S_S1000000),
    TRef.binary φ.v4 φ.v7 φ.v8 (cmpi .slt),
    TRef.nullary φ.c_3 (constantI S_ 32 0#32),
    TRef.binary φ.call0.v0 φ.c_3 φ.v9 (cmpi .slt),
    TRef.unary φ.v9 φ.v10 (broadcastInDim S1000000 ![] bcast_S_S1000000),
    TRef.binary φ.v8 φ.v10 φ.v11 (cmpi .ne),
    TRef.binary φ.v11 φ.v6 φ.v12 andi,
    TRef.unary φ.call0.v0 φ.v13 (broadcastInDim S1000000 ![] bcast_S_S1000000),
    TRef.binary φ.v4 φ.v13 φ.v14 addi,
    TRef.ternary φ.v12 φ.v14 φ.v4 φ.v15 select ]

/-- The outlined row gather's 23 operations over its arguments' buffers and one call's buffers, in order
    (the vector select of the inner outlined function in seventh place). -/
abbrev takeOps (arg0 : TRef sig ⟨S2000000x64, .f32⟩) (arg1 : TRef sig ⟨S1000000, .i32⟩) (φ : fn_take.Bufs) :
    List (HloOp τ sig (Elt F)) :=
  [ TRef.nullary φ.c (constantI S_ 32 0#32),
    TRef.unary φ.c φ.v0 (broadcastInDim S1000000 ![] bcast_S_S1000000),
    TRef.binary arg1 φ.v0 φ.v1 (cmpi .slt),
    TRef.nullary φ.c_0 (constantI S_ 32 2000000#32),
    TRef.unary φ.c_0 φ.v2 (broadcastInDim S1000000 ![] bcast_S_S1000000),
    TRef.binary arg1 φ.v2 φ.v3 addi,
    TRef.ternary φ.v1 φ.v3 arg1 φ.call0.v0 select,
    TRef.unary φ.call0.v0 φ.v5 (broadcastInDim S1000000x1 ![0] bcast_S1000000_S1000000x1_0),
    TRef.nullary φ.c_1 (constantI S1 32 1999999#32),
    TRef.nullary φ.c_2 (constantI S_ 32 0#32),
    TRef.unary φ.c_2 φ.v6 (broadcastInDim S1000000x1 ![] bcast_S_S1000000x1),
    TRef.binary φ.v5 φ.v6 φ.v7 (cmpi .sge),
    TRef.unary φ.c_1 φ.v8 (broadcastInDim S1x1 ![1] bcast_S1_S1x1_1),
    TRef.unary φ.v8 φ.v9 (broadcastInDim S1000000x1 ![0, 1] bcast_S1x1_S1000000x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S1000000x1_S1000000_d1 h_S_),
    TRef.binary arg0 φ.v5 φ.v13 (fun x i => Host.gather gather_S2000000x64_S1000000x1_S1000000x64_1_0_n_n_0_1_164 x i),
    TRef.unary φ.v12 φ.v14 (broadcastInDim S1000000x64 ![0] bcast_S1000000_S1000000x64_0),
    TRef.nullary φ.cst (constant S_ .f32 0x7FC00000#32),
    TRef.unary φ.cst φ.v15 (broadcastInDim S1000000x64 ![] bcast_S_S1000000x64),
    TRef.ternary φ.v14 φ.v13 φ.v15 φ.v16 select ]

/-! ## @main's five stretches -/

/-- The first index vector's modulus and remainder: 22 operations. -/
abbrev ops0 : List (HloOp τ sig (Elt F)) :=
  nullary main_c (constantI S_ 32 2000000#32) :: remainderOps (.of main_arg2) (.of main_c) main_call0

/-- The second index vector's modulus and remainder: 22 operations. -/
abbrev ops1 : List (HloOp τ sig (Elt F)) :=
  nullary main_c_0 (constantI S_ 32 2000000#32) :: remainderOps (.of main_arg3) (.of main_c_0) main_call1

/-- The first table's rows at the first remainder: 23 operations. -/
abbrev ops2 : List (HloOp τ sig (Elt F)) := takeOps (.of main_arg0) (.of main_v0) main_call2

/-- The second table's rows at the second remainder: 23 operations. -/
abbrev ops3 : List (HloOp τ sig (Elt F)) := takeOps (.of main_arg1) (.of main_v1) main_call3

/-- The stacking, the sum from zero and the division: 5 operations. -/
abbrev ops4 : List (HloOp τ sig (Elt F)) :=
  [ binary main_v2 main_v3 main_v4 ((fun a b => concatenate S2000000x64 0 [⟨S1000000x64, a⟩, ⟨S1000000x64, b⟩] concatenates_S1000000x64_S1000000x64_S2000000x64_d0) : (⟨S1000000x64, .f32⟩ : BufTy).Contents (Elt F) → (⟨S1000000x64, .f32⟩ : BufTy).Contents (Elt F) → (⟨S2000000x64, .f32⟩ : BufTy).Contents (Elt F)),
    nullary main_cst (constant S_ .f32 0x00000000#32),
    binary main_v4 main_cst main_v5 ((fun x v => Host.reduceAdd x v reducesTo_S2000000x64_S_d0_1 h_S_) : (⟨S2000000x64, .f32⟩ : BufTy).Contents (Elt F) → (⟨S_, .f32⟩ : BufTy).Contents (Elt F) → (⟨S_, .f32⟩ : BufTy).Contents (Elt F)),
    nullary main_cst_1 (constant S_ .f32 0x4CF42400#32),
    binary main_v5 main_cst_1 main_v6 (Host.divf : (⟨S_, .f32⟩ : BufTy).Contents (Elt F) → (⟨S_, .f32⟩ : BufTy).Contents (Elt F) → (⟨S_, .f32⟩ : BufTy).Contents (Elt F)) ]

/-- @main's 95 operations, in order. -/
abbrev ops : List (HloOp τ sig (Elt F)) := ops0 ++ (ops1 ++ (ops2 ++ (ops3 ++ ops4)))

/-- The outlined remainder's body is the straight line of its operations (its inner call unfolded in place). -/
theorem remainder_eq (arg0 : TRef sig ⟨S1000000, .i32⟩) (arg1 : TRef sig ⟨S_, .i32⟩) (φ : fn_remainder.Bufs) :
    fn_remainder.body (F := F) arg0 arg1 φ = seq (remainderOps arg0 arg1 φ) := rfl

/-- The outlined row gather's body is the straight line of its operations (its inner call unfolded in place). -/
theorem take_eq (arg0 : TRef sig ⟨S2000000x64, .f32⟩) (arg1 : TRef sig ⟨S1000000, .i32⟩) (φ : fn_take.Bufs) :
    fn_take.body (F := F) arg0 arg1 φ = seq (takeOps arg0 arg1 φ) := rfl

/-- @main is the five stretches in a row: each outlined call is its operations' line, and a line after a line
    is the line of the two lists joined. -/
theorem main_eq (c : Dev nD) : main (F := F) c = seq ops := by
  simp only [ops, seq_append]
  unfold main
  rw [remainder_eq, remainder_eq, take_eq, take_eq]
  rfl

theorem scopedRefs_eq : (Finset.univ.filter fun b : Ref sig .tc => b.isScoped) = ∅ := by decide
theorem scopedSems_eq : (Finset.univ.filter fun sm : SemLoc sig => sm.isScoped .tc) = ∅ := by decide

/-! ## Each stretch touches TensorCore buffers only, determines its results, and writes a known list of buffers -/

theorem ops0_sub : (ops0 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..⟩
theorem ops1_sub : (ops1 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..⟩
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩
theorem ops4_sub : (ops4 : List (HloOp τ sig (Elt F))).Forall fun op => op.bufs ⊆ tcRefs τ sig :=
  ⟨binary_bufs_sub .., nullary_bufs_sub .., binary_bufs_sub .., nullary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h]

theorem ops0_fresh : (ops0 : List (HloOp τ sig (Elt F))).Forall fun op => op.fresh = ∅ := by
  simp only [List.Forall]; and_intros <;> rfl
theorem ops1_fresh : (ops1 : List (HloOp τ sig (Elt F))).Forall fun op => op.fresh = ∅ := by
  simp only [List.Forall]; and_intros <;> rfl
theorem ops2_fresh : (ops2 : List (HloOp τ sig (Elt F))).Forall fun op => op.fresh = ∅ := by
  simp only [List.Forall]; and_intros <;> rfl
theorem ops3_fresh : (ops3 : List (HloOp τ sig (Elt F))).Forall fun op => op.fresh = ∅ := by
  simp only [List.Forall]; and_intros <;> rfl
theorem ops4_fresh : (ops4 : List (HloOp τ sig (Elt F))).Forall fun op => op.fresh = ∅ := by
  simp only [List.Forall]; and_intros <;> rfl

/-- No operation of @main leaves a result undetermined. -/
theorem ops_fresh : ∀ op ∈ (ops : List (HloOp τ sig (Elt F))), op.fresh = ∅ := fun op h => by
  simp only [ops, List.mem_append] at h
  rcases h with h | h | h | h | h
  exacts [List.forall_iff_forall_mem.mp ops0_fresh op h, List.forall_iff_forall_mem.mp ops1_fresh op h,
    List.forall_iff_forall_mem.mp ops2_fresh op h, List.forall_iff_forall_mem.mp ops3_fresh op h,
    List.forall_iff_forall_mem.mp ops4_fresh op h]

/-- The buffers the first stretch writes. -/
abbrev ops0_W : List (Ref sig .tc) :=
  [main_c, main_call0_v0, main_call0_c, main_call0_v1, main_call0_c_0, main_call0_v2, main_call0_v3, main_call0_v4,
    main_call0_c_1, main_call0_v5, main_call0_v6, main_call0_c_2, main_call0_v7, main_call0_v8, main_call0_c_3,
    main_call0_v9, main_call0_v10, main_call0_v11, main_call0_v12, main_call0_v13, main_call0_v14, main_v0]
/-- The buffers the second stretch writes. -/
abbrev ops1_W : List (Ref sig .tc) :=
  [main_c_0, main_call1_v0, main_call1_c, main_call1_v1, main_call1_c_0, main_call1_v2, main_call1_v3, main_call1_v4,
    main_call1_c_1, main_call1_v5, main_call1_v6, main_call1_c_2, main_call1_v7, main_call1_v8, main_call1_c_3,
    main_call1_v9, main_call1_v10, main_call1_v11, main_call1_v12, main_call1_v13, main_call1_v14, main_v1]
/-- The buffers the third stretch writes. -/
abbrev ops2_W : List (Ref sig .tc) :=
  [main_call2_c, main_call2_v0, main_call2_v1, main_call2_c_0, main_call2_v2, main_call2_v3, main_call2_v4, main_call2_v5,
    main_call2_c_1, main_call2_c_2, main_call2_v6, main_call2_v7, main_call2_v8, main_call2_v9, main_call2_v10,
    main_call2_v11, main_call2_c_3, main_call2_v12, main_call2_v13, main_call2_v14, main_call2_cst, main_call2_v15, main_v2]
/-- The buffers the fourth stretch writes. -/
abbrev ops3_W : List (Ref sig .tc) :=
  [main_call3_c, main_call3_v0, main_call3_v1, main_call3_c_0, main_call3_v2, main_call3_v3, main_call3_v4, main_call3_v5,
    main_call3_c_1, main_call3_c_2, main_call3_v6, main_call3_v7, main_call3_v8, main_call3_v9, main_call3_v10,
    main_call3_v11, main_call3_c_3, main_call3_v12, main_call3_v13, main_call3_v14, main_call3_cst, main_call3_v15, main_v3]
/-- The buffers the last stretch writes. -/
abbrev ops4_W : List (Ref sig .tc) := [main_v4, main_cst, main_v5, main_cst_1, main_v6]

theorem ops0_writes : (ops0 : List (HloOp τ sig (Elt F))).Forall fun op =>
    op.writes ⊆ (ops0_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))
theorem ops1_writes : (ops1 : List (HloOp τ sig (Elt F))).Forall fun op =>
    op.writes ⊆ (ops1_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))
theorem ops2_writes : (ops2 : List (HloOp τ sig (Elt F))).Forall fun op =>
    op.writes ⊆ (ops2_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))
theorem ops3_writes : (ops3 : List (HloOp τ sig (Elt F))).Forall fun op =>
    op.writes ⊆ (ops3_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))
theorem ops4_writes : (ops4 : List (HloOp τ sig (Elt F))).Forall fun op =>
    op.writes ⊆ (ops4_W.map (Proc.devRef (τ := τ) .tc)).toFinset := by
  simp only [List.Forall]
  and_intros <;> (simp only [nullary_writes, unary_writes, binary_writes, ternary_writes, Finset.singleton_subset_iff, List.mem_toFinset]; exact List.mem_map_of_mem (by decide))

/-- A buffer a stretch does not write keeps its contents through it. -/
theorem ops0_keep (V : Valuation τ sig (Elt F)) (r : Ref sig .tc) (h : r ∉ ops0_W) :
    after ops0 V (Proc.devRef .tc r) = V (Proc.devRef .tc r) := after_of_writes_sub ops0 V ops0_writes h
theorem ops1_keep (V : Valuation τ sig (Elt F)) (r : Ref sig .tc) (h : r ∉ ops1_W) :
    after ops1 V (Proc.devRef .tc r) = V (Proc.devRef .tc r) := after_of_writes_sub ops1 V ops1_writes h
theorem ops2_keep (V : Valuation τ sig (Elt F)) (r : Ref sig .tc) (h : r ∉ ops2_W) :
    after ops2 V (Proc.devRef .tc r) = V (Proc.devRef .tc r) := after_of_writes_sub ops2 V ops2_writes h
theorem ops3_keep (V : Valuation τ sig (Elt F)) (r : Ref sig .tc) (h : r ∉ ops3_W) :
    after ops3 V (Proc.devRef .tc r) = V (Proc.devRef .tc r) := after_of_writes_sub ops3 V ops3_writes h
theorem ops4_keep (V : Valuation τ sig (Elt F)) (r : Ref sig .tc) (h : r ∉ ops4_W) :
    after ops4 V (Proc.devRef .tc r) = V (Proc.devRef .tc r) := after_of_writes_sub ops4 V ops4_writes h

/-! ## What each stretch computes, from any contents of the buffers

The operations' results are read off one by one down the stretch; the transports between a buffer's own type
and the type its value was declared at are identities at these literal buffers, so the two sides are the same
operations on the same operands. -/

set_option maxRecDepth 8192 in
/-- The first stretch leaves the first remainder buffer at `remOut` of the first index vector. -/
theorem ops0_v0 (V : Valuation τ sig (Elt F)) :
    after ops0 V (Proc.devRef .tc main_v0) = remOut (V (Proc.devRef .tc main_arg2)) := by
  simp only [ops0, remainderOps]
  after_results_simp
  rfl

set_option maxRecDepth 8192 in
/-- The second stretch leaves the second remainder buffer at `remOut` of the second index vector. -/
theorem ops1_v1 (V : Valuation τ sig (Elt F)) :
    after ops1 V (Proc.devRef .tc main_v1) = remOut (V (Proc.devRef .tc main_arg3)) := by
  simp only [ops1, remainderOps]
  after_results_simp
  rfl

/-! ## The row gather in three steps

The gather's 23 operations are read in three consecutive steps — the wrapped index column (8 operations), the
in-range mask from that column (10), the masked gather from the table, the column and the mask (5) — so that
each step's result is a short term over the buffers the step reads. -/

/-- The first 8 operations of the outlined row gather: the wrapped indices as a column. -/
abbrev takeA (arg1 : TRef sig ⟨S1000000, .i32⟩) (φ : fn_take.Bufs) : List (HloOp τ sig (Elt F)) :=
  [ TRef.nullary φ.c (constantI S_ 32 0#32),
    TRef.unary φ.c φ.v0 (broadcastInDim S1000000 ![] bcast_S_S1000000),
    TRef.binary arg1 φ.v0 φ.v1 (cmpi .slt),
    TRef.nullary φ.c_0 (constantI S_ 32 2000000#32),
    TRef.unary φ.c_0 φ.v2 (broadcastInDim S1000000 ![] bcast_S_S1000000),
    TRef.binary arg1 φ.v2 φ.v3 addi,
    TRef.ternary φ.v1 φ.v3 arg1 φ.call0.v0 select,
    TRef.unary φ.call0.v0 φ.v5 (broadcastInDim S1000000x1 ![0] bcast_S1000000_S1000000x1_0) ]

/-- The next 10 operations: per row, whether its index lies in [0, 1999999]. -/
abbrev takeB (φ : fn_take.Bufs) : List (HloOp τ sig (Elt F)) :=
  [ TRef.nullary φ.c_1 (constantI S1 32 1999999#32),
    TRef.nullary φ.c_2 (constantI S_ 32 0#32),
    TRef.unary φ.c_2 φ.v6 (broadcastInDim S1000000x1 ![] bcast_S_S1000000x1),
    TRef.binary φ.v5 φ.v6 φ.v7 (cmpi .sge),
    TRef.unary φ.c_1 φ.v8 (broadcastInDim S1x1 ![1] bcast_S1_S1x1_1),
    TRef.unary φ.v8 φ.v9 (broadcastInDim S1000000x1 ![0, 1] bcast_S1x1_S1000000x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S1000000x1_S1000000_d1 h_S_) ]

/-- The last 5 operations: the gather at the column, masked against the NaN constant. -/
abbrev takeC (arg0 : TRef sig ⟨S2000000x64, .f32⟩) (φ : fn_take.Bufs) : List (HloOp τ sig (Elt F)) :=
  [ TRef.binary arg0 φ.v5 φ.v13 (fun x i => Host.gather gather_S2000000x64_S1000000x1_S1000000x64_1_0_n_n_0_1_164 x i),
    TRef.unary φ.v12 φ.v14 (broadcastInDim S1000000x64 ![0] bcast_S1000000_S1000000x64_0),
    TRef.nullary φ.cst (constant S_ .f32 0x7FC00000#32),
    TRef.unary φ.cst φ.v15 (broadcastInDim S1000000x64 ![] bcast_S_S1000000x64),
    TRef.ternary φ.v14 φ.v13 φ.v15 φ.v16 select ]

/-- The gather's operations are the three steps in a row. -/
theorem takeOps_split (arg0 : TRef sig ⟨S2000000x64, .f32⟩) (arg1 : TRef sig ⟨S1000000, .i32⟩) (φ : fn_take.Bufs) :
    takeOps (F := F) arg0 arg1 φ = takeA arg1 φ ++ (takeB φ ++ takeC arg0 φ) := rfl

/-- Per row of an index column: every entry lies in [0, 1999999]. -/
def okOf (idx : (⟨S1000000x1, .i32⟩ : BufTy).Contents (Elt F)) : (⟨S1000000, .i1⟩ : BufTy).Contents (Elt F) :=
  Host.reduce IntOp.andi
    (andi
      (cmpi .sge idx
        (broadcastInDim S1000000x1 ![] bcast_S_S1000000x1 (constantI S_ 32 0#32 : (⟨S_, .i32⟩ : BufTy).Contents (Elt F))))
      (cmpi .sle idx
        (broadcastInDim S1000000x1 ![0, 1] bcast_S1x1_S1000000x1_0_1
          (broadcastInDim S1x1 ![1] bcast_S1_S1x1_1 (constantI S1 32 1999999#32 : (⟨S1, .i32⟩ : BufTy).Contents (Elt F))))))
    (constantI S_ 1 1#1 : (⟨S_, .i1⟩ : BufTy).Contents (Elt F))
    reducesTo_S1000000x1_S1000000_d1 h_S_

/-- The table's rows at an index column where the mask holds, the NaN constant elsewhere. -/
def outOf (tbl : (⟨S2000000x64, .f32⟩ : BufTy).Contents (Elt F)) (idx : (⟨S1000000x1, .i32⟩ : BufTy).Contents (Elt F))
    (ok : (⟨S1000000, .i1⟩ : BufTy).Contents (Elt F)) : (⟨S1000000x64, .f32⟩ : BufTy).Contents (Elt F) :=
  select (broadcastInDim S1000000x64 ![0] bcast_S1000000_S1000000x64_0 ok)
    (Host.gather gather_S2000000x64_S1000000x1_S1000000x64_1_0_n_n_0_1_164 tbl idx)
    (broadcastInDim S1000000x64 ![] bcast_S_S1000000x64 (constant S_ .f32 0x7FC00000#32 : (⟨S_, .f32⟩ : BufTy).Contents (Elt F)))

/-- `takeOut` is the masked gather at the wrapped index column and its in-range mask. -/
theorem takeOut_eq (tbl : (⟨S2000000x64, .f32⟩ : BufTy).Contents (Elt F)) (r : (⟨S1000000, .i32⟩ : BufTy).Contents (Elt F)) :
    takeOut tbl r = outOf tbl (takeIdx r) (okOf (takeIdx r)) := rfl

/-- The third stretch's three steps. -/
abbrev ops2a : List (HloOp τ sig (Elt F)) := takeA (.of main_v0) main_call2
@[inherit_doc ops2a] abbrev ops2b : List (HloOp τ sig (Elt F)) := takeB main_call2
@[inherit_doc ops2a] abbrev ops2c : List (HloOp τ sig (Elt F)) := takeC (.of main_arg0) main_call2

set_option maxRecDepth 8192 in
theorem ops2a_v5 (V : Valuation τ sig (Elt F)) :
    after ops2a V (Proc.devRef .tc main_call2_v5) = takeIdx (V (Proc.devRef .tc main_v0)) := by
  simp only [ops2a, takeA]
  after_results_simp
  rfl
set_option maxRecDepth 8192 in
theorem ops2a_arg0 (V : Valuation τ sig (Elt F)) :
    after ops2a V (Proc.devRef .tc main_arg0) = V (Proc.devRef .tc main_arg0) := by
  simp only [ops2a, takeA]
  after_results_simp
set_option maxRecDepth 8192 in
theorem ops2b_v12 (V : Valuation τ sig (Elt F)) :
    after ops2b V (Proc.devRef .tc main_call2_v12) = okOf (V (Proc.devRef .tc main_call2_v5)) := by
  simp only [ops2b, takeB]
  after_results_simp
  simp only [TRef.toBuf, TRef.ofBuf, cast_eq]
  rfl
set_option maxRecDepth 8192 in
theorem ops2b_v5 (V : Valuation τ sig (Elt F)) :
    after ops2b V (Proc.devRef .tc main_call2_v5) = V (Proc.devRef .tc main_call2_v5) := by
  simp only [ops2b, takeB]
  after_results_simp
set_option maxRecDepth 8192 in
theorem ops2b_arg0 (V : Valuation τ sig (Elt F)) :
    after ops2b V (Proc.devRef .tc main_arg0) = V (Proc.devRef .tc main_arg0) := by
  simp only [ops2b, takeB]
  after_results_simp
set_option maxRecDepth 8192 in
theorem ops2c_v2 (V : Valuation τ sig (Elt F)) :
    after ops2c V (Proc.devRef .tc main_v2)
      = outOf (V (Proc.devRef .tc main_arg0)) (V (Proc.devRef .tc main_call2_v5)) (V (Proc.devRef .tc main_call2_v12)) := by
  simp only [ops2c, takeC]
  after_results_simp
  rfl

/-- The third stretch leaves its result buffer at the first table's rows taken at the first remainder buffer's contents. -/
theorem ops2_v2 (V : Valuation τ sig (Elt F)) :
    after ops2 V (Proc.devRef .tc main_v2) = takeOut (V (Proc.devRef .tc main_arg0)) (V (Proc.devRef .tc main_v0)) := by
  rw [show (ops2 : List (HloOp τ sig (Elt F))) = ops2a ++ (ops2b ++ ops2c) from takeOps_split _ _ _,
    after_append, after_append, ops2c_v2, ops2b_arg0, ops2b_v5, ops2b_v12, ops2a_arg0, ops2a_v5, takeOut_eq]

/-- The fourth stretch's three steps. -/
abbrev ops3a : List (HloOp τ sig (Elt F)) := takeA (.of main_v1) main_call3
@[inherit_doc ops3a] abbrev ops3b : List (HloOp τ sig (Elt F)) := takeB main_call3
@[inherit_doc ops3a] abbrev ops3c : List (HloOp τ sig (Elt F)) := takeC (.of main_arg1) main_call3

set_option maxRecDepth 8192 in
theorem ops3a_v5 (V : Valuation τ sig (Elt F)) :
    after ops3a V (Proc.devRef .tc main_call3_v5) = takeIdx (V (Proc.devRef .tc main_v1)) := by
  simp only [ops3a, takeA]
  after_results_simp
  rfl
set_option maxRecDepth 8192 in
theorem ops3a_arg1 (V : Valuation τ sig (Elt F)) :
    after ops3a V (Proc.devRef .tc main_arg1) = V (Proc.devRef .tc main_arg1) := by
  simp only [ops3a, takeA]
  after_results_simp
set_option maxRecDepth 8192 in
theorem ops3b_v12 (V : Valuation τ sig (Elt F)) :
    after ops3b V (Proc.devRef .tc main_call3_v12) = okOf (V (Proc.devRef .tc main_call3_v5)) := by
  simp only [ops3b, takeB]
  after_results_simp
  simp only [TRef.toBuf, TRef.ofBuf, cast_eq]
  rfl
set_option maxRecDepth 8192 in
theorem ops3b_v5 (V : Valuation τ sig (Elt F)) :
    after ops3b V (Proc.devRef .tc main_call3_v5) = V (Proc.devRef .tc main_call3_v5) := by
  simp only [ops3b, takeB]
  after_results_simp
set_option maxRecDepth 8192 in
theorem ops3b_arg1 (V : Valuation τ sig (Elt F)) :
    after ops3b V (Proc.devRef .tc main_arg1) = V (Proc.devRef .tc main_arg1) := by
  simp only [ops3b, takeB]
  after_results_simp
set_option maxRecDepth 8192 in
theorem ops3c_v3 (V : Valuation τ sig (Elt F)) :
    after ops3c V (Proc.devRef .tc main_v3)
      = outOf (V (Proc.devRef .tc main_arg1)) (V (Proc.devRef .tc main_call3_v5)) (V (Proc.devRef .tc main_call3_v12)) := by
  simp only [ops3c, takeC]
  after_results_simp
  rfl

/-- The fourth stretch leaves its result buffer at the second table's rows taken at the second remainder buffer's contents. -/
theorem ops3_v3 (V : Valuation τ sig (Elt F)) :
    after ops3 V (Proc.devRef .tc main_v3) = takeOut (V (Proc.devRef .tc main_arg1)) (V (Proc.devRef .tc main_v1)) := by
  rw [show (ops3 : List (HloOp τ sig (Elt F))) = ops3a ++ (ops3b ++ ops3c) from takeOps_split _ _ _,
    after_append, after_append, ops3c_v3, ops3b_arg1, ops3b_v5, ops3b_v12, ops3a_arg1, ops3a_v5, takeOut_eq]

/-- The mean of two row blocks stacked: the sum of every entry, from zero, divided by 128000000. -/
def lossOf (a b : (⟨S1000000x64, .f32⟩ : BufTy).Contents (Elt F)) : (⟨S_, .f32⟩ : BufTy).Contents (Elt F) :=
  Host.divf
    (Host.reduceAdd
      (concatenate S2000000x64 0 [⟨S1000000x64, a⟩, ⟨S1000000x64, b⟩] concatenates_S1000000x64_S1000000x64_S2000000x64_d0)
      (constant S_ .f32 0x00000000#32 : (⟨S_, .f32⟩ : BufTy).Contents (Elt F)) reducesTo_S2000000x64_S_d0_1 h_S_)
    (constant S_ .f32 0x4CF42400#32 : (⟨S_, .f32⟩ : BufTy).Contents (Elt F))

/-- `lossOut` is that mean of the two gathered blocks. -/
theorem lossOut_eq (t0 t1 : (⟨S2000000x64, .f32⟩ : BufTy).Contents (Elt F)) (r0 r1 : (⟨S1000000, .i32⟩ : BufTy).Contents (Elt F)) :
    lossOut t0 t1 r0 r1 = lossOf (takeOut t0 r0) (takeOut t1 r1) := rfl

/-- The last stretch leaves the loss buffer at the mean of the two gathered blocks' buffers' contents. -/
theorem ops4_v6 (V : Valuation τ sig (Elt F)) :
    after ops4 V (Proc.devRef .tc main_v6) = lossOf (V (Proc.devRef .tc main_v2)) (V (Proc.devRef .tc main_v3)) := by
  simp only [ops4]
  after_results_simp
  rfl

/-! ## The five stretches chained -/

section Chain

variable (V0 : Valuation τ sig (Elt F))

/-- The buffers' contents after the first stretch, the first two, … -/
def val1 : Valuation τ sig (Elt F) := after ops0 V0
@[inherit_doc val1] def val2 : Valuation τ sig (Elt F) := after ops1 (val1 V0)
@[inherit_doc val1] def val3 : Valuation τ sig (Elt F) := after ops2 (val2 V0)
@[inherit_doc val1] def val4 : Valuation τ sig (Elt F) := after ops3 (val3 V0)
@[inherit_doc val1] def val5 : Valuation τ sig (Elt F) := after ops4 (val4 V0)

/-- The whole line is the five stretches one after the other. -/
theorem after_ops : after ops V0 = val5 V0 := by
  simp only [ops, after_append]
  rfl

/-- A buffer no stretch writes ends as it started. -/
theorem val5_keep (r : Ref sig .tc) (h0 : r ∉ ops0_W) (h1 : r ∉ ops1_W) (h2 : r ∉ ops2_W) (h3 : r ∉ ops3_W) (h4 : r ∉ ops4_W) :
    val5 V0 (Proc.devRef .tc r) = V0 (Proc.devRef .tc r) :=
  (ops4_keep (val4 V0) r h4).trans ((ops3_keep (val3 V0) r h3).trans ((ops2_keep (val2 V0) r h2).trans
    ((ops1_keep (val1 V0) r h1).trans (ops0_keep V0 r h0))))

theorem val1_v0 : val1 V0 (Proc.devRef .tc main_v0) = remOut (V0 (Proc.devRef .tc main_arg2)) := ops0_v0 V0

theorem val2_v0 : val2 V0 (Proc.devRef .tc main_v0) = remOut (V0 (Proc.devRef .tc main_arg2)) :=
  (ops1_keep (val1 V0) main_v0 (by decide)).trans (val1_v0 V0)
theorem val2_v1 : val2 V0 (Proc.devRef .tc main_v1) = remOut (V0 (Proc.devRef .tc main_arg3)) :=
  (ops1_v1 (val1 V0)).trans (by rw [show val1 V0 (Proc.devRef .tc main_arg3) = V0 (Proc.devRef .tc main_arg3) from ops0_keep V0 main_arg3 (by decide)])
theorem val2_arg0 : val2 V0 (Proc.devRef .tc main_arg0) = V0 (Proc.devRef .tc main_arg0) :=
  (ops1_keep (val1 V0) main_arg0 (by decide)).trans (ops0_keep V0 main_arg0 (by decide))
theorem val2_arg1 : val2 V0 (Proc.devRef .tc main_arg1) = V0 (Proc.devRef .tc main_arg1) :=
  (ops1_keep (val1 V0) main_arg1 (by decide)).trans (ops0_keep V0 main_arg1 (by decide))

theorem val3_v0 : val3 V0 (Proc.devRef .tc main_v0) = remOut (V0 (Proc.devRef .tc main_arg2)) :=
  (ops2_keep (val2 V0) main_v0 (by decide)).trans (val2_v0 V0)
theorem val3_v1 : val3 V0 (Proc.devRef .tc main_v1) = remOut (V0 (Proc.devRef .tc main_arg3)) :=
  (ops2_keep (val2 V0) main_v1 (by decide)).trans (val2_v1 V0)
theorem val3_v2 : val3 V0 (Proc.devRef .tc main_v2)
    = takeOut (V0 (Proc.devRef .tc main_arg0)) (remOut (V0 (Proc.devRef .tc main_arg2))) :=
  (ops2_v2 (val2 V0)).trans (by rw [val2_arg0, val2_v0])
theorem val3_arg1 : val3 V0 (Proc.devRef .tc main_arg1) = V0 (Proc.devRef .tc main_arg1) :=
  (ops2_keep (val2 V0) main_arg1 (by decide)).trans (val2_arg1 V0)

theorem val4_v0 : val4 V0 (Proc.devRef .tc main_v0) = remOut (V0 (Proc.devRef .tc main_arg2)) :=
  (ops3_keep (val3 V0) main_v0 (by decide)).trans (val3_v0 V0)
theorem val4_v1 : val4 V0 (Proc.devRef .tc main_v1) = remOut (V0 (Proc.devRef .tc main_arg3)) :=
  (ops3_keep (val3 V0) main_v1 (by decide)).trans (val3_v1 V0)
theorem val4_v2 : val4 V0 (Proc.devRef .tc main_v2)
    = takeOut (V0 (Proc.devRef .tc main_arg0)) (remOut (V0 (Proc.devRef .tc main_arg2))) :=
  (ops3_keep (val3 V0) main_v2 (by decide)).trans (val3_v2 V0)
theorem val4_v3 : val4 V0 (Proc.devRef .tc main_v3)
    = takeOut (V0 (Proc.devRef .tc main_arg1)) (remOut (V0 (Proc.devRef .tc main_arg3))) :=
  (ops3_v3 (val3 V0)).trans (by rw [val3_arg1, val3_v1])

theorem val5_v0 : val5 V0 (Proc.devRef .tc main_v0) = remOut (V0 (Proc.devRef .tc main_arg2)) :=
  (ops4_keep (val4 V0) main_v0 (by decide)).trans (val4_v0 V0)
theorem val5_v1 : val5 V0 (Proc.devRef .tc main_v1) = remOut (V0 (Proc.devRef .tc main_arg3)) :=
  (ops4_keep (val4 V0) main_v1 (by decide)).trans (val4_v1 V0)
theorem val5_v6 : val5 V0 (Proc.devRef .tc main_v6)
    = lossOut (V0 (Proc.devRef .tc main_arg0)) (V0 (Proc.devRef .tc main_arg1))
        (remOut (V0 (Proc.devRef .tc main_arg2))) (remOut (V0 (Proc.devRef .tc main_arg3))) :=
  (ops4_v6 (val4 V0)).trans (by rw [val4_v2, val4_v3, lossOut_eq])

end Chain

/-! ## The run -/

/-- On every device, for any float values, from any memory with zero counters: every weakly fair execution of
    @main terminates with the loss buffer at `lossOut` of the tables and the two remainders, each remainder buffer at
    `remOut` of its index vector, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v6) = lossOut (m ((c.tc : Thread nD τ).loc main_arg0)) (m ((c.tc : Thread nD τ).loc main_arg1)) (remOut (m ((c.tc : Thread nD τ).loc main_arg2))) (remOut (m ((c.tc : Thread nD τ).loc main_arg3)))
      ∧ r.2.mem ((c.tc : Thread nD τ).loc main_v0) = remOut (m ((c.tc : Thread nD τ).loc main_arg2))
      ∧ r.2.mem ((c.tc : Thread nD τ).loc main_v1) = remOut (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c main_v6).trans (by rw [after_ops]; exact val5_v6 (launchContents m c)),
       (h c main_v0).trans (by rw [after_ops]; exact val5_v0 (launchContents m c)),
       (h c main_v1).trans (by rw [after_ops]; exact val5_v1 (launchContents m c)),
       (h c main_arg0).trans (by rw [after_ops]; exact val5_keep (launchContents m c) main_arg0 (by decide) (by decide) (by decide) (by decide) (by decide)),
       (h c main_arg1).trans (by rw [after_ops]; exact val5_keep (launchContents m c) main_arg1 (by decide) (by decide) (by decide) (by decide) (by decide)),
       (h c main_arg2).trans (by rw [after_ops]; exact val5_keep (launchContents m c) main_arg2 (by decide) (by decide) (by decide) (by decide) (by decide)),
       (h c main_arg3).trans (by rw [after_ops]; exact val5_keep (launchContents m c) main_arg3 (by decide) (by decide) (by decide) (by decide) (by decide))⟩)
    (run_seq scopedRefs_eq scopedSems_eq defs main (fun _ => ops) main_eq (fun _ => ops_sub) m ρ (fun _ => ops_fresh))

end Cert.ReferenceIdeal.Hand

end
-- ==== Proof.RefValue.lean ====
/-
  The reference's three composed terms read as values.

  The remainder: at every position the vector operations compute the scalar floored remainder of the index
  there by 2000000, which lies in [0, 2000000); so every remapped id is a row of the table.

  The row gather: for an index vector whose entries all lie in [0, 2000000), no entry is negative, so the wrap
  leaves it; every entry passes the test 0 ≤ index ≤ 1999999, so each row's mask bit, the `and` of its one test,
  is 1; the gather reads the table at the row the index names, the clamp into [0, 1999999] changing nothing; and
  the select keeps the gathered value. Entry (i, d) of the result is the table's entry (r i, d).

  The mean: the sum of every entry of the two gathered blocks stacked is, from zero, the sum over all 2000000
  rows and 64 columns; the first 1000000 rows are the first block and the last 1000000 the second; each block's
  sum is the sum over lookups and columns of the table's entry at the looked-up row. Only commutativity and
  associativity of addition on the extended reals are used. The mean is that sum divided by the constant.
-/
import proofs.«410300_j15324443312170_3_alg».proof.Proof.RefTerms
import proofs.«410300_j15324443312170_3_alg».proof.Proof.Spec
import proofs.«410300_j15324443312170_3_alg».proof.Proof.LibIndex
import proofs.«410300_j15324443312170_3_alg».proof.Proof.IntFacts
import Idealize.ShloMosaic.Lib.ValueIdx
import Idealize.ShloMosaic.Lib.Pipeline.Value
import Idealize.ShloMosaic.PureOps.Reduce
import Idealize.ShloMosaic.PureOps.Ideal.Laws
import Mathlib.Algebra.BigOperators.Fin

noncomputable section

open scoped BigOperators

namespace Cert.ReferenceIdeal.HandValue

open Cert.ReferenceIdeal Cert.ReferenceIdeal.Hand Cert.Spec Idealize.ShloMosaic Idealize.ShloMosaic.ValueIdx
open Facts₀ Facts

variable [Facts]

/-! ## The remainder -/

section Remainder
variable {F : FTy → Type} [FloatOps F]

/-- At every position the remainder's vector operations compute the scalar floored remainder of the index there:
    the divisor, the truncated remainder and the sign correction are each the scalar chain's, element by element. -/
theorem remOut_apply (ids : (⟨S1000000, .i32⟩ : BufTy).Contents (Elt F)) (i : S1000000.Idx) :
    remOut (F := F) ids i = Cert.IntFacts.remS (ids i) := rfl

/-- So every remapped id is a row of the table. -/
theorem remOut_inRange (ids : (⟨S1000000, .i32⟩ : BufTy).Contents (Elt F)) : InRange (remOut (F := F) ids) := fun i => by
  rw [remOut_apply]
  exact Cert.IntFacts.remS_range (ids i)

end Remainder

/-! ## Broadcasts and the all-true reduction at an index -/

/-- A vector laid along the first axis of a rectangle reads, at (p, q), the vector at p. -/
theorem bcast_axis0_apply {α : Type} {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  unfold broadcastInDim
  refine congrArg v (funext fun a => Fin.ext ?_)
  obtain rfl : a = 0 := Subsingleton.elim _ _
  by_cases h1 : (⟨1, ![n]⟩ : Shape).size 0 = 1
  · rw [dif_pos h1]
    have hn : n = 1 := h1
    have hp := p.isLt
    show 0 = p.val
    omega
  · rw [dif_neg h1]
    rfl

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, Cert.IntFacts.bit_and_one_one]
    exact foldl_andi_one f hf l

/-! ## The row gather in range -/

/-- In range no index is negative: the wrap leaves it. -/
theorem takeWrap_apply (r : (⟨S1000000, .i32⟩ : BufTy).Contents (Elt Ideal)) (hr : InRange r) (i : Fin 1000000) :
    takeWrap (F := Ideal) r (ix1 i) = r (ix1 i) :=
  Cert.IntFacts.wrap_id (hr (ix1 i)).1

/-- The column of one-entry index vectors reads, at (i, 0), the wrapped index i. -/
theorem takeIdx_apply (r : (⟨S1000000, .i32⟩ : BufTy).Contents (Elt Ideal)) (i : Fin 1000000) :
    takeIdx (F := Ideal) r (ix2 i (0 : Fin 1)) = takeWrap (F := Ideal) r (ix1 i) :=
  bcast_axis0_apply bcast_S1000000_S1000000x1_0 (takeWrap (F := Ideal) r) i 0

/-- In range every index entry passes the range test 0 ≤ index ≤ 1999999. -/
theorem takeInRange_apply (r : (⟨S1000000, .i32⟩ : BufTy).Contents (Elt Ideal)) (hr : InRange r) (j : S1000000x1.Idx) :
    takeInRange (F := Ideal) r j = 1#1 := by
  obtain ⟨i, k, rfl⟩ : ∃ i k, j = ix2 i k := ⟨j 0, j 1, eq_ix2 j⟩
  obtain rfl : k = 0 := Subsingleton.elim _ _
  show IntOp.andi (IntOp.cmpi .sge (takeIdx (F := Ideal) r (ix2 i 0)) 0#32)
    (IntOp.cmpi .sle (takeIdx (F := Ideal) r (ix2 i 0)) 1999999#32) = 1#1
  rw [takeIdx_apply, takeWrap_apply r hr]
  exact Cert.IntFacts.range_mask (hr (ix1 i)).1 (hr (ix1 i)).2

/-- So every row's mask bit is 1. -/
theorem takeOk_apply (r : (⟨S1000000, .i32⟩ : BufTy).Contents (Elt Ideal)) (hr : InRange r) (j : S1000000.Idx) :
    takeOk (F := Ideal) r j = 1#1 := by
  unfold takeOk
  rw [Host.reduce_eq_foldl]
  exact foldl_andi_one _ (fun n => takeInRange_apply r hr n) _

/-- Row i of the gather, before the mask, is the table's row named by index i. -/
theorem takeRows_apply (tbl : (⟨S2000000x64, .f32⟩ : BufTy).Contents (Elt Ideal))
    (r : (⟨S1000000, .i32⟩ : BufTy).Contents (Elt Ideal)) (hr : InRange r) (i : Fin 1000000) (d : Fin 64) :
    takeRows (F := Ideal) tbl r (ix2 i d) = tbl (ix2 (rowOf (r (ix1 i))) d) := by
  have hg : takeRows (F := Ideal) tbl r = Host.gather (Cert.LibIndex.rowGatherDims 2000000 1000000 64
      gather_S2000000x64_S1000000x1_S1000000x64_1_0_n_n_0_1_164_wf) tbl (takeIdx (F := Ideal) r) := rfl
  rw [hg, Cert.LibIndex.rowGather_apply (by norm_num)]
  refine congrArg (fun a => tbl (ix2 a d)) (Fin.ext ?_)
  show min (takeIdx (F := Ideal) r (ix2 i 0)).toInt.toNat (2000000 - 1) = (rowOf (r (ix1 i))).val
  rw [takeIdx_apply, takeWrap_apply r hr]
  obtain ⟨h0, h1⟩ := hr (ix1 i)
  exact (Cert.IntFacts.clamp_id h0 h1).trans
    (rowOf_val_of_lt _ (Cert.IntFacts.toNat_lt_of_toInt h0 h1)).symm

/-- Row i of the result is the table's row named by index i: the mask bit is 1, so the gathered value is kept. -/
theorem takeOut_apply (tbl : (⟨S2000000x64, .f32⟩ : BufTy).Contents (Elt Ideal))
    (r : (⟨S1000000, .i32⟩ : BufTy).Contents (Elt Ideal)) (hr : InRange r) (i : Fin 1000000) (d : Fin 64) :
    takeOut (F := Ideal) tbl r (ix2 i d) = tbl (ix2 (rowOf (r (ix1 i))) d) := by
  unfold takeOut
  rw [select_apply, bcast_axis0_apply, takeOk_apply r hr, select_one, takeRows_apply tbl r hr]

/-! ## The mean -/

/-- A sum over 2000000 rows is the sum over the first 1000000 plus the sum over the last 1000000. -/
theorem sum_halves (f : Fin 2000000 → EReal) :
    ∑ k, f k = ∑ k : Fin 1000000, f ⟨k.val, by omega⟩ + ∑ k : Fin 1000000, f ⟨1000000 + k.val, by omega⟩ :=
  Fin.sum_univ_add (a := 1000000) (b := 1000000) f

/-- The stacked blocks read the first block in the first 1000000 rows … -/
theorem lossCat_left (t0 t1 : (⟨S2000000x64, .f32⟩ : BufTy).Contents (Elt Ideal))
    (r0 r1 : (⟨S1000000, .i32⟩ : BufTy).Contents (Elt Ideal)) (a : Fin 1000000) (b : Fin 64) :
    lossCat (F := Ideal) t0 t1 r0 r1 (ix2 (⟨a.val, by omega⟩ : Fin 2000000) b) = takeOut (F := Ideal) t0 r0 (ix2 a b) := by
  unfold lossCat
  exact concatenate_pair_apply_left (t := S2000000x64) (s₁ := S1000000x64) (s₂ := S1000000x64) (0 : Fin 2)
    (takeOut (F := Ideal) t0 r0) (takeOut (F := Ideal) t1 r1) concatenates_S1000000x64_S1000000x64_S2000000x64_d0
    (ix2 (⟨a.val, by omega⟩ : Fin 2000000) b) rfl (ix2 a b) fun c =>
      match c with
      | ⟨0, _⟩ => rfl
      | ⟨1, _⟩ => rfl

/-- … and the second block in the last 1000000. -/
theorem lossCat_right (t0 t1 : (⟨S2000000x64, .f32⟩ : BufTy).Contents (Elt Ideal))
    (r0 r1 : (⟨S1000000, .i32⟩ : BufTy).Contents (Elt Ideal)) (a : Fin 1000000) (b : Fin 64) :
    lossCat (F := Ideal) t0 t1 r0 r1 (ix2 (⟨1000000 + a.val, by omega⟩ : Fin 2000000) b) = takeOut (F := Ideal) t1 r1 (ix2 a b) := by
  unfold lossCat
  exact concatenate_pair_apply_right (t := S2000000x64) (s₁ := S1000000x64) (s₂ := S1000000x64) (0 : Fin 2)
    (takeOut (F := Ideal) t0 r0) (takeOut (F := Ideal) t1 r1) concatenates_S1000000x64_S1000000x64_S2000000x64_d0
    (ix2 (⟨1000000 + a.val, by omega⟩ : Fin 2000000) b) rfl rfl (ix2 a b)
    (fun c hc =>
      match c, hc with
      | ⟨0, _⟩, hc => absurd rfl hc
      | ⟨1, _⟩, _ => rfl)
    (Nat.add_comm a.val 1000000)

/-- The sum of every entry of the stacked blocks is the two tables' gathered sums added. -/
theorem lossSum_apply (t0 t1 : (⟨S2000000x64, .f32⟩ : BufTy).Contents (Elt Ideal))
    (r0 r1 : (⟨S1000000, .i32⟩ : BufTy).Contents (Elt Ideal)) (h0 : InRange r0) (h1 : InRange r1) (j : S_.Idx) :
    lossSum (F := Ideal) t0 t1 r0 r1 j = gatherSum t0 r0 + gatherSum t1 r1 := by
  have e0 : ∀ a : Fin 1000000, ∑ b : Fin 64, lossCat (F := Ideal) t0 t1 r0 r1 (ix2 (⟨a.val, by omega⟩ : Fin 2000000) b)
      = ∑ d : Fin 64, t0 (ix2 (rowOf (r0 (ix1 a))) d) := fun a =>
    Finset.sum_congr rfl fun b _ => (lossCat_left t0 t1 r0 r1 a b).trans (takeOut_apply t0 r0 h0 a b)
  have e1 : ∀ a : Fin 1000000, ∑ b : Fin 64, lossCat (F := Ideal) t0 t1 r0 r1 (ix2 (⟨1000000 + a.val, by omega⟩ : Fin 2000000) b)
      = ∑ d : Fin 64, t1 (ix2 (rowOf (r1 (ix1 a))) d) := fun a =>
    Finset.sum_congr rfl fun b _ => (lossCat_right t0 t1 r0 r1 a b).trans (takeOut_apply t1 r1 h1 a b)
  have hs : lossSum (F := Ideal) t0 t1 r0 r1 j = Ideal.hostReduceAdd reducesTo_S2000000x64_S_d0_1
      (lossCat (F := Ideal) t0 t1 r0 r1) (Ideal.ofBits .f32 0x00000000#32) j := rfl
  rw [hs, Ideal.hostReduceAdd_total _ (fun b => b.elim0), Ideal.ofBits_zero_f32, zero_add, sum_idx2, sum_halves]
  unfold gatherSum
  rw [Finset.sum_congr rfl fun a _ => e0 a, Finset.sum_congr rfl fun a _ => e1 a]

/-- The mean is the two gathered sums added, divided by the constant 128000000. -/
theorem lossOut_eq (t0 t1 : (⟨S2000000x64, .f32⟩ : BufTy).Contents (Elt Ideal))
    (r0 r1 : (⟨S1000000, .i32⟩ : BufTy).Contents (Elt Ideal)) (h0 : InRange r0) (h1 : InRange r1) :
    lossOut (F := Ideal) t0 t1 r0 r1
      = Host.divf (F := Ideal) (fun _ => gatherSum t0 r0 + gatherSum t1 r1) (constant (F := Ideal) S_ .f32 0x4CF42400#32) :=
  congrArg (fun s => Host.divf (F := Ideal) s (constant (F := Ideal) S_ .f32 0x4CF42400#32))
    (funext fun j => lossSum_apply t0 t1 r0 r1 h0 h1 j)

end Cert.ReferenceIdeal.HandValue

end
-- ==== Proof.Finite.lean ====
import proofs.«410300_j15324443312170_3_alg».proof.Pre_finite_inputs
import proofs.«410300_j15324443312170_3_alg».proof.Proof.Gen.Pre_finite_inputs
import proofs.«410300_j15324443312170_3_alg».proof.Proof.Spec
import Idealize.ShloMosaic.Lib.ReduceAll
import Idealize.ShloMosaic.Lib.ValueIdx
import Idealize.ShloMosaic.PureOps.Ideal

/-!
# The precondition read back: every table entry is a real number

The precondition is the conjunction, over the two tables, of "every entry x has |x| < +∞".
In the extended reals |x| = max x (-x), and max x (-x) < ⊤ excludes x = ⊤ and x = ⊥
(whose negation is ⊤), so x is a real number.
-/

namespace Cert.FiniteInputs

open Idealize.ShloMosaic Idealize.ShloMosaic.ValueIdx

/-- The scalar shape has exactly one index. -/
instance : Subsingleton Cert.Pre_finite_inputs.S_.Idx := ⟨fun _ _ => funext fun d => d.elim0⟩

/-- The word 0x7F800000 denotes +∞. -/
theorem ofBits_inf : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ y : ℝ, x = (y : EReal) := by
  induction x using EReal.rec with
  | bot => exact absurd h (by simp)
  | coe r => exact ⟨r, rfl⟩
  | top => exact absurd h (by simp)

/-- The element test |x| < +∞ answering 1 says x is a real number. -/
theorem real_of_elem (x : EReal)
    (e : Ideal.cmp .olt (max x (-x)) (Ideal.ofBits .f32 0x7F800000#32) = 1#1) :
    ∃ y : ℝ, x = (y : EReal) := by
  rw [ofBits_inf] at e
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at e
    exact absurd e (by decide)
  exact real_of_abs_lt_top x hlt

/-- The precondition answering 1 says every entry of both tables is a real number. -/
theorem finite_of_pre [Cert.Pre_finite_inputs.Facts]
    (a0 a1 : FVec Ideal Cert.Pre_finite_inputs.S2000000x64 .f32)
    (a2 a3 : IVec Cert.Pre_finite_inputs.S1000000 32)
    (h : Cert.Pre_finite_inputs.fn (F := Ideal) a0 a1 a2 a3 = fun _ => 1#1) :
    Cert.Spec.Finite a0 ∧ Cert.Spec.Finite a1 := by
  have h0 := congrFun h ValueIdx.ix0
  dsimp only [Cert.Pre_finite_inputs.fn] at h0
  obtain ⟨hA, hB⟩ := IntOp.andi_eq_one.1 h0
  refine ⟨fun j => ?_, fun j => ?_⟩
  · exact real_of_elem (a0 j) (Host.reduce_andi_all _ _ _ _ _ hA j)
  · exact real_of_elem (a1 j) (Host.reduce_andi_all _ _ _ _ _ hB j)

end Cert.FiniteInputs
-- ==== Proof.lean ====
/-
  The certificate. The kernel computes, per table, the count-weighted sum over the whole table of its rows, the counts
  being the histogram of the remapped ids; the reference gathers the rows the remapped ids name and sums them. For
  tables of real entries the two sums agree (each row is added once per lookup that names it), and both programs then
  add the two tables' sums and divide by the same element count. The remapped ids are the same function of the id
  words in both programs. The three frames: each program runs to the end, faults nowhere, and leaves its inputs as
  launched — the kernel programs by the several-launch run at any float instance, the reference by its host run.
-/
import proofs.«410300_j15324443312170_3_alg».proof.Defs
import proofs.«410300_j15324443312170_3_alg».proof.Proof.Gen.Kernel
import proofs.«410300_j15324443312170_3_alg».proof.Proof.Gen.KernelIdeal
import proofs.«410300_j15324443312170_3_alg».proof.Proof.Gen.ReferenceIdeal
import proofs.«410300_j15324443312170_3_alg».proof.Proof.Gen.Pre_finite_inputs
import proofs.«410300_j15324443312170_3_alg».proof.Proof.KB.Args
import proofs.«410300_j15324443312170_3_alg».proof.Proof.KI.Values
import proofs.«410300_j15324443312170_3_alg».proof.Proof.RefRun
import proofs.«410300_j15324443312170_3_alg».proof.Proof.RefValue
import proofs.«410300_j15324443312170_3_alg».proof.Proof.Finite

set_option maxRecDepth 16384

noncomputable section

namespace Cert.Proof

open Idealize.ShloMosaic Idealize.ShloMosaic.TcCoe Idealize.SL.Sem
open Cert.Spec

theorem frame_k : Cert.frame_Kernel := fun m ρ _ => Cert.Kernel.Run.frame m ρ

theorem frame_ki : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2.2.2) (Cert.ReferenceIdeal.Hand.run (F := Ideal) m ρ)

/-- The remapped ids are one function of the id words in both programs: the scalar remainder chain, element by element. -/
theorem rem_eq (ids : (⟨1, ![1000000]⟩ : Shape).Idx → BitVec 32) :
    Cert.ReferenceIdeal.Hand.remOut (F := Ideal) ids = Cert.KernelIdeal.Host.remOutK (F := Ideal) ids := by
  funext i
  rw [Cert.ReferenceIdeal.HandValue.remOut_apply, Cert.KernelIdeal.Host.remOutK_apply]

theorem algebraic : Cert.algebraic_KernelIdeal_ReferenceIdeal := by
  intro m ρ m' ρ' hpre hagree
  have hfin := fun c : Dev Cert.KernelIdeal.nD => Cert.FiniteInputs.finite_of_pre _ _ _ _ (hpre c)
  refine ⟨fun c => Host.divf (F := Ideal)
      (fun _ => gatherSum (m ((c.tc : Thread Cert.KernelIdeal.nD Cert.KernelIdeal.τ).loc Cert.KernelIdeal.main_arg0)) (Cert.KernelIdeal.Host.remOutK (m ((c.tc : Thread Cert.KernelIdeal.nD Cert.KernelIdeal.τ).loc Cert.KernelIdeal.main_arg2)))
        + gatherSum (m ((c.tc : Thread Cert.KernelIdeal.nD Cert.KernelIdeal.τ).loc Cert.KernelIdeal.main_arg1)) (Cert.KernelIdeal.Host.remOutK (m ((c.tc : Thread Cert.KernelIdeal.nD Cert.KernelIdeal.τ).loc Cert.KernelIdeal.main_arg3))))
      (constant (F := Ideal) Cert.KernelIdeal.S_ .f32 0x4CF42400#32),
    fun c => Cert.KernelIdeal.Host.remOutK (m ((c.tc : Thread Cert.KernelIdeal.nD Cert.KernelIdeal.τ).loc Cert.KernelIdeal.main_arg2)),
    fun c => Cert.KernelIdeal.Host.remOutK (m ((c.tc : Thread Cert.KernelIdeal.nD Cert.KernelIdeal.τ).loc Cert.KernelIdeal.main_arg3)), ?_, ?_⟩
  · exact (θ_run Cert.KernelIdeal.defs _ _).mono (fun _ h c =>
      ⟨(h c _ (Cert.KernelIdeal.Run.mem_uc Cert.KernelIdeal.main_v17 (by decide))).trans (Cert.KernelIdeal.Run.B9_v17_ideal m ρ c (hfin c).1 (hfin c).2),
       (h c _ (Cert.KernelIdeal.Run.mem_uc Cert.KernelIdeal.main_v0 (by decide))).trans (Cert.KernelIdeal.Run.B9_v0_eq m ρ c),
       (h c _ (Cert.KernelIdeal.Run.mem_uc Cert.KernelIdeal.main_v1 (by decide))).trans (Cert.KernelIdeal.Run.B9_v1_eq m ρ c),
       (h c _ (Cert.KernelIdeal.Run.mem_uc Cert.KernelIdeal.main_arg0 (by decide))).trans (Cert.KernelIdeal.Run.B9_main_arg0 m ρ c),
       (h c _ (Cert.KernelIdeal.Run.mem_uc Cert.KernelIdeal.main_arg1 (by decide))).trans (Cert.KernelIdeal.Run.B9_main_arg1 m ρ c),
       (h c _ (Cert.KernelIdeal.Run.mem_uc Cert.KernelIdeal.main_arg2 (by decide))).trans (Cert.KernelIdeal.Run.B9_main_arg2 m ρ c),
       (h c _ (Cert.KernelIdeal.Run.mem_uc Cert.KernelIdeal.main_arg3 (by decide))).trans (Cert.KernelIdeal.Run.B9_main_arg3 m ρ c)⟩)
      (Cert.KernelIdeal.Run.run_all m ρ)
  · refine (θ_run Cert.ReferenceIdeal.defs _ _).mono (fun _ h c => ?_) (Cert.ReferenceIdeal.Hand.run (F := Ideal) m' ρ')
    obtain ⟨h6, h0, h1, ha0, ha1, ha2, ha3⟩ := h c
    obtain ⟨e0, e1, e2, e3⟩ := hagree c
    refine ⟨?_, ?_, ?_, ha0, ha1, ha2, ha3⟩
    · rw [h6, e0, e1, e2, e3, Cert.ReferenceIdeal.HandValue.lossOut_eq _ _ _ _
        (Cert.ReferenceIdeal.HandValue.remOut_inRange _) (Cert.ReferenceIdeal.HandValue.remOut_inRange _), rem_eq, rem_eq]
      rfl
    · rw [h0, e2]; exact rem_eq _
    · rw [h1, e3]; exact rem_eq _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
